-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S8192x512 .f32) (main_arg1 : IVec S8192x8192 32) (main_arg2 : FVec F S512x256 .f32) (main_arg3 : FVec F S256x1 .f32) (main_arg4 : FVec F S256x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S8192x256 : Shape := ⟨2, ![8192, 256]⟩
abbrev S8192x1 : Shape := ⟨2, ![8192, 1]⟩
abbrev S4x8x256 : Shape := ⟨3, ![4, 8, 256]⟩
abbrev S2048x512 : Shape := ⟨2, ![2048, 512]⟩
abbrev S2048x256 : Shape := ⟨2, ![2048, 256]⟩
abbrev S2048x1 : Shape := ⟨2, ![2048, 1]⟩
abbrev S1x8x256 : Shape := ⟨3, ![1, 8, 256]⟩
abbrev S256 : Shape := ⟨1, ![256]⟩
abbrev S1x256 : Shape := ⟨2, ![1, 256]⟩
abbrev S1x1x256 : Shape := ⟨3, ![1, 1, 256]⟩
abbrev S4x1x256 : Shape := ⟨3, ![4, 1, 256]⟩
abbrev S4x256 : Shape := ⟨2, ![4, 256]⟩
abbrev S_ : Shape := ⟨0, ![]⟩
abbrev S1x1 : Shape := ⟨2, ![1, 1]⟩
abbrev S1x8192 : Shape := ⟨2, ![1, 8192]⟩
abbrev S8192x128 : Shape := ⟨2, ![8192, 128]⟩
abbrev S1 : Shape := ⟨1, ![1]⟩
abbrev S8192 : Shape := ⟨1, ![8192]⟩
abbrev S8192x384 : Shape := ⟨2, ![8192, 384]⟩
abbrev S256x384 : Shape := ⟨2, ![256, 384]⟩
abbrev S2048 : Shape := ⟨1, ![2048]⟩
abbrev S2048x384 : Shape := ⟨2, ![2048, 384]⟩

abbrev nBuf : Space → Nat
  | .hbm => 35
  | .vmem => 29
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S256x1, .f32⟩
  | .hbm, ⟨4, _⟩ => ⟨S256x1, .f32⟩
  | .hbm, ⟨5, _⟩ => ⟨S8192x256, .bf16⟩
  | .hbm, ⟨6, _⟩ => ⟨S8192x1, .f32⟩
  | .hbm, ⟨7, _⟩ => ⟨S8192x1, .f32⟩
  | .hbm, ⟨8, _⟩ => ⟨S4x8x256, .f32⟩
  | .hbm, ⟨9, _⟩ => ⟨S4x1x256, .f32⟩
  | .hbm, ⟨10, _⟩ => ⟨S4x256, .f32⟩
  | .hbm, ⟨11, _⟩ => ⟨S_, .f32⟩
  | .hbm, ⟨12, _⟩ => ⟨S256, .f32⟩
  | .hbm, ⟨13, _⟩ => ⟨S1x256, .f32⟩
  | .hbm, ⟨14, _⟩ => ⟨S_, .f32⟩
  | .hbm, ⟨15, _⟩ => ⟨S1x256, .f32⟩
  | .hbm, ⟨16, _⟩ => ⟨S1x256, .f32⟩
  | .hbm, ⟨17, _⟩ => ⟨S1x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S1x8192, .f32⟩
  | .hbm, ⟨26, _⟩ => ⟨S_, .bf16⟩
  | .hbm, ⟨27, _⟩ => ⟨S8192x128, .bf16⟩
  | .hbm, ⟨28, _⟩ => ⟨S_, .i32⟩
  | .hbm, ⟨29, _⟩ => ⟨S1, .i32⟩
  | .hbm, ⟨30, _⟩ => ⟨S_, .bf16⟩
  | .hbm, ⟨31, _⟩ => ⟨S8192, .bf16⟩
  | .hbm, ⟨32, _⟩ => ⟨S8192x128, .bf16⟩
  | .hbm, ⟨33, _⟩ => ⟨S8192x384, .bf16⟩
  | .hbm, ⟨34, _⟩ => ⟨S8192x256, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S256x1, .f32⟩
  | .local _ .vmem, ⟨4, _⟩ => ⟨S256x1, .f32⟩
  | .local _ .vmem, ⟨5, _⟩ => ⟨S2048x256, .bf16⟩
  | .local _ .vmem, ⟨6, _⟩ => ⟨S2048x256, .bf16⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S1x8x256, .f32⟩
  | .local _ .vmem, ⟨12, _⟩ => ⟨S1x8x256, .f32⟩
  | .local _ .vmem, ⟨13, _⟩ => ⟨S2048x1, .f32⟩
  | .local _ .vmem, ⟨14, _⟩ => ⟨S2048x1, .f32⟩
  | .local _ .vmem, ⟨15, _⟩ => ⟨S1x256, .f32⟩
  | .local _ .vmem, ⟨16, _⟩ => ⟨S1x256, .f32⟩
  | .local _ .vmem, ⟨17, _⟩ => ⟨S2048x256, .i32⟩
  | .local _ .vmem, ⟨18, _⟩ => ⟨S2048x256, .i32⟩
  | .local _ .vmem, ⟨19, _⟩ => ⟨S256x384, .bf16⟩
  | .local _ .vmem, ⟨20, _⟩ => ⟨S256x384, .bf16⟩
  | .local _ .vmem, ⟨21, _⟩ => ⟨S2048x1, .f32⟩
  | .local _ .vmem, ⟨22, _⟩ => ⟨S2048x1, .f32⟩
  | .local _ .vmem, ⟨23, _⟩ => ⟨S1x256, .f32⟩
  | .local _ .vmem, ⟨24, _⟩ => ⟨S2048x256, .f32⟩
  | .local _ .vmem, ⟨25, _⟩ => ⟨S2048x256, .f32⟩
  | .local _ .vmem, ⟨26, _⟩ => ⟨S2048x1, .f32⟩
  | .local _ .vmem, ⟨27, _⟩ => ⟨S2048x1, .f32⟩
  | .local _ .vmem, ⟨28, _⟩ => ⟨S2048x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 32], ![false, false]⟩

def k1_cond2 (i : grid1.Coords) : BitVec 1 :=
  let arg1 : BitVec 32 := BitVec.ofNat 32 (i 1).val
  let c31_i32 : BitVec 32 := 31#32
  let v49 : BitVec 1 := Scalar.cmpi .eq arg1 c31_i32
  let v50 : BitVec 32 := Scalar.extui v49
  let c0_i32_24 : BitVec 32 := 0#32
  let v51 : BitVec 1 := Scalar.cmpi .ne v50 c0_i32_24
  v51

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x384 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S256x1_S256x1_0_0 : ∀ a, (![0, 0] : Fin 2 → Nat) a + S256x1.size a ≤ S256x1.size a
  h_S256x1 : 0 < S256x1.numel
  inb_S2048x1_S2048x1_0_0 : ∀ a, (![0, 0] : Fin 2 → Nat) a + S2048x1.size a ≤ S2048x1.size a
  h_S2048x1 : 0 < S2048x1.numel
  reduces_S2048x256_S256 : S2048x256.Reduces [0] S256
  shapeCasts_S256_S1x256 : S256.ShapeCasts S1x256
  shapeCasts_S1x256_S1x1x256 : S1x256.ShapeCasts S1x1x256
  shapeCasts_S1x1x256_S1x1x256 : S1x1x256.ShapeCasts S1x1x256
  broadcasts_S1x1x256_S1x8x256 : S1x1x256.Broadcasts S1x8x256
  inb_S1x8x256_S1x8x256_0_0_0 : ∀ a, (![0, 0, 0] : Fin 3 → Nat) a + S1x8x256.size a ≤ S1x8x256.size a
  h_S1x8x256 : 0 < S1x8x256.numel
  slices_S4x8x256_S4x1x256_0_0_0 : S4x8x256.Slices ![0, 0, 0] S4x1x256
  shapeCasts_S4x1x256_S4x256 : S4x1x256.ShapeCasts S4x256
  reducesTo_S4x256_S256_d0 : S4x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  shapeCasts_S1x1_S_ : S1x1.ShapeCasts S_
  bcast_S_S8192x1 : S_.BroadcastsInDim S8192x1 (![] : Fin 0 → Fin S8192x1.rank)
  transposes_S8192x1_S1x8192_1_0 : S8192x1.Transposes [1, 0] S1x8192
  bcast_S_S8192x128 : S_.BroadcastsInDim S8192x128 (![] : Fin 0 → Fin S8192x128.rank)
  bcast_S_S1 : S_.BroadcastsInDim S1 (![] : Fin 0 → Fin S1.rank)
  bcast_S_S8192 : S_.BroadcastsInDim S8192 (![] : Fin 0 → Fin S8192.rank)
  concatenates_S8192x256_S8192x128_S8192x384_d1 : Shape.Concatenates [S8192x256, S8192x128] S8192x384 1
  shapeCasts_S2048x1_S2048x1 : S2048x1.ShapeCasts S2048x1
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2048x1_S2048x256 : S2048x1.Broadcasts S2048x256
  broadcasts_S1x256_S2048x256 : S1x256.Broadcasts S2048x256
  reduces_S2048x256_S2048 : S2048x256.Reduces [1] S2048
  shapeCasts_S2048_S2048x1 : S2048.ShapeCasts S2048x1
  inb_S256x384_S256x384_0_0 : ∀ a, (![0, 0] : Fin 2 → Nat) a + S256x384.size a ≤ S256x384.size a
  h_S256x384 : 0 < S256x384.numel
  shapeCasts_S256x384_S256x384 : S256x384.ShapeCasts S256x384
  slices_S2048x384_o0_0_S2048x256 : S2048x384.Slices ![0, 0] S2048x256
  slices_S2048x384_o0_256_S2048x1 : S2048x384.Slices ![0, 256] S2048x1
  dot_S2048x512_S512x256_S2048x256_1_0_0_1_n_n_wf : DotDims.WF S2048x512 S512x256 S2048x256 [1] [0] [0] [1] [] []
  dot_S2048x256_S256x1_S2048x1_1_0_0_1_n_n_wf : DotDims.WF S2048x256 S256x1 S2048x1 [1] [0] [0] [1] [] []
  dot_S1x256_S256x1_S1x1_1_0_0_1_n_n_wf : DotDims.WF S1x256 S256x1 S1x1 [1] [0] [0] [1] [] []
  scatter_S8192x128_S1_S8192_0_1_1_0_wf : ScatterDims.WF S8192x128 S1 S8192 [0] [1] [1] 0
  dot_S2048x256_S256x384_S2048x384_1_0_0_1_n_n_wf : DotDims.WF S2048x256 S256x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .bf16 = 32 ∨ (Rect.block (s := S8192x256) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S8192x1.size a
  hwx0_5 : ∀ i : grid0.Coords, EltTy.bits .f32 = 32 ∨ (Rect.block (s := S8192x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S8192x1.size a
  hwx0_6 : ∀ i : grid0.Coords, EltTy.bits .f32 = 32 ∨ (Rect.block (s := S8192x1) S2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x256.size a ≤ S4x8x256.size a
  hwx0_7 : ∀ i : grid0.Coords, EltTy.bits .f32 = 32 ∨ (Rect.block (s := S4x8x256) S1x8x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S8192x1.size a
  hwx1_0 : ∀ i : grid1.Coords, EltTy.bits .f32 = 32 ∨ (Rect.block (s := S8192x1) S2048x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x8192.size a
  hwx1_1 : ∀ i : grid1.Coords, EltTy.bits .f32 = 32 ∨ (Rect.block (s := S1x8192) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x8192.size a
  hwx1_2 : ∀ i : grid1.Coords, EltTy.bits .i32 = 32 ∨ (Rect.block (s := S8192x8192) S2048x256.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x384.size a ≤ S8192x384.size a
  hwx1_3 : ∀ i : grid1.Coords, EltTy.bits .bf16 = 32 ∨ (Rect.block (s := S8192x384) S256x384.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S8192x1.size a
  hwx1_4 : ∀ i : grid1.Coords, EltTy.bits .f32 = 32 ∨ (Rect.block (s := S8192x1) S2048x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S8192x256.size a
  hwx1_6 : ∀ i : grid1.Coords, EltTy.bits .f32 = 32 ∨ (Rect.block (s := S8192x256) S2048x256.size (cc1_transform_6 i) (hinb1_6 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf
def scatter_S8192x128_S1_S8192_0_1_1_0 : ScatterDims S8192x128 S1 S8192 where
  updateWindowDims := [0]
  insertedWindowDims := [1]
  scatterDimsToOperandDims := [1]
  indexVectorDim := 0
  wf := scatter_S8192x128_S1_S8192_0_1_1_0_wf
def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2048x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2048x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S2048x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S1x8x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_1) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S256x384.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S2048x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S2048x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S8192x256 : Shape := ⟨2, ![8192, 256]⟩
abbrev S8192x1 : Shape := ⟨2, ![8192, 1]⟩
abbrev S1x8192 : Shape := ⟨2, ![1, 8192]⟩
abbrev S_ : Shape := ⟨0, ![]⟩
abbrev S256 : Shape := ⟨1, ![256]⟩
abbrev S1x256 : Shape := ⟨2, ![1, 256]⟩
abbrev S1x1 : Shape := ⟨2, ![1, 1]⟩
abbrev S8192x8193 : Shape := ⟨2, ![8192, 8193]⟩
abbrev S8192 : Shape := ⟨1, ![8192]⟩
abbrev S8193x256 : Shape := ⟨2, ![8193, 256]⟩

abbrev nBuf : Space → Nat
  | .hbm => 75
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S256x1, .f32⟩
  | .hbm, ⟨4, _⟩ => ⟨S256x1, .f32⟩
  | .hbm, ⟨5, _⟩ => ⟨S8192x256, .f32⟩
  | .hbm, ⟨6, _⟩ => ⟨S8192x1, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S256, .f32⟩
  | .hbm, ⟨28, _⟩ => ⟨S1x256, .f32⟩
  | .hbm, ⟨29, _⟩ => ⟨S_, .f32⟩
  | .hbm, ⟨30, _⟩ => ⟨S1x256, .f32⟩
  | .hbm, ⟨31, _⟩ => ⟨S1x256, .f32⟩
  | .hbm, ⟨32, _⟩ => ⟨S1x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S_, .f32⟩
  | .hbm, ⟨37, _⟩ => ⟨S8192x1, .f32⟩
  | .hbm, ⟨38, _⟩ => ⟨S8192x1, .i1⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x8193, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x8193, .f32⟩
  | .hbm, ⟨51, _⟩ => ⟨S8192x8193, .f32⟩
  | .hbm, ⟨52, _⟩ => ⟨S8192x8193, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x8193, .f32⟩
  | .hbm, ⟨57, _⟩ => ⟨S8192x8193, .f32⟩
  | .hbm, ⟨58, _⟩ => ⟨S8193x256, .f32⟩
  | .hbm, ⟨59, _⟩ => ⟨S8192x256, .f32⟩
  | .hbm, ⟨60, _⟩ => ⟨S_, .f32⟩
  | .hbm, ⟨61, _⟩ => ⟨S8192x256, .f32⟩
  | .hbm, ⟨62, _⟩ => ⟨S8192x256, .i1⟩
  | .hbm, ⟨63, _⟩ => ⟨S_, .f32⟩
  | .hbm, ⟨64, _⟩ => ⟨S8192x256, .f32⟩
  | .hbm, ⟨65, _⟩ => ⟨S8192x256, .i1⟩
  | .hbm, ⟨66, _⟩ => ⟨S_, .f32⟩
  | .hbm, ⟨67, _⟩ => ⟨S_, .f32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S_, .f32⟩
  | .hbm, ⟨72, _⟩ => ⟨S8192x256, .f32⟩
  | .hbm, ⟨73, _⟩ => ⟨S8192x256, .f32⟩
  | .hbm, ⟨74, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_call1_v0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call2_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call3_cst : Ref sig .tc := ⟨.hbm, 60, rfl⟩
abbrev main_call3_v0 : Ref sig .tc := ⟨.hbm, 61, rfl⟩
abbrev main_call3_v1 : Ref sig .tc := ⟨.hbm, 62, rfl⟩
abbrev main_call3_cst_0 : Ref sig .tc := ⟨.hbm, 63, rfl⟩
abbrev main_call3_v2 : Ref sig .tc := ⟨.hbm, 64, rfl⟩
abbrev main_call3_v3 : Ref sig .tc := ⟨.hbm, 65, rfl⟩
abbrev main_call3_cst_1 : Ref sig .tc := ⟨.hbm, 66, rfl⟩
abbrev main_call3_call0_v0 : Ref sig .tc := ⟨.hbm, 67, rfl⟩
abbrev main_call3_call0_v1 : Ref sig .tc := ⟨.hbm, 68, rfl⟩
abbrev main_call3_v4 : Ref sig .tc := ⟨.hbm, 69, rfl⟩
abbrev main_call3_v5 : Ref sig .tc := ⟨.hbm, 70, rfl⟩
abbrev main_call3_cst_2 : Ref sig .tc := ⟨.hbm, 71, rfl⟩
abbrev main_call3_v6 : Ref sig .tc := ⟨.hbm, 72, rfl⟩
abbrev main_call3_v7 : Ref sig .tc := ⟨.hbm, 73, rfl⟩
abbrev main_v33 : Ref sig .tc := ⟨.hbm, 74, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x256_S256_d0 : S8192x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  concatenates_S8192x8192_S8192x1_S8192x8193_d1 : Shape.Concatenates [S8192x8192, S8192x1] S8192x8193 1
  reducesTo_S8192x8193_S8192_d1 : S8192x8193.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8193_0_1 : S8192x1.BroadcastsInDim S8192x8193 (![0, 1] : Fin 2 → Fin S8192x8193.rank)
  concatenates_S8192x256_S1x256_S8193x256_d0 : Shape.Concatenates [S8192x256, S1x256] S8193x256 0
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S1x256_S256x1_S1x1_1_0_0_1_n_n_wf : DotDims.WF S1x256 S256x1 S1x1 [1] [0] [0] [1] [] []
  dot_S8192x8193_S8193x256_S8192x256_1_0_0_1_n_n_wf : DotDims.WF S8192x8193 S8193x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf
def dot_S8192x8193_S8193x256_S8192x256_1_0_0_1_n_n : DotDims S8192x8193 S8193x256 S8192x256 where
  lhsContracting := [1]
  rhsContracting := [0]
  lhsNonContracting := [0]
  rhsNonContracting := [1]
  lhsBatch := []
  rhsBatch := []
  wf := dot_S8192x8193_S8193x256_S8192x256_1_0_0_1_n_n_wf

class Facts : Prop extends Facts₀ where

variable [Facts]
-- ==== Proof.KbR0.lean ====
/-
  The first pallas_call of the program, point by point. Its grid has four points; at point t the body
  reads rows 2048·t … 2048·t+2047 of x (window 0) and the whole of W, a1 and a2 (windows 1–3, fetched once),
  and stores four blocks: h = x·W narrowed (window 4), the two logit columns h·a1 and h·a2 (windows 5, 6),
  and the column sums of the tile's h repeated over eight sublanes (window 7). No block depends on another
  point, so what each output buffer holds after the body is one store over the input blocks.
  Everything is stated at a parameter V, the contents of the unscoped buffers when the region is entered.
-/
import proofs.«430248_j1580547967873_3_alg».proof.Proof.Gen.Kernel.Launch
import proofs.«430248_j1580547967873_3_alg».proof.Proof.Gen.Kernel.Skeleton
import proofs.«430248_j1580547967873_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, whether the pipeline fetched it there or the block
    index has not moved since it did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! The body's rectangles: every load and store is of a whole buffer. -/
abbrev r0_x : Rect S2048x512 := Rect.unit (s := S2048x512) ![0, 0] S2048x512.size inb_S2048x512_S2048x512_0_0
abbrev r0_w : Rect S512x256 := Rect.unit (s := S512x256) ![0, 0] S512x256.size inb_S512x256_S512x256_0_0
abbrev r0_a : Rect S256x1 := Rect.unit (s := S256x1) ![0, 0] S256x1.size inb_S256x1_S256x1_0_0
abbrev r0_h : Rect S2048x256 := Rect.unit (s := S2048x256) ![0, 0] S2048x256.size inb_S2048x256_S2048x256_0_0
abbrev r0_l : Rect S2048x1 := Rect.unit (s := S2048x1) ![0, 0] S2048x1.size inb_S2048x1_S2048x1_0_0
abbrev r0_s : Rect S1x8x256 := Rect.unit (s := S1x8x256) ![0, 0, 0] S1x8x256.size inb_S1x8x256_S1x8x256_0_0_0

/-- What the body leaves in window 4's buffer (the narrowed product), from the blocks of x and W. -/
def out0_4 (x0 : Vec F S2048x512 .f32) (x1 : Vec F S512x256 .f32) : Vec F S2048x256 .bf16 :=
  View.canon [⟨r0_h, k0_pay2 (View.ld x0 r0_x) (View.ld x1 r0_w)⟩]
/-- Window 5's buffer: the product against a1. -/
def out0_5 (x0 : Vec F S2048x512 .f32) (x1 : Vec F S512x256 .f32) (x2 : Vec F S256x1 .f32) : Vec F S2048x1 .f32 :=
  View.canon [⟨r0_l, k0_pay3 (View.ld x0 r0_x) (View.ld x1 r0_w) (View.ld x2 r0_a)⟩]
/-- Window 6's buffer: the product against a2. -/
def out0_6 (x0 : Vec F S2048x512 .f32) (x1 : Vec F S512x256 .f32) (x3 : Vec F S256x1 .f32) : Vec F S2048x1 .f32 :=
  View.canon [⟨r0_l, k0_pay4 (View.ld x0 r0_x) (View.ld x1 r0_w) (View.ld x3 r0_a)⟩]
/-- Window 7's buffer: the tile's column sums, on eight sublanes. -/
def out0_7 (x0 : Vec F S2048x512 .f32) (x1 : Vec F S512x256 .f32) : Vec F S1x8x256 .f32 :=
  View.canon [⟨r0_s, k0_pay5 (View.ld x0 r0_x) (View.ld x1 r0_w)⟩]

theorem cover0_4 (p0 : Vec F S2048x256 .bf16) (y : S2048x256.Idx) :
    ∃ pc ∈ ([⟨r0_h, p0⟩] : List (View.Piece (Elt F) S2048x256 .bf16)), y ∈ pc.1.set :=
  View.cover_of_tiled [⟨r0_h, p0⟩] S2048x256.size (by rfl) y
theorem cover0_5 (p0 : Vec F S2048x1 .f32) (y : S2048x1.Idx) :
    ∃ pc ∈ ([⟨r0_l, p0⟩] : List (View.Piece (Elt F) S2048x1 .f32)), y ∈ pc.1.set :=
  View.cover_of_tiled [⟨r0_l, p0⟩] S2048x1.size (by rfl) y
theorem cover0_7 (p0 : Vec F S1x8x256 .f32) (y : S1x8x256.Idx) :
    ∃ pc ∈ ([⟨r0_s, p0⟩] : List (View.Piece (Elt F) S1x8x256 .f32)), y ∈ pc.1.set :=
  View.cover_of_tiled [⟨r0_s, p0⟩] S1x8x256.size (by rfl) y

set_option maxHeartbeats 4000000 in
/-- The body on whole staging memrefs: the four inputs at read contents, the four outputs at anything; it hands back
    the inputs as they were and each output at its one store. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S2048x256 .bf16) (harg5 : arg5.IsWhole) (arg6 : Memref sig .tc .vmem S2048x1 .f32) (harg6 : arg6.IsWhole)
    (arg7 : Memref sig .tc .vmem S2048x1 .f32) (harg7 : arg7.IsWhole) (arg8 : Memref sig .tc .vmem S1x8x256 .f32) (harg8 : arg8.IsWhole)
    (x0 : Vec F S2048x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3) ∗ owns (c : Thread nD τ) arg8 fullShare (out0_7 x0 x1)) -∗ K ⟨⟩))
      ⊢ wp frame (wpE (defs₀ (F := F)) Variants.none c none) E (cc0__matmul_logits_kernel i arg1 harg1 arg2 harg2 arg3 harg3 arg4 harg4 arg5 harg5 arg6 harg6 arg7 harg7 arg8 harg8) K := by
  simp only [cc0__matmul_logits_kernel_eq_skeleton]; unfold cc0__matmul_logits_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_5 _)
  iexists _; isplitr
  swap; · iexact H7
  ipureintro
  exact View.read_writes_eq_canon _ _ _ (cover0_7 _)

/-- The first pipeline's proof data on core c: arrays as the region finds them; each input's buffer at its block, each
    output's at its store over the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
    | ⟨7, _⟩ => out0_7 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem after0_7 (c : Dev nD) (t : Fin cfg0.N) : (dat0 V c).after 7 t = out0_7 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KbR1Runs.lean ====
/-
  The second pallas_call, one grid point at a time. The grid is 4 × 32: point t = 32·q + k handles rows
  2048·q … of the attention matrix against keys 256·k …. Three scratch buffers are carried along k: the
  running row maximum, the running denominator and the running numerator. The body has two conditionals on
  the grid position: at k = 0 it resets the three scratch buffers, at k = 31 it folds in the virtual node and
  stores the output block. On this grid exactly three assignments of the two conditions occur — first
  (k = 0), middle (0 < k < 31), last (k = 31) — and the body is run once for each.
-/
import proofs.«430248_j1580547967873_3_alg».proof.Proof.Gen.Kernel.Launch
import proofs.«430248_j1580547967873_3_alg».proof.Proof.Gen.Kernel.Skeleton
import proofs.«430248_j1580547967873_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The two conditions, decided over the grid -/

/-- The reset's condition (the key-tile coordinate is 0), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- The finalisation's condition (the key-tile coordinate is 31). -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last key tile the output window is idle and is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/
abbrev VO1_6 : View sig .tc .vmem S2048x256 .f32 := (Memref.whole cc1_stg6_0 : Memref sig .tc .vmem S2048x256 .f32).view
abbrev ms1_0 (t : Fin cfg1.N) : Memref sig .tc .vmem S2048x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x384 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x256 .f32 := win1_6.stage (cfg1.slots t 6)
abbrev hs1_6 (t : Fin cfg1.N) : (ms1_6 t).IsWhole := hstage1_6 ((cfg1.slots t 6).cast nbuf1_6)
/-- The three scratch operands: the running maximum, the running denominator, the running numerator. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x256 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x256 .f32 := scM1_2.view

/-! ## The body, case by case -/

set_option maxHeartbeats 4000000 in
/-- FIRST key tile (reset taken, finalisation not): the scratch buffers may hold anything; the output's buffer is handed
    back untouched. The pieces each scratch buffer ends with are what the run finds. -/
noncomputable def kernelRun1_A (c : Dev nD) (i : grid1.Coords) (arg2 : Memref sig .tc .vmem S2048x1 .f32) (harg2 : arg2.IsWhole) (arg3 : Memref sig .tc .vmem S1x256 .f32) (harg3 : arg3.IsWhole) (arg4 : Memref sig .tc .vmem S2048x256 .i32) (harg4 : arg4.IsWhole) (arg5 : Memref sig .tc .vmem S256x384 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x1 .f32) (x1 : Vec F S1x256 .f32) (x2 : Vec F S2048x256 .i32) (x3 : Vec F S256x384 .bf16) (x4 : Vec F S2048x1 .f32) (x5 : Vec F S1x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

set_option maxHeartbeats 4000000 in
/-- MIDDLE key tiles (neither conditional taken): the scratch buffers hold what the point before left. -/
noncomputable def kernelRun1_B (c : Dev nD) (i : grid1.Coords) (arg2 : Memref sig .tc .vmem S2048x1 .f32) (harg2 : arg2.IsWhole) (arg3 : Memref sig .tc .vmem S1x256 .f32) (harg3 : arg3.IsWhole) (arg4 : Memref sig .tc .vmem S2048x256 .i32) (harg4 : arg4.IsWhole) (arg5 : Memref sig .tc .vmem S256x384 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

set_option maxHeartbeats 4000000 in
/-- LAST key tile (finalisation taken, reset not): the scratch buffers hold what the point before left; the output's
    buffer may hold anything and ends with the pieces the run finds. -/
noncomputable def kernelRun1_C (c : Dev nD) (i : grid1.Coords) (arg2 : Memref sig .tc .vmem S2048x1 .f32) (harg2 : arg2.IsWhole) (arg3 : Memref sig .tc .vmem S1x256 .f32) (harg3 : arg3.IsWhole) (arg4 : Memref sig .tc .vmem S2048x256 .i32) (harg4 : arg4.IsWhole) (arg5 : Memref sig .tc .vmem S256x384 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Fr

end
-- ==== Proof.KbR1.lean ====
/-
  The second pallas_call over its whole grid. After the body at point n the output's staging buffer and the three
  scratch buffers hold what the case of that point leaves, computed from the point's input blocks and, away from a
  first key tile, from what the point before left in the scratch buffers: a recursion on the point. The region
  invariant carries the three scratch buffers at those contents from one point to the next (before the first
  point they hold anything); the staging buffers of the other pallas_call ride along untouched.
-/
import proofs.«430248_j1580547967873_3_alg».proof.Proof.KbR1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The output block and the three scratch buffers, as one tuple. -/
abbrev Res1 (F : FTy → Type) : Type := Vec F S2048x256 .f32 × Vec F S2048x1 .f32 × Vec F S2048x1 .f32 × Vec F S2048x256 .f32

/-- What the body leaves at a point of this kind: the output's buffer (a placeholder where the window is idle), then the
    three scratch buffers, each as its stores read back. -/
abbrev runA (c : Dev nD) (t : Fin cfg1.N) (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32)  :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 x0 x1 x2 x3 x4 x5
def resA (c : Dev nD) (t : Fin cfg1.N) (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32)  : Res1 F :=
  (VO1_6.read (Elt F) (VO1_6.writes (Elt F) VO1_6.junk (runA c t h0 h1 x0 x1 x2 x3 x4 x5 ).1),
   VS1_0.read (Elt F) (VS1_0.writes (Elt F) VS1_0.junk (runA c t h0 h1 x0 x1 x2 x3 x4 x5 ).2.1),
   VS1_1.read (Elt F) (VS1_1.writes (Elt F) VS1_1.junk (runA c t h0 h1 x0 x1 x2 x3 x4 x5 ).2.2.1),
   VS1_2.read (Elt F) (VS1_2.writes (Elt F) VS1_2.junk (runA c t h0 h1 x0 x1 x2 x3 x4 x5 ).2.2.2.1))
theorem scoverA_0 (c : Dev nD) (t : Fin cfg1.N) (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32)  (y : S2048x1.Idx) :
    ∃ pc ∈ (runA (F := F) c t h0 h1 x0 x1 x2 x3 x4 x5 ).2.1, y ∈ pc.1.set :=
  View.cover_of_tiledL (runA c t h0 h1 x0 x1 x2 x3 x4 x5 ).2.1 S2048x1.size (by sl_kernel_rfl) y
theorem scoverA_1 (c : Dev nD) (t : Fin cfg1.N) (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32)  (y : S2048x1.Idx) :
    ∃ pc ∈ (runA (F := F) c t h0 h1 x0 x1 x2 x3 x4 x5 ).2.2.1, y ∈ pc.1.set :=
  View.cover_of_tiledL (runA c t h0 h1 x0 x1 x2 x3 x4 x5 ).2.2.1 S2048x1.size (by sl_kernel_rfl) y
theorem scoverA_2 (c : Dev nD) (t : Fin cfg1.N) (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32)  (y : S2048x256.Idx) :
    ∃ pc ∈ (runA (F := F) c t h0 h1 x0 x1 x2 x3 x4 x5 ).2.2.2.1, y ∈ pc.1.set :=
  View.cover_of_tiledL (runA c t h0 h1 x0 x1 x2 x3 x4 x5 ).2.2.2.1 S2048x256.size (by sl_kernel_rfl) y

/-- What the body leaves at a point of this kind: the output's buffer (a placeholder where the window is idle), then the
    three scratch buffers, each as its stores read back. -/
abbrev runB (c : Dev nD) (t : Fin cfg1.N) (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 x0 x1 x2 x3 x4 x5 xs0 xs1 xs2
def resB (c : Dev nD) (t : Fin cfg1.N) (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) : Res1 F :=
  (VO1_6.read (Elt F) (VO1_6.writes (Elt F) VO1_6.junk (runB c t h0 h1 x0 x1 x2 x3 x4 x5 xs0 xs1 xs2).1),
   VS1_0.read (Elt F) (VS1_0.writes (Elt F) VS1_0.junk (runB c t h0 h1 x0 x1 x2 x3 x4 x5 xs0 xs1 xs2).2.1),
   VS1_1.read (Elt F) (VS1_1.writes (Elt F) VS1_1.junk (runB c t h0 h1 x0 x1 x2 x3 x4 x5 xs0 xs1 xs2).2.2.1),
   VS1_2.read (Elt F) (VS1_2.writes (Elt F) VS1_2.junk (runB c t h0 h1 x0 x1 x2 x3 x4 x5 xs0 xs1 xs2).2.2.2.1))
theorem scoverB_0 (c : Dev nD) (t : Fin cfg1.N) (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x1.Idx) :
    ∃ pc ∈ (runB (F := F) c t h0 h1 x0 x1 x2 x3 x4 x5 xs0 xs1 xs2).2.1, y ∈ pc.1.set :=
  View.cover_of_tiledL (runB c t h0 h1 x0 x1 x2 x3 x4 x5 xs0 xs1 xs2).2.1 S2048x1.size (by sl_kernel_rfl) y
theorem scoverB_1 (c : Dev nD) (t : Fin cfg1.N) (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x1.Idx) :
    ∃ pc ∈ (runB (F := F) c t h0 h1 x0 x1 x2 x3 x4 x5 xs0 xs1 xs2).2.2.1, y ∈ pc.1.set :=
  View.cover_of_tiledL (runB c t h0 h1 x0 x1 x2 x3 x4 x5 xs0 xs1 xs2).2.2.1 S2048x1.size (by sl_kernel_rfl) y
theorem scoverB_2 (c : Dev nD) (t : Fin cfg1.N) (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x256.Idx) :
    ∃ pc ∈ (runB (F := F) c t h0 h1 x0 x1 x2 x3 x4 x5 xs0 xs1 xs2).2.2.2.1, y ∈ pc.1.set :=
  View.cover_of_tiledL (runB c t h0 h1 x0 x1 x2 x3 x4 x5 xs0 xs1 xs2).2.2.2.1 S2048x256.size (by sl_kernel_rfl) y

/-- What the body leaves at a point of this kind: the output's buffer (a placeholder where the window is idle), then the
    three scratch buffers, each as its stores read back. -/
abbrev runC (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 x0 x1 x2 x3 x4 x5 xs0 xs1 xs2
def resC (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) : Res1 F :=
  (VO1_6.read (Elt F) (VO1_6.writes (Elt F) VO1_6.junk (runC c t h0 h1 x0 x1 x2 x3 x4 x5 xs0 xs1 xs2).1),
   VS1_0.read (Elt F) (VS1_0.writes (Elt F) VS1_0.junk (runC c t h0 h1 x0 x1 x2 x3 x4 x5 xs0 xs1 xs2).2.1),
   VS1_1.read (Elt F) (VS1_1.writes (Elt F) VS1_1.junk (runC c t h0 h1 x0 x1 x2 x3 x4 x5 xs0 xs1 xs2).2.2.1),
   VS1_2.read (Elt F) (VS1_2.writes (Elt F) VS1_2.junk (runC c t h0 h1 x0 x1 x2 x3 x4 x5 xs0 xs1 xs2).2.2.2.1))
theorem scoverC_0 (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x1.Idx) :
    ∃ pc ∈ (runC (F := F) c t h0 h1 x0 x1 x2 x3 x4 x5 xs0 xs1 xs2).2.1, y ∈ pc.1.set :=
  View.cover_of_tiledL (runC c t h0 h1 x0 x1 x2 x3 x4 x5 xs0 xs1 xs2).2.1 S2048x1.size (by sl_kernel_rfl) y
theorem scoverC_1 (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x1.Idx) :
    ∃ pc ∈ (runC (F := F) c t h0 h1 x0 x1 x2 x3 x4 x5 xs0 xs1 xs2).2.2.1, y ∈ pc.1.set :=
  View.cover_of_tiledL (runC c t h0 h1 x0 x1 x2 x3 x4 x5 xs0 xs1 xs2).2.2.1 S2048x1.size (by sl_kernel_rfl) y
theorem scoverC_2 (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x256.Idx) :
    ∃ pc ∈ (runC (F := F) c t h0 h1 x0 x1 x2 x3 x4 x5 xs0 xs1 xs2).2.2.2.1, y ∈ pc.1.set :=
  View.cover_of_tiledL (runC c t h0 h1 x0 x1 x2 x3 x4 x5 xs0 xs1 xs2).2.2.2.1 S2048x256.size (by sl_kernel_rfl) y

theorem coverC_6 (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x256.Idx) :
    ∃ pc ∈ (runC (F := F) c t h0 h1 x0 x1 x2 x3 x4 x5 xs0 xs1 xs2).1, y ∈ pc.1.set :=
  View.cover_of_tiledL (runC c t h0 h1 x0 x1 x2 x3 x4 x5 xs0 xs1 xs2).1 S2048x256.size (by sl_kernel_rfl) y

/-! ## The other pallas_call's staging buffers, which this region never touches -/

/-- The thirteen staging buffers of the first pallas_call, each whole at some contents. -/
abbrev stgRest (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The class invariant (every scoped buffer that is no staging buffer of this region at some contents, and the generator
    register) with the three scratch buffers singled out. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiA1_out (c : Dev nD) :
    (Pipeline.ΦA spec1 c : sProp 𝕄)
      ⊢ iprop(iprop(stgRest c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  rw [PhiA1_eq]
  iintro ⟨⟨Hr0, Hr1, Hr2, Hr3, Hr4, Hr5, Hr6, Hr7, Hr8, Hr9, Hr10, Hr11, Hr12, HS0, HS1, HS2⟩, Hg⟩
  isplitr [Hg]
  swap; · iexact Hg
  isplitr [HS0 HS1 HS2]
  swap
  · isplitl [HS0]; · iexact HS0
    isplitl [HS1]; · iexact HS1
    iexact HS2
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  iexact Hr12

theorem PhiA1_in (c : Dev nD) :
    iprop(iprop(stgRest c ∗ (∃ d, owns (c : Thread nD τ) scM1_0 fullShare d) ∗ (∃ d, owns (c : Thread nD τ) scM1_1 fullShare d) ∗ (∃ d, owns (c : Thread nD τ) scM1_2 fullShare d)) ∗ (∃ r, prngReg c r))
      ⊢ (Pipeline.ΦA spec1 c : sProp 𝕄) := by
  rw [PhiA1_eq]
  iintro ⟨⟨⟨Hr0, Hr1, Hr2, Hr3, Hr4, Hr5, Hr6, Hr7, Hr8, Hr9, Hr10, Hr11, Hr12⟩, HS0, HS1, HS2⟩, Hg⟩
  isplitr [Hg]
  swap; · iexact Hg
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [HS0]; · iexact HS0
  isplitl [HS1]; · iexact HS1
  iexact HS2

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the buffers hold after each point -/

/-- After the body at position n: the case the position selects (its key-tile coordinate is n mod 32), run on the point's
    input blocks and, away from a first key tile, on the scratch contents the position before left. -/
def outsAt1 (c : Dev nD) : (n : ℕ) → n < cfg1.N → Res1 F
  | 0, hn => resA c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)
  | n + 1, hn =>
    if h0 : (n + 1) % 32 = 0 then
      resA c ⟨n + 1, hn⟩ ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
    else
      if h1 : (n + 1) % 32 = 31 then
        resC c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2
      else
        resB c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 32 = 0) :
    outsAt1 V c t.val t.isLt = resA c t ((hcond1_0 t).mpr h0) (fun h => (fun h => by omega) ((hcond1_1 t).mp h)) (iblk1 V c 0 t) (iblk1 V c 1 t) (iblk1 V c 2 t) (iblk1 V c 3 t) (iblk1 V c 4 t) (iblk1 V c 5 t) := by
  obtain ⟨n, hn⟩ := t
  cases n with
  | zero => exact rfl
  | succ n => exact (dif_pos h0).trans rfl

theorem outsAt1_B (c : Dev nD) (t : Fin cfg1.N) (h0 : ¬t.val % 32 = 0) (h1 : ¬t.val % 32 = 31) :
    outsAt1 V c t.val t.isLt = resB c t (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = resC c t (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's; afterwards the other region's staging
    buffers at anything, the three scratch buffers at what the point before left, the generator register at some state. -/
def PhiS1 (c : Dev nD) : (n : ℕ) → n ≤ cfg1.N → sProp 𝕄
  | 0, _ => Pipeline.ΦA spec1 c
  | n + 1, hn => iprop(iprop(stgRest c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(stgRest c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(stgRest c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the key-tile coordinate says which case the point is in;
    the invariant hands the body the scratch buffers at what the point before left (at anything before the first point)
    and takes them back at this point's contents. Nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 32 = 0
  · have h1 : ¬t.val % 32 = 31 := by omega
    have hc1 : ¬cond1_1 (grid1.coords t) := fun h => h1 ((hcond1_1 t).mp h)
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6 t hc1) (noFlush1_6 t hc1)]
    rw [outsAt1_A V c t h0]
    unfold resA; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiA1_out c) $$ HΦ
      icases HΦ' with ⟨⟨Hrest, HS0, HS1, HS2⟩, Hg⟩
      iapply ((runA c t ((hcond1_0 t).mpr h0) hc1 (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hrest HS0 HS1 HS2 Hg]
      · isplitl [Hrest HS0 HS1 HS2]
        · isplitl [Hrest]; · iexact Hrest
          isplitl [HS0]
          · unfold owns; iexists _; isplitr
            swap; · iexact HS0
            ipureintro; exact View.read_writes_of_cover _ _ _ _ _ (scoverA_0 c t _ _ _ _ _ _ _ _)
          isplitl [HS1]
          · unfold owns; iexists _; isplitr
            swap; · iexact HS1
            ipureintro; exact View.read_writes_of_cover _ _ _ _ _ (scoverA_1 c t _ _ _ _ _ _ _ _)
          unfold owns; iexists _; isplitr
          swap; · iexact HS2
          ipureintro; exact View.read_writes_of_cover _ _ _ _ _ (scoverA_2 c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨Hrest, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c t ((hcond1_0 t).mpr h0) hc1 (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [Hrest HS0 HS1 HS2 Hg]
      · isplitl [Hrest HS0 HS1 HS2]
        · isplitl [Hrest]; · iexact Hrest
          isplitl [HS0]
          · unfold owns; iexists _; isplitr
            swap; · iexact HS0
            ipureintro; exact View.read_writes_of_cover _ _ _ _ _ (scoverA_0 c t _ _ _ _ _ _ _ _)
          isplitl [HS1]
          · unfold owns; iexists _; isplitr
            swap; · iexact HS1
            ipureintro; exact View.read_writes_of_cover _ _ _ _ _ (scoverA_1 c t _ _ _ _ _ _ _ _)
          unfold owns; iexists _; isplitr
          swap; · iexact HS2
          ipureintro; exact View.read_writes_of_cover _ _ _ _ _ (scoverA_2 c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 32 = 31
    · have hc0 : ¬cond1_0 (grid1.coords t) := fun h => h0 ((hcond1_0 t).mp h)
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t hc1], after1_6]
      rw [outsAt1_C V c t h0 h1]
      unfold resC; (try dsimp only)
      rw [PhiS1_castSucc V c t, PhiS1_pos V c _ _ hz]
      iintro ⟨⟨⟨Hrest, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runC c t hc0 hc1 (iblk1 V c 0 t) (iblk1 V c 1 t) (iblk1 V c 2 t) (iblk1 V c 3 t) (iblk1 V c 4 t) (iblk1 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [Hrest HS0 HS1 HS2 Hg]
      · isplitl [Hrest HS0 HS1 HS2]
        · isplitl [Hrest]; · iexact Hrest
          isplitl [HS0]
          · unfold owns; iexists _; isplitr
            swap; · iexact HS0
            ipureintro; exact View.read_writes_of_cover _ _ _ _ _ (scoverC_0 c t _ _ _ _ _ _ _ _ _ _ _)
          isplitl [HS1]
          · unfold owns; iexists _; isplitr
            swap; · iexact HS1
            ipureintro; exact View.read_writes_of_cover _ _ _ _ _ (scoverC_1 c t _ _ _ _ _ _ _ _ _ _ _)
          unfold owns; iexists _; isplitr
          swap; · iexact HS2
          ipureintro; exact View.read_writes_of_cover _ _ _ _ _ (scoverC_2 c t _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC_6 c t _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t hc1) (noFlush1_6 t hc1)]
      rw [outsAt1_B V c t h0 h1]
      unfold resB; (try dsimp only)
      rw [PhiS1_castSucc V c t, PhiS1_pos V c _ _ hz]
      iintro ⟨⟨⟨Hrest, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c t hc0 hc1 (iblk1 V c 0 t) (iblk1 V c 1 t) (iblk1 V c 2 t) (iblk1 V c 3 t) (iblk1 V c 4 t) (iblk1 V c 5 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hrest HS0 HS1 HS2 Hg]
      · isplitl [Hrest HS0 HS1 HS2]
        · isplitl [Hrest]; · iexact Hrest
          isplitl [HS0]
          · unfold owns; iexists _; isplitr
            swap; · iexact HS0
            ipureintro; exact View.read_writes_of_cover _ _ _ _ _ (scoverB_0 c t _ _ _ _ _ _ _ _ _ _ _)
          isplitl [HS1]
          · unfold owns; iexists _; isplitr
            swap; · iexact HS1
            ipureintro; exact View.read_writes_of_cover _ _ _ _ _ (scoverB_1 c t _ _ _ _ _ _ _ _ _ _ _)
          unfold owns; iexists _; isplitr
          swap; · iexact HS2
          ipureintro; exact View.read_writes_of_cover _ _ _ _ _ (scoverB_2 c t _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_in c)
  iintro ⟨⟨Hrest, HS0, HS1, HS2⟩, Hg⟩
  isplitr [Hg]
  swap; · iexact Hg
  isplitl [Hrest]; · iexact Hrest
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 128 := N_1; omega)

end Region1

end Cert.Kernel.Fr

end
-- ==== Proof.KbRun.lean ====
/-
  The whole program: the first pallas_call, the 25 host operations between the two, the second pallas_call. The
  contents of every unscoped buffer at each boundary are named by a fold from the launch memory: a pallas_call
  replaces its output arrays by what its write-backs leave and keeps every other buffer; the host stretch applies
  its operations. The run ends with every unscoped buffer at the last fold, from which the frame claim (no
  argument array is ever an output or a host result) and the result array (the second call's output) are read.
-/
import proofs.«430248_j1580547967873_3_alg».proof.Proof.KbR0
import proofs.«430248_j1580547967873_3_alg».proof.Proof.KbR1
import proofs.«430248_j1580547967873_3_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch, which is the first region's entry. -/
abbrev W0 : Dev nD → Valuation τ sig (Elt F) := fun c b => m ((c : Dev nD), b)
abbrev Ve0 : (c : Dev nD) → (b : Ref sig .tc) → Buf (Elt F) ((c : Thread nD τ).loc b) := fun c b => W0 m c b
/-- After the first region: its four outputs at what its write-backs leave, everything else as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- After the host stretch: the second region's entry. -/
abbrev W2 : Dev nD → Valuation τ sig (Elt F) := fun c => StableHlo.after hostOps1 (W1 m c)
abbrev Ve2 : (c : Dev nD) → (b : Ref sig .tc) → Buf (Elt F) ((c : Thread nD τ).loc b) := fun c b => W2 m c b
/-- After the second region: its output at what its write-backs leave, everything else as entered. -/
def W3 (c : Dev nD) : Valuation τ sig (Elt F) :=
  Pipeline.withArrays spec1 c (W2 m c) fun w => (dat1 (Ve2 m) c).arrAt w cfg1.N
theorem W3_arr (c : Dev nD) (w : Fin cfg1.W) :
    W3 m c (Proc.devRef .tc (Pipeline.arrRef spec1 w)) = (dat1 (Ve2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Ve3 : (c : Dev nD) → (b : Ref sig .tc) → Buf (Elt F) ((c : Thread nD τ).loc b) := fun c b => W3 m c b
theorem hF1 (c : Dev nD) (w : Fin cfg1.W) : (dat1 (Ve2 m) c).arrAt w cfg1.N = Ve3 m c (Pipeline.arrRef spec1 w) :=
  (W3_arr m c w).symm
theorem hrest1 (c : Dev nD) : ∀ b, b ∉ Finset.univ.image (Pipeline.arrRef spec1) → Ve3 m c b = Ve2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((dat0 (Ve0 m) c).arrAt_in 0 rfl _).trans (A_eq0 (Ve0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 2).trans (((dat1 (Ve2 m) c).arrAt_in 2 rfl _).trans (A_eq1 (Ve2 m) c 2))
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((dat0 (Ve0 m) c).arrAt_in 1 rfl _).trans (A_eq0 (Ve0 m) c 1))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := (W1_arr m c 2).trans (((dat0 (Ve0 m) c).arrAt_in 2 rfl _).trans (A_eq0 (Ve0 m) c 2))
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := (W1_arr m c 3).trans (((dat0 (Ve0 m) c).arrAt_in 3 rfl _).trans (A_eq0 (Ve0 m) c 3))
    _ = m ((c : Thread nD τ).loc main_arg4) := rfl

/-- The result array ends at what the second region's write-backs leave. -/
theorem W3_main_v20 (c : Dev nD) : W3 m c (Proc.devRef .tc main_v20) = (dat1 (Ve2 m) c).arrAt 6 cfg1.N :=
  W3_arr m c 6

/-! ## The proof data family and the thread state -/

abbrev admF : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admF p) c
  | ⟨0, _⟩ => fun c => dat0 (Ve0 m) c
  | ⟨1, _⟩ => fun c => dat1 (Ve2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region over the thread state: entered from every unscoped buffer at the launch contents, left at the fold
    after it. Its arrays are split out of the unscoped buffers and put back at the exit contents; the generator register
    goes into the class invariant and comes out; nothing is owed; the kernel has no semaphore of its own. -/
def reg0 : Pipeline.RegionSeg (pcfgs (F := F)) admF (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) admF (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the fold after the host stretch, left at the last fold. The class invariant the launch
    hands it is the invariant before its first point, and the invariant after its last point gives the class's back. -/
def reg1 : Pipeline.RegionSeg (pcfgs (F := F)) admF (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := Pipeline.arrays_of_unscopedBufs (p := 1) (pcfgs (F := F)) admF (pdats m) launch1.win launch1.arr_whole c
      ((pdats m 1 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Ve2 m) c).Φ 0 from rfl]
    refine .trans ?_ (hin1 (Ve2 m) c)
    unfold Pipeline.ΦA
    iintro ⟨Hp, -, Hr⟩
    isplitl [Hr]; · iexact Hr
    iexact Hp
  hout c := by
    rw [Pipeline.ownSems0_none, show (pdats m 1 c).Φ (Fin.last _) = (dat1 (Ve2 m) c).Φ (Fin.last cfg1.N) from rfl]
    refine (hout1 (Ve2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m) ((pdats m 1 c).share_full fun _ => rfl)
      (Ve2 m c) (Ve3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsF : List (Pipeline.Seg (pcfgs (F := F)) admF (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segsF m) := (main_chain c).trans (by chain_rfl)

set_option backward.isDefEq.respectTransparency.types false in
/-- THE RUN. From any memory with zero counters every weakly fair execution of the program terminates, nothing
    faulting, and every final state has every unscoped buffer of every core at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admF (pdats m) () cellOf_inj emb₁ defs₀ 𝒱₀ L lv m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- THE RESULT: the result array ends at what the second region's write-backs leave, and every argument as launched. -/
theorem run_value : θ_run defs (onTc (τ := τ) (main (F := F))) ⟨m, fun _ => 0, ρ⟩ (fun r => ∀ c : Dev nD,
      r.2.mem ((c.tc : Thread nD τ).loc main_v20) = (dat1 (Ve2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v20 (by decide))).trans (W3_main_v20 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Fr

end
-- ==== Proof.KiR0.lean ====
/-
  The first pallas_call of the program, point by point. Its grid has four points; at point t the body
  reads rows 2048·t … 2048·t+2047 of x (window 0) and the whole of W, a1 and a2 (windows 1–3, fetched once),
  and stores four blocks: h = x·W narrowed (window 4), the two logit columns h·a1 and h·a2 (windows 5, 6),
  and the column sums of the tile's h repeated over eight sublanes (window 7). No block depends on another
  point, so what each output buffer holds after the body is one store over the input blocks.
  Everything is stated at a parameter V, the contents of the unscoped buffers when the region is entered.
-/
import proofs.«430248_j1580547967873_3_alg».proof.Proof.Gen.KernelIdeal.Launch
import proofs.«430248_j1580547967873_3_alg».proof.Proof.Gen.KernelIdeal.Skeleton
import proofs.«430248_j1580547967873_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, whether the pipeline fetched it there or the block
    index has not moved since it did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! The body's rectangles: every load and store is of a whole buffer. -/
abbrev r0_x : Rect S2048x512 := Rect.unit (s := S2048x512) ![0, 0] S2048x512.size inb_S2048x512_S2048x512_0_0
abbrev r0_w : Rect S512x256 := Rect.unit (s := S512x256) ![0, 0] S512x256.size inb_S512x256_S512x256_0_0
abbrev r0_a : Rect S256x1 := Rect.unit (s := S256x1) ![0, 0] S256x1.size inb_S256x1_S256x1_0_0
abbrev r0_h : Rect S2048x256 := Rect.unit (s := S2048x256) ![0, 0] S2048x256.size inb_S2048x256_S2048x256_0_0
abbrev r0_l : Rect S2048x1 := Rect.unit (s := S2048x1) ![0, 0] S2048x1.size inb_S2048x1_S2048x1_0_0
abbrev r0_s : Rect S1x8x256 := Rect.unit (s := S1x8x256) ![0, 0, 0] S1x8x256.size inb_S1x8x256_S1x8x256_0_0_0

/-- What the body leaves in window 4's buffer (the narrowed product), from the blocks of x and W. -/
def out0_4 (x0 : Vec F S2048x512 .f32) (x1 : Vec F S512x256 .f32) : Vec F S2048x256 .bf16 :=
  View.canon [⟨r0_h, k0_pay2 (View.ld x0 r0_x) (View.ld x1 r0_w)⟩]
/-- Window 5's buffer: the product against a1. -/
def out0_5 (x0 : Vec F S2048x512 .f32) (x1 : Vec F S512x256 .f32) (x2 : Vec F S256x1 .f32) : Vec F S2048x1 .f32 :=
  View.canon [⟨r0_l, k0_pay3 (View.ld x0 r0_x) (View.ld x1 r0_w) (View.ld x2 r0_a)⟩]
/-- Window 6's buffer: the product against a2. -/
def out0_6 (x0 : Vec F S2048x512 .f32) (x1 : Vec F S512x256 .f32) (x3 : Vec F S256x1 .f32) : Vec F S2048x1 .f32 :=
  View.canon [⟨r0_l, k0_pay4 (View.ld x0 r0_x) (View.ld x1 r0_w) (View.ld x3 r0_a)⟩]
/-- Window 7's buffer: the tile's column sums, on eight sublanes. -/
def out0_7 (x0 : Vec F S2048x512 .f32) (x1 : Vec F S512x256 .f32) : Vec F S1x8x256 .f32 :=
  View.canon [⟨r0_s, k0_pay5 (View.ld x0 r0_x) (View.ld x1 r0_w)⟩]

theorem cover0_4 (p0 : Vec F S2048x256 .bf16) (y : S2048x256.Idx) :
    ∃ pc ∈ ([⟨r0_h, p0⟩] : List (View.Piece (Elt F) S2048x256 .bf16)), y ∈ pc.1.set :=
  View.cover_of_tiled [⟨r0_h, p0⟩] S2048x256.size (by rfl) y
theorem cover0_5 (p0 : Vec F S2048x1 .f32) (y : S2048x1.Idx) :
    ∃ pc ∈ ([⟨r0_l, p0⟩] : List (View.Piece (Elt F) S2048x1 .f32)), y ∈ pc.1.set :=
  View.cover_of_tiled [⟨r0_l, p0⟩] S2048x1.size (by rfl) y
theorem cover0_7 (p0 : Vec F S1x8x256 .f32) (y : S1x8x256.Idx) :
    ∃ pc ∈ ([⟨r0_s, p0⟩] : List (View.Piece (Elt F) S1x8x256 .f32)), y ∈ pc.1.set :=
  View.cover_of_tiled [⟨r0_s, p0⟩] S1x8x256.size (by rfl) y

set_option maxHeartbeats 4000000 in
/-- The body on whole staging memrefs: the four inputs at read contents, the four outputs at anything; it hands back
    the inputs as they were and each output at its one store. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S2048x256 .bf16) (harg5 : arg5.IsWhole) (arg6 : Memref sig .tc .vmem S2048x1 .f32) (harg6 : arg6.IsWhole)
    (arg7 : Memref sig .tc .vmem S2048x1 .f32) (harg7 : arg7.IsWhole) (arg8 : Memref sig .tc .vmem S1x8x256 .f32) (harg8 : arg8.IsWhole)
    (x0 : Vec F S2048x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3) ∗ owns (c : Thread nD τ) arg8 fullShare (out0_7 x0 x1)) -∗ K ⟨⟩))
      ⊢ wp frame (wpE (defs₀ (F := F)) Variants.none c none) E (cc0__matmul_logits_kernel i arg1 harg1 arg2 harg2 arg3 harg3 arg4 harg4 arg5 harg5 arg6 harg6 arg7 harg7 arg8 harg8) K := by
  simp only [cc0__matmul_logits_kernel_eq_skeleton]; unfold cc0__matmul_logits_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_5 _)
  iexists _; isplitr
  swap; · iexact H7
  ipureintro
  exact View.read_writes_eq_canon _ _ _ (cover0_7 _)

/-- The first pipeline's proof data on core c: arrays as the region finds them; each input's buffer at its block, each
    output's at its store over the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
    | ⟨7, _⟩ => out0_7 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem after0_7 (c : Dev nD) (t : Fin cfg0.N) : (dat0 V c).after 7 t = out0_7 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KiR1Runs.lean ====
/-
  The second pallas_call, one grid point at a time. The grid is 4 × 32: point t = 32·q + k handles rows
  2048·q … of the attention matrix against keys 256·k …. Three scratch buffers are carried along k: the
  running row maximum, the running denominator and the running numerator. The body has two conditionals on
  the grid position: at k = 0 it resets the three scratch buffers, at k = 31 it folds in the virtual node and
  stores the output block. On this grid exactly three assignments of the two conditions occur — first
  (k = 0), middle (0 < k < 31), last (k = 31) — and the body is run once for each.
-/
import proofs.«430248_j1580547967873_3_alg».proof.Proof.Gen.KernelIdeal.Launch
import proofs.«430248_j1580547967873_3_alg».proof.Proof.Gen.KernelIdeal.Skeleton
import proofs.«430248_j1580547967873_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two conditions, decided over the grid -/

/-- The reset's condition (the key-tile coordinate is 0), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- The finalisation's condition (the key-tile coordinate is 31). -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last key tile the output window is idle and is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/
abbrev VO1_6 : View sig .tc .vmem S2048x256 .f32 := (Memref.whole cc1_stg6_0 : Memref sig .tc .vmem S2048x256 .f32).view
abbrev ms1_0 (t : Fin cfg1.N) : Memref sig .tc .vmem S2048x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x384 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x256 .f32 := win1_6.stage (cfg1.slots t 6)
abbrev hs1_6 (t : Fin cfg1.N) : (ms1_6 t).IsWhole := hstage1_6 ((cfg1.slots t 6).cast nbuf1_6)
/-- The three scratch operands: the running maximum, the running denominator, the running numerator. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x256 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x256 .f32 := scM1_2.view

/-! ## The body, case by case -/

set_option maxHeartbeats 4000000 in
/-- FIRST key tile (reset taken, finalisation not): the scratch buffers may hold anything; the output's buffer is handed
    back untouched. The pieces each scratch buffer ends with are what the run finds. -/
noncomputable def kernelRun1_A (c : Dev nD) (i : grid1.Coords) (arg2 : Memref sig .tc .vmem S2048x1 .f32) (harg2 : arg2.IsWhole) (arg3 : Memref sig .tc .vmem S1x256 .f32) (harg3 : arg3.IsWhole) (arg4 : Memref sig .tc .vmem S2048x256 .i32) (harg4 : arg4.IsWhole) (arg5 : Memref sig .tc .vmem S256x384 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x1 .f32) (x1 : Vec F S1x256 .f32) (x2 : Vec F S2048x256 .i32) (x3 : Vec F S256x384 .bf16) (x4 : Vec F S2048x1 .f32) (x5 : Vec F S1x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

set_option maxHeartbeats 4000000 in
/-- MIDDLE key tiles (neither conditional taken): the scratch buffers hold what the point before left. -/
noncomputable def kernelRun1_B (c : Dev nD) (i : grid1.Coords) (arg2 : Memref sig .tc .vmem S2048x1 .f32) (harg2 : arg2.IsWhole) (arg3 : Memref sig .tc .vmem S1x256 .f32) (harg3 : arg3.IsWhole) (arg4 : Memref sig .tc .vmem S2048x256 .i32) (harg4 : arg4.IsWhole) (arg5 : Memref sig .tc .vmem S256x384 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (xi6 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

set_option maxHeartbeats 4000000 in
/-- LAST key tile (finalisation taken, reset not): the scratch buffers hold what the point before left; the output's
    buffer may hold anything and ends with the pieces the run finds. -/
noncomputable def kernelRun1_C (c : Dev nD) (i : grid1.Coords) (arg2 : Memref sig .tc .vmem S2048x1 .f32) (harg2 : arg2.IsWhole) (arg3 : Memref sig .tc .vmem S1x256 .f32) (harg3 : arg3.IsWhole) (arg4 : Memref sig .tc .vmem S2048x256 .i32) (harg4 : arg4.IsWhole) (arg5 : Memref sig .tc .vmem S256x384 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    Σ' (L6 : List (View.Piece (Elt F) S2048x256 .f32)) (LS0 : List (View.Piece (Elt F) S2048x1 .f32)) (LS1 : List (View.Piece (Elt F) S2048x1 .f32)), { LS2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Fr

end
-- ==== Proof.KiR1.lean ====
/-
  The second pallas_call over its whole grid. After the body at point n the output's staging buffer and the three
  scratch buffers hold what the case of that point leaves, computed from the point's input blocks and, away from a
  first key tile, from what the point before left in the scratch buffers: a recursion on the point. The region
  invariant carries the three scratch buffers at those contents from one point to the next (before the first
  point they hold anything); the staging buffers of the other pallas_call ride along untouched.
-/
import proofs.«430248_j1580547967873_3_alg».proof.Proof.KiR1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The output block and the three scratch buffers, as one tuple. -/
abbrev Res1 (F : FTy → Type) : Type := Vec F S2048x256 .f32 × Vec F S2048x1 .f32 × Vec F S2048x1 .f32 × Vec F S2048x256 .f32

/-- What the body leaves at a point of this kind: the output's buffer (a placeholder where the window is idle), then the
    three scratch buffers, each as its stores read back. -/
abbrev runA (c : Dev nD) (t : Fin cfg1.N) (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32)  :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 x0 x1 x2 x3 x4 x5
def resA (c : Dev nD) (t : Fin cfg1.N) (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32)  : Res1 F :=
  (VO1_6.read (Elt F) (VO1_6.writes (Elt F) VO1_6.junk (runA c t h0 h1 x0 x1 x2 x3 x4 x5 ).1),
   VS1_0.read (Elt F) (VS1_0.writes (Elt F) VS1_0.junk (runA c t h0 h1 x0 x1 x2 x3 x4 x5 ).2.1),
   VS1_1.read (Elt F) (VS1_1.writes (Elt F) VS1_1.junk (runA c t h0 h1 x0 x1 x2 x3 x4 x5 ).2.2.1),
   VS1_2.read (Elt F) (VS1_2.writes (Elt F) VS1_2.junk (runA c t h0 h1 x0 x1 x2 x3 x4 x5 ).2.2.2.1))
theorem scoverA_0 (c : Dev nD) (t : Fin cfg1.N) (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32)  (y : S2048x1.Idx) :
    ∃ pc ∈ (runA (F := F) c t h0 h1 x0 x1 x2 x3 x4 x5 ).2.1, y ∈ pc.1.set :=
  View.cover_of_tiledL (runA c t h0 h1 x0 x1 x2 x3 x4 x5 ).2.1 S2048x1.size (by sl_kernel_rfl) y
theorem scoverA_1 (c : Dev nD) (t : Fin cfg1.N) (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32)  (y : S2048x1.Idx) :
    ∃ pc ∈ (runA (F := F) c t h0 h1 x0 x1 x2 x3 x4 x5 ).2.2.1, y ∈ pc.1.set :=
  View.cover_of_tiledL (runA c t h0 h1 x0 x1 x2 x3 x4 x5 ).2.2.1 S2048x1.size (by sl_kernel_rfl) y
theorem scoverA_2 (c : Dev nD) (t : Fin cfg1.N) (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32)  (y : S2048x256.Idx) :
    ∃ pc ∈ (runA (F := F) c t h0 h1 x0 x1 x2 x3 x4 x5 ).2.2.2.1, y ∈ pc.1.set :=
  View.cover_of_tiledL (runA c t h0 h1 x0 x1 x2 x3 x4 x5 ).2.2.2.1 S2048x256.size (by sl_kernel_rfl) y

/-- What the body leaves at a point of this kind: the output's buffer (a placeholder where the window is idle), then the
    three scratch buffers, each as its stores read back. -/
abbrev runB (c : Dev nD) (t : Fin cfg1.N) (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 x0 x1 x2 x3 x4 x5 xs0 xs1 xs2
def resB (c : Dev nD) (t : Fin cfg1.N) (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) : Res1 F :=
  (VO1_6.read (Elt F) (VO1_6.writes (Elt F) VO1_6.junk (runB c t h0 h1 x0 x1 x2 x3 x4 x5 xs0 xs1 xs2).1),
   VS1_0.read (Elt F) (VS1_0.writes (Elt F) VS1_0.junk (runB c t h0 h1 x0 x1 x2 x3 x4 x5 xs0 xs1 xs2).2.1),
   VS1_1.read (Elt F) (VS1_1.writes (Elt F) VS1_1.junk (runB c t h0 h1 x0 x1 x2 x3 x4 x5 xs0 xs1 xs2).2.2.1),
   VS1_2.read (Elt F) (VS1_2.writes (Elt F) VS1_2.junk (runB c t h0 h1 x0 x1 x2 x3 x4 x5 xs0 xs1 xs2).2.2.2.1))
theorem scoverB_0 (c : Dev nD) (t : Fin cfg1.N) (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x1.Idx) :
    ∃ pc ∈ (runB (F := F) c t h0 h1 x0 x1 x2 x3 x4 x5 xs0 xs1 xs2).2.1, y ∈ pc.1.set :=
  View.cover_of_tiledL (runB c t h0 h1 x0 x1 x2 x3 x4 x5 xs0 xs1 xs2).2.1 S2048x1.size (by sl_kernel_rfl) y
theorem scoverB_1 (c : Dev nD) (t : Fin cfg1.N) (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x1.Idx) :
    ∃ pc ∈ (runB (F := F) c t h0 h1 x0 x1 x2 x3 x4 x5 xs0 xs1 xs2).2.2.1, y ∈ pc.1.set :=
  View.cover_of_tiledL (runB c t h0 h1 x0 x1 x2 x3 x4 x5 xs0 xs1 xs2).2.2.1 S2048x1.size (by sl_kernel_rfl) y
theorem scoverB_2 (c : Dev nD) (t : Fin cfg1.N) (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x256.Idx) :
    ∃ pc ∈ (runB (F := F) c t h0 h1 x0 x1 x2 x3 x4 x5 xs0 xs1 xs2).2.2.2.1, y ∈ pc.1.set :=
  View.cover_of_tiledL (runB c t h0 h1 x0 x1 x2 x3 x4 x5 xs0 xs1 xs2).2.2.2.1 S2048x256.size (by sl_kernel_rfl) y

/-- What the body leaves at a point of this kind: the output's buffer (a placeholder where the window is idle), then the
    three scratch buffers, each as its stores read back. -/
abbrev runC (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 x0 x1 x2 x3 x4 x5 xs0 xs1 xs2
def resC (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) : Res1 F :=
  (VO1_6.read (Elt F) (VO1_6.writes (Elt F) VO1_6.junk (runC c t h0 h1 x0 x1 x2 x3 x4 x5 xs0 xs1 xs2).1),
   VS1_0.read (Elt F) (VS1_0.writes (Elt F) VS1_0.junk (runC c t h0 h1 x0 x1 x2 x3 x4 x5 xs0 xs1 xs2).2.1),
   VS1_1.read (Elt F) (VS1_1.writes (Elt F) VS1_1.junk (runC c t h0 h1 x0 x1 x2 x3 x4 x5 xs0 xs1 xs2).2.2.1),
   VS1_2.read (Elt F) (VS1_2.writes (Elt F) VS1_2.junk (runC c t h0 h1 x0 x1 x2 x3 x4 x5 xs0 xs1 xs2).2.2.2.1))
theorem scoverC_0 (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x1.Idx) :
    ∃ pc ∈ (runC (F := F) c t h0 h1 x0 x1 x2 x3 x4 x5 xs0 xs1 xs2).2.1, y ∈ pc.1.set :=
  View.cover_of_tiledL (runC c t h0 h1 x0 x1 x2 x3 x4 x5 xs0 xs1 xs2).2.1 S2048x1.size (by sl_kernel_rfl) y
theorem scoverC_1 (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x1.Idx) :
    ∃ pc ∈ (runC (F := F) c t h0 h1 x0 x1 x2 x3 x4 x5 xs0 xs1 xs2).2.2.1, y ∈ pc.1.set :=
  View.cover_of_tiledL (runC c t h0 h1 x0 x1 x2 x3 x4 x5 xs0 xs1 xs2).2.2.1 S2048x1.size (by sl_kernel_rfl) y
theorem scoverC_2 (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x256.Idx) :
    ∃ pc ∈ (runC (F := F) c t h0 h1 x0 x1 x2 x3 x4 x5 xs0 xs1 xs2).2.2.2.1, y ∈ pc.1.set :=
  View.cover_of_tiledL (runC c t h0 h1 x0 x1 x2 x3 x4 x5 xs0 xs1 xs2).2.2.2.1 S2048x256.size (by sl_kernel_rfl) y

theorem coverC_6 (c : Dev nD) (t : Fin cfg1.N) (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) (y : S2048x256.Idx) :
    ∃ pc ∈ (runC (F := F) c t h0 h1 x0 x1 x2 x3 x4 x5 xs0 xs1 xs2).1, y ∈ pc.1.set :=
  View.cover_of_tiledL (runC c t h0 h1 x0 x1 x2 x3 x4 x5 xs0 xs1 xs2).1 S2048x256.size (by sl_kernel_rfl) y

/-! ## The other pallas_call's staging buffers, which this region never touches -/

/-- The thirteen staging buffers of the first pallas_call, each whole at some contents. -/
abbrev stgRest (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The class invariant (every scoped buffer that is no staging buffer of this region at some contents, and the generator
    register) with the three scratch buffers singled out. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiA1_out (c : Dev nD) :
    (Pipeline.ΦA spec1 c : sProp 𝕄)
      ⊢ iprop(iprop(stgRest c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  rw [PhiA1_eq]
  iintro ⟨⟨Hr0, Hr1, Hr2, Hr3, Hr4, Hr5, Hr6, Hr7, Hr8, Hr9, Hr10, Hr11, Hr12, HS0, HS1, HS2⟩, Hg⟩
  isplitr [Hg]
  swap; · iexact Hg
  isplitr [HS0 HS1 HS2]
  swap
  · isplitl [HS0]; · iexact HS0
    isplitl [HS1]; · iexact HS1
    iexact HS2
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  iexact Hr12

theorem PhiA1_in (c : Dev nD) :
    iprop(iprop(stgRest c ∗ (∃ d, owns (c : Thread nD τ) scM1_0 fullShare d) ∗ (∃ d, owns (c : Thread nD τ) scM1_1 fullShare d) ∗ (∃ d, owns (c : Thread nD τ) scM1_2 fullShare d)) ∗ (∃ r, prngReg c r))
      ⊢ (Pipeline.ΦA spec1 c : sProp 𝕄) := by
  rw [PhiA1_eq]
  iintro ⟨⟨⟨Hr0, Hr1, Hr2, Hr3, Hr4, Hr5, Hr6, Hr7, Hr8, Hr9, Hr10, Hr11, Hr12⟩, HS0, HS1, HS2⟩, Hg⟩
  isplitr [Hg]
  swap; · iexact Hg
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [HS0]; · iexact HS0
  isplitl [HS1]; · iexact HS1
  iexact HS2

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the buffers hold after each point -/

/-- After the body at position n: the case the position selects (its key-tile coordinate is n mod 32), run on the point's
    input blocks and, away from a first key tile, on the scratch contents the position before left. -/
def outsAt1 (c : Dev nD) : (n : ℕ) → n < cfg1.N → Res1 F
  | 0, hn => resA c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)
  | n + 1, hn =>
    if h0 : (n + 1) % 32 = 0 then
      resA c ⟨n + 1, hn⟩ ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
    else
      if h1 : (n + 1) % 32 = 31 then
        resC c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2
      else
        resB c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 32 = 0) :
    outsAt1 V c t.val t.isLt = resA c t ((hcond1_0 t).mpr h0) (fun h => (fun h => by omega) ((hcond1_1 t).mp h)) (iblk1 V c 0 t) (iblk1 V c 1 t) (iblk1 V c 2 t) (iblk1 V c 3 t) (iblk1 V c 4 t) (iblk1 V c 5 t) := by
  obtain ⟨n, hn⟩ := t
  cases n with
  | zero => exact rfl
  | succ n => exact (dif_pos h0).trans rfl

theorem outsAt1_B (c : Dev nD) (t : Fin cfg1.N) (h0 : ¬t.val % 32 = 0) (h1 : ¬t.val % 32 = 31) :
    outsAt1 V c t.val t.isLt = resB c t (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = resC c t (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's; afterwards the other region's staging
    buffers at anything, the three scratch buffers at what the point before left, the generator register at some state. -/
def PhiS1 (c : Dev nD) : (n : ℕ) → n ≤ cfg1.N → sProp 𝕄
  | 0, _ => Pipeline.ΦA spec1 c
  | n + 1, hn => iprop(iprop(stgRest c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(stgRest c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(stgRest c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the key-tile coordinate says which case the point is in;
    the invariant hands the body the scratch buffers at what the point before left (at anything before the first point)
    and takes them back at this point's contents. Nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 32 = 0
  · have h1 : ¬t.val % 32 = 31 := by omega
    have hc1 : ¬cond1_1 (grid1.coords t) := fun h => h1 ((hcond1_1 t).mp h)
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6 t hc1) (noFlush1_6 t hc1)]
    rw [outsAt1_A V c t h0]
    unfold resA; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiA1_out c) $$ HΦ
      icases HΦ' with ⟨⟨Hrest, HS0, HS1, HS2⟩, Hg⟩
      iapply ((runA c t ((hcond1_0 t).mpr h0) hc1 (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hrest HS0 HS1 HS2 Hg]
      · isplitl [Hrest HS0 HS1 HS2]
        · isplitl [Hrest]; · iexact Hrest
          isplitl [HS0]
          · unfold owns; iexists _; isplitr
            swap; · iexact HS0
            ipureintro; exact View.read_writes_of_cover _ _ _ _ _ (scoverA_0 c t _ _ _ _ _ _ _ _)
          isplitl [HS1]
          · unfold owns; iexists _; isplitr
            swap; · iexact HS1
            ipureintro; exact View.read_writes_of_cover _ _ _ _ _ (scoverA_1 c t _ _ _ _ _ _ _ _)
          unfold owns; iexists _; isplitr
          swap; · iexact HS2
          ipureintro; exact View.read_writes_of_cover _ _ _ _ _ (scoverA_2 c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨Hrest, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c t ((hcond1_0 t).mpr h0) hc1 (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [Hrest HS0 HS1 HS2 Hg]
      · isplitl [Hrest HS0 HS1 HS2]
        · isplitl [Hrest]; · iexact Hrest
          isplitl [HS0]
          · unfold owns; iexists _; isplitr
            swap; · iexact HS0
            ipureintro; exact View.read_writes_of_cover _ _ _ _ _ (scoverA_0 c t _ _ _ _ _ _ _ _)
          isplitl [HS1]
          · unfold owns; iexists _; isplitr
            swap; · iexact HS1
            ipureintro; exact View.read_writes_of_cover _ _ _ _ _ (scoverA_1 c t _ _ _ _ _ _ _ _)
          unfold owns; iexists _; isplitr
          swap; · iexact HS2
          ipureintro; exact View.read_writes_of_cover _ _ _ _ _ (scoverA_2 c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 32 = 31
    · have hc0 : ¬cond1_0 (grid1.coords t) := fun h => h0 ((hcond1_0 t).mp h)
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t hc1], after1_6]
      rw [outsAt1_C V c t h0 h1]
      unfold resC; (try dsimp only)
      rw [PhiS1_castSucc V c t, PhiS1_pos V c _ _ hz]
      iintro ⟨⟨⟨Hrest, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runC c t hc0 hc1 (iblk1 V c 0 t) (iblk1 V c 1 t) (iblk1 V c 2 t) (iblk1 V c 3 t) (iblk1 V c 4 t) (iblk1 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [Hrest HS0 HS1 HS2 Hg]
      · isplitl [Hrest HS0 HS1 HS2]
        · isplitl [Hrest]; · iexact Hrest
          isplitl [HS0]
          · unfold owns; iexists _; isplitr
            swap; · iexact HS0
            ipureintro; exact View.read_writes_of_cover _ _ _ _ _ (scoverC_0 c t _ _ _ _ _ _ _ _ _ _ _)
          isplitl [HS1]
          · unfold owns; iexists _; isplitr
            swap; · iexact HS1
            ipureintro; exact View.read_writes_of_cover _ _ _ _ _ (scoverC_1 c t _ _ _ _ _ _ _ _ _ _ _)
          unfold owns; iexists _; isplitr
          swap; · iexact HS2
          ipureintro; exact View.read_writes_of_cover _ _ _ _ _ (scoverC_2 c t _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC_6 c t _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t hc1) (noFlush1_6 t hc1)]
      rw [outsAt1_B V c t h0 h1]
      unfold resB; (try dsimp only)
      rw [PhiS1_castSucc V c t, PhiS1_pos V c _ _ hz]
      iintro ⟨⟨⟨Hrest, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c t hc0 hc1 (iblk1 V c 0 t) (iblk1 V c 1 t) (iblk1 V c 2 t) (iblk1 V c 3 t) (iblk1 V c 4 t) (iblk1 V c 5 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hrest HS0 HS1 HS2 Hg]
      · isplitl [Hrest HS0 HS1 HS2]
        · isplitl [Hrest]; · iexact Hrest
          isplitl [HS0]
          · unfold owns; iexists _; isplitr
            swap; · iexact HS0
            ipureintro; exact View.read_writes_of_cover _ _ _ _ _ (scoverB_0 c t _ _ _ _ _ _ _ _ _ _ _)
          isplitl [HS1]
          · unfold owns; iexists _; isplitr
            swap; · iexact HS1
            ipureintro; exact View.read_writes_of_cover _ _ _ _ _ (scoverB_1 c t _ _ _ _ _ _ _ _ _ _ _)
          unfold owns; iexists _; isplitr
          swap; · iexact HS2
          ipureintro; exact View.read_writes_of_cover _ _ _ _ _ (scoverB_2 c t _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_in c)
  iintro ⟨⟨Hrest, HS0, HS1, HS2⟩, Hg⟩
  isplitr [Hg]
  swap; · iexact Hg
  isplitl [Hrest]; · iexact Hrest
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 128 := N_1; omega)

end Region1

end Cert.KernelIdeal.Fr

end
-- ==== Proof.KiRun.lean ====
/-
  The whole program: the first pallas_call, the 25 host operations between the two, the second pallas_call. The
  contents of every unscoped buffer at each boundary are named by a fold from the launch memory: a pallas_call
  replaces its output arrays by what its write-backs leave and keeps every other buffer; the host stretch applies
  its operations. The run ends with every unscoped buffer at the last fold, from which the frame claim (no
  argument array is ever an output or a host result) and the result array (the second call's output) are read.
-/
import proofs.«430248_j1580547967873_3_alg».proof.Proof.KiR0
import proofs.«430248_j1580547967873_3_alg».proof.Proof.KiR1
import proofs.«430248_j1580547967873_3_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch, which is the first region's entry. -/
abbrev W0 : Dev nD → Valuation τ sig (Elt F) := fun c b => m ((c : Dev nD), b)
abbrev Ve0 : (c : Dev nD) → (b : Ref sig .tc) → Buf (Elt F) ((c : Thread nD τ).loc b) := fun c b => W0 m c b
/-- After the first region: its four outputs at what its write-backs leave, everything else as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- After the host stretch: the second region's entry. -/
abbrev W2 : Dev nD → Valuation τ sig (Elt F) := fun c => StableHlo.after hostOps1 (W1 m c)
abbrev Ve2 : (c : Dev nD) → (b : Ref sig .tc) → Buf (Elt F) ((c : Thread nD τ).loc b) := fun c b => W2 m c b
/-- After the second region: its output at what its write-backs leave, everything else as entered. -/
def W3 (c : Dev nD) : Valuation τ sig (Elt F) :=
  Pipeline.withArrays spec1 c (W2 m c) fun w => (dat1 (Ve2 m) c).arrAt w cfg1.N
theorem W3_arr (c : Dev nD) (w : Fin cfg1.W) :
    W3 m c (Proc.devRef .tc (Pipeline.arrRef spec1 w)) = (dat1 (Ve2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Ve3 : (c : Dev nD) → (b : Ref sig .tc) → Buf (Elt F) ((c : Thread nD τ).loc b) := fun c b => W3 m c b
theorem hF1 (c : Dev nD) (w : Fin cfg1.W) : (dat1 (Ve2 m) c).arrAt w cfg1.N = Ve3 m c (Pipeline.arrRef spec1 w) :=
  (W3_arr m c w).symm
theorem hrest1 (c : Dev nD) : ∀ b, b ∉ Finset.univ.image (Pipeline.arrRef spec1) → Ve3 m c b = Ve2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((dat0 (Ve0 m) c).arrAt_in 0 rfl _).trans (A_eq0 (Ve0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 2).trans (((dat1 (Ve2 m) c).arrAt_in 2 rfl _).trans (A_eq1 (Ve2 m) c 2))
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((dat0 (Ve0 m) c).arrAt_in 1 rfl _).trans (A_eq0 (Ve0 m) c 1))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := (W1_arr m c 2).trans (((dat0 (Ve0 m) c).arrAt_in 2 rfl _).trans (A_eq0 (Ve0 m) c 2))
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := (W1_arr m c 3).trans (((dat0 (Ve0 m) c).arrAt_in 3 rfl _).trans (A_eq0 (Ve0 m) c 3))
    _ = m ((c : Thread nD τ).loc main_arg4) := rfl

/-- The result array ends at what the second region's write-backs leave. -/
theorem W3_main_v20 (c : Dev nD) : W3 m c (Proc.devRef .tc main_v20) = (dat1 (Ve2 m) c).arrAt 6 cfg1.N :=
  W3_arr m c 6

/-! ## The proof data family and the thread state -/

abbrev admF : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admF p) c
  | ⟨0, _⟩ => fun c => dat0 (Ve0 m) c
  | ⟨1, _⟩ => fun c => dat1 (Ve2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region over the thread state: entered from every unscoped buffer at the launch contents, left at the fold
    after it. Its arrays are split out of the unscoped buffers and put back at the exit contents; the generator register
    goes into the class invariant and comes out; nothing is owed; the kernel has no semaphore of its own. -/
def reg0 : Pipeline.RegionSeg (pcfgs (F := F)) admF (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) admF (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the fold after the host stretch, left at the last fold. The class invariant the launch
    hands it is the invariant before its first point, and the invariant after its last point gives the class's back. -/
def reg1 : Pipeline.RegionSeg (pcfgs (F := F)) admF (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := Pipeline.arrays_of_unscopedBufs (p := 1) (pcfgs (F := F)) admF (pdats m) launch1.win launch1.arr_whole c
      ((pdats m 1 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Ve2 m) c).Φ 0 from rfl]
    refine .trans ?_ (hin1 (Ve2 m) c)
    unfold Pipeline.ΦA
    iintro ⟨Hp, -, Hr⟩
    isplitl [Hr]; · iexact Hr
    iexact Hp
  hout c := by
    rw [Pipeline.ownSems0_none, show (pdats m 1 c).Φ (Fin.last _) = (dat1 (Ve2 m) c).Φ (Fin.last cfg1.N) from rfl]
    refine (hout1 (Ve2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m) ((pdats m 1 c).share_full fun _ => rfl)
      (Ve2 m c) (Ve3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsF : List (Pipeline.Seg (pcfgs (F := F)) admF (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segsF m) := (main_chain c).trans (by chain_rfl)

set_option backward.isDefEq.respectTransparency.types false in
/-- THE RUN. From any memory with zero counters every weakly fair execution of the program terminates, nothing
    faulting, and every final state has every unscoped buffer of every core at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admF (pdats m) () cellOf_inj emb₁ defs₀ 𝒱₀ L lv m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- THE RESULT: the result array ends at what the second region's write-backs leave, and every argument as launched. -/
theorem run_value : θ_run defs (onTc (τ := τ) (main (F := F))) ⟨m, fun _ => 0, ρ⟩ (fun r => ∀ c : Dev nD,
      r.2.mem ((c.tc : Thread nD τ).loc main_v20) = (dat1 (Ve2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v20 (by decide))).trans (W3_main_v20 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Fr

end
-- ==== Proof.Spec.lean ====
/-
  The two computations as plain functions on the extended reals, with no program in sight.

  Inputs: x (8192 × 512), the adjacency mask as one bit per pair, W (512 × 256), a1 and a2 (256 each).
  h = x·W, the logits l1 = h·a1 and l2 = h·a2, and the scores s(i,j) = leaky(l1 i + l2 j) where the mask is set,
  a large negative constant elsewhere. A virtual key is appended to every row: its score is leaky(l1 i + mean(h)·a2)
  and its value row is mean(h). The result is elu of the softmax-weighted average of the value rows.

  One side takes the softmax in a single pass over 8193 keys. The other walks the 8192 real keys in 32 tiles
  of 256, carrying a running maximum, denominator and numerator that are rescaled whenever the maximum grows, and
  folds in the virtual key at the end. The two also spell leaky-relu differently (a maximum against a select),
  the mean differently (a product with 2^-13 of four partial sums against a quotient by 8192), and elu's
  exponential differently. `outK_eq_outR` (in the companion module) says they agree on finite inputs.
-/
import Idealize.ShloMosaic.PureOps.Ideal
import Idealize.ShloMosaic.PureOps.Ideal.Laws

noncomputable section

namespace GatSpec

open Idealize.ShloMosaic

/-! ## The literals, as the programs spell them -/
/-- The leaky-relu slope, the f32 nearest 0.2. -/
def alpha : EReal := Ideal.ofBits .f32 0x3E4CCCCD#32
/-- The mask's fill value, the f32 nearest -9e15. -/
def negBig : EReal := Ideal.ofBits .f32 0xD9FFCB9E#32
/-- 2^-13, the reciprocal of the row count. -/
def invN : EReal := Ideal.ofBits .f32 0x39000000#32
/-- 8192, the row count. -/
def nRows : EReal := Ideal.ofBits .f32 0x46000000#32
/-- Minus infinity. -/
def negInf : EReal := Ideal.ofBits .f32 0xFF800000#32
/-- One, as an f32 and as a bf16. -/
def oneF : EReal := Ideal.ofBits .f32 0x3F800000#32
def oneB : EReal := Ideal.ofBits .bf16 0x3F80#16

section
variable (x : Fin 8192 → Fin 512 → EReal) (msk : Fin 8192 → Fin 8192 → BitVec 1)
  (W : Fin 512 → Fin 256 → EReal) (a1 a2 : Fin 256 → EReal)

/-! ## What both sides share -/
/-- h = x·W. -/
def hh (i : Fin 8192) (c : Fin 256) : EReal := ∑ k : Fin 512, x i k * W k c
/-- The two logit columns. -/
def l1 (i : Fin 8192) : EReal := ∑ c : Fin 256, hh x W i c * a1 c
def l2 (j : Fin 8192) : EReal := ∑ c : Fin 256, hh x W j c * a2 c

/-- Row r of row-tile q, and key j of key-tile k. -/
def row (q : Fin 4) (r : Fin 2048) : Fin 8192 := ⟨2048 * q.val + r.val, by omega⟩
def key (k : Fin 32) (j : Fin 256) : Fin 8192 := ⟨256 * k.val + j.val, by omega⟩

/-! ## The tiled side -/
/-- The mean of h's rows: four tile sums added, times 2^-13. -/
def meanK (c : Fin 256) : EReal := (∑ q : Fin 4, ∑ r : Fin 2048, hh x W (row q r) c) * invN
def cK : EReal := ∑ c : Fin 256, meanK x W c * a2 c
/-- Leaky-relu as a maximum. -/
def lreluK (v : EReal) : EReal := max v (alpha * v)
/-- The virtual key's score. -/
def globK (i : Fin 8192) : EReal := lreluK (l1 x W a1 i + cK x W a2)
/-- The masked scores. -/
def sK (i j : Fin 8192) : EReal := Scalar.select (msk i j) (lreluK (l1 x W a1 i + l2 x W a2 j)) negBig

/-- One key tile folded into the running (maximum, denominator, numerator) of row i. -/
def stepK (i : Fin 8192) (k : Fin 32) (st : EReal × EReal × (Fin 256 → EReal)) : EReal × EReal × (Fin 256 → EReal) :=
  let mt : EReal := (Finset.univ : Finset (Fin 256)).fold max negInf (fun j => sK x msk W a1 a2 i (key k j))
  let m' : EReal := max st.1 mt
  let a : EReal := Ideal.exp (st.1 - m')
  let p : Fin 256 → EReal := fun j => Ideal.exp (sK x msk W a1 a2 i (key k j) - m')
  (m', a * st.2.1 + ∑ j : Fin 256, p j * oneB, fun c => a * st.2.2 c + ∑ j : Fin 256, p j * hh x W (key k j) c)

/-- The running state of row i after the first n key tiles. -/
def stK (i : Fin 8192) : ℕ → EReal × EReal × (Fin 256 → EReal)
  | 0 => (negInf, 0, fun _ => 0)
  | n + 1 => if hn : n < 32 then stepK x msk W a1 a2 i ⟨n, hn⟩ (stK i n) else stK i n

/-- The tiled side's result. -/
def outK (i : Fin 8192) (c : Fin 256) : EReal :=
  let st := stK x msk W a1 a2 i 32
  let g : EReal := globK x W a1 a2 i
  let mf : EReal := max st.1 g
  let a : EReal := Ideal.exp (st.1 - mf)
  let pg : EReal := Ideal.exp (g - mf)
  let lf : EReal := a * st.2.1 + pg
  let af : EReal := a * st.2.2 c + pg * meanK x W c
  let o : EReal := Ideal.div af lf
  Scalar.select (Ideal.cmp .ogt o 0) o (Ideal.exp o - oneF)

/-! ## The one-pass side -/
def meanR (c : Fin 256) : EReal := Ideal.div (∑ i : Fin 8192, hh x W i c) nRows
def cR : EReal := ∑ c : Fin 256, meanR x W c * a2 c
/-- Leaky-relu as a select on the sign. -/
def lreluR (v : EReal) : EReal := Scalar.select (Ideal.cmp .oge v 0) v (alpha * v)
def globR (i : Fin 8192) : EReal := lreluR (l1 x W a1 i + cR x W a2)
def sR (i j : Fin 8192) : EReal := Scalar.select (msk i j) (lreluR (l1 x W a1 i + l2 x W a2 j)) negBig
/-- The 8193 scores of row i, the virtual key last; and the 8193 value rows. -/
def eAll (i : Fin 8192) (j : Fin 8193) : EReal := if hj : j.val < 8192 then sR x msk W a1 a2 i ⟨j.val, hj⟩ else globR x W a1 a2 i
def hAll (j : Fin 8193) (c : Fin 256) : EReal := if hj : j.val < 8192 then hh x W ⟨j.val, hj⟩ c else meanR x W c
/-- The row maximum. -/
def maxR (i : Fin 8192) : EReal := max negInf ((Finset.univ : Finset (Fin 8193)).fold max negInf (eAll x msk W a1 a2 i))
def pR (i : Fin 8192) (j : Fin 8193) : EReal := Ideal.exp (eAll x msk W a1 a2 i j - maxR x msk W a1 a2 i)
def sumR (i : Fin 8192) : EReal := ∑ j : Fin 8193, pR x msk W a1 a2 i j
def attR (i : Fin 8192) (j : Fin 8193) : EReal := Ideal.div (pR x msk W a1 a2 i j) (sumR x msk W a1 a2 i)
def avgR (i : Fin 8192) (c : Fin 256) : EReal := ∑ j : Fin 8193, attR x msk W a1 a2 i j * hAll x W j c
/-- The one-pass side's result. -/
def outR (i : Fin 8192) (c : Fin 256) : EReal :=
  let o : EReal := avgR x msk W a1 a2 i c
  Scalar.select (Ideal.cmp .ogt o 0) o (oneF * (Ideal.exp (Scalar.select (Ideal.cmp .ogt o 0) 0 o) - 1))

end

end GatSpec

end
-- ==== Proof.KiValDefs.lean ====
/-
  The vocabulary shared by the modules that read the idealized program's arrays as values: the five argument
  arrays as plain functions of their coordinates, and the specification's one tile step and final fold-in stated
  over the data of ONE attention row (its own logit, the tile's key logits, mask bits and value rows, the state),
  so that what one grid point computes can be compared with it without mentioning the whole arrays.
-/
import proofs.«430248_j1580547967873_3_alg».proof.Proof.Gen.KernelIdeal
import proofs.«430248_j1580547967873_3_alg».proof.Proof.Spec
import Idealize.ShloMosaic.Lib.ValueIdx

noncomputable section

namespace Cert.KernelIdeal.Val

open Cert.KernelIdeal Idealize.ShloMosaic Idealize.ShloMosaic.TcCoe Idealize.SL.Sem ValueIdx

/-! ## One row's tile step and final step -/

/-- One key tile folded into one row's running (maximum, denominator, numerator): the row's own logit, the tile's 256 key
    logits, the row's 256 mask bits, the tile's 256 value rows. -/
def gstep (l1r : EReal) (l2v : Fin 256 → EReal) (mk : Fin 256 → BitVec 1) (hv : Fin 256 → Fin 256 → EReal)
    (st : EReal × EReal × (Fin 256 → EReal)) : EReal × EReal × (Fin 256 → EReal) :=
  let s : Fin 256 → EReal := fun j => Scalar.select (mk j) (GatSpec.lreluK (l1r + l2v j)) GatSpec.negBig
  let mt : EReal := (Finset.univ : Finset (Fin 256)).fold max GatSpec.negInf s
  let m' : EReal := max st.1 mt
  let a : EReal := Ideal.exp (st.1 - m')
  let p : Fin 256 → EReal := fun j => Ideal.exp (s j - m')
  (m', a * st.2.1 + ∑ j : Fin 256, p j * GatSpec.oneB, fun c => a * st.2.2 c + ∑ j : Fin 256, p j * hv j c)

/-- The virtual key folded into one row's final state, the quotient, and elu: the row's state after all tiles, the
    virtual key's score, the mean row, the output column. -/
def gfinal (st : EReal × EReal × (Fin 256 → EReal)) (g : EReal) (mean : Fin 256 → EReal) (c : Fin 256) : EReal :=
  let mf : EReal := max st.1 g
  let a : EReal := Ideal.exp (st.1 - mf)
  let pg : EReal := Ideal.exp (g - mf)
  let lf : EReal := a * st.2.1 + pg
  let af : EReal := a * st.2.2 c + pg * mean c
  let o : EReal := Ideal.div af lf
  Scalar.select (Ideal.cmp .ogt o 0) o (Ideal.exp o - GatSpec.oneF)

section
variable (x : Fin 8192 → Fin 512 → EReal) (msk : Fin 8192 → Fin 8192 → BitVec 1)
  (W : Fin 512 → Fin 256 → EReal) (a1 a2 : Fin 256 → EReal)

/-- The specification's tile step is the one-row step at the row's own data. -/
theorem stepK_eq_gstep (i : Fin 8192) (k : Fin 32) (st : EReal × EReal × (Fin 256 → EReal)) :
    GatSpec.stepK x msk W a1 a2 i k st
      = gstep (GatSpec.l1 x W a1 i) (fun j => GatSpec.l2 x W a2 (GatSpec.key k j)) (fun j => msk i (GatSpec.key k j))
          (fun j c => GatSpec.hh x W (GatSpec.key k j) c) st := rfl

/-- The running state one tile further. -/
theorem stK_succ (i : Fin 8192) (n : ℕ) (hn : n < 32) :
    GatSpec.stK x msk W a1 a2 i (n + 1) = GatSpec.stepK x msk W a1 a2 i ⟨n, hn⟩ (GatSpec.stK x msk W a1 a2 i n) := by
  show (if h : n < 32 then _ else _) = _
  rw [dif_pos hn]

/-- The specification's result is the final step at the row's state after all 32 tiles. -/
theorem outK_eq_gfinal (i : Fin 8192) (c : Fin 256) :
    GatSpec.outK x msk W a1 a2 i c
      = gfinal (GatSpec.stK x msk W a1 a2 i 32) (GatSpec.globK x W a1 a2 i) (GatSpec.meanK x W) c := rfl
end

/-! ## The argument arrays as functions of their coordinates -/

section
variable (m : (ℓ : Loc nD τ sig) → Buf (Elt Ideal) ℓ) (c : Dev nD)

abbrev xA : Fin 8192 → Fin 512 → EReal := fun i k => m ((c : Thread nD τ).loc main_arg0) (ix2 i k)
abbrev mskA : Fin 8192 → Fin 8192 → BitVec 1 := fun i j => IntOp.cmpi .sgt (m ((c : Thread nD τ).loc main_arg1) (ix2 i j)) 0#32
abbrev wA : Fin 512 → Fin 256 → EReal := fun k c' => m ((c : Thread nD τ).loc main_arg2) (ix2 k c')
abbrev a1A : Fin 256 → EReal := fun c' => m ((c : Thread nD τ).loc main_arg3) (ix2 c' 0)
abbrev a2A : Fin 256 → EReal := fun c' => m ((c : Thread nD τ).loc main_arg4) (ix2 c' 0)
end

end Cert.KernelIdeal.Val

end
-- ==== Proof.KiVal0.lean ====
/-
  What the first pallas_call leaves in its four output arrays, read at an index (at the extended reals, where the
  narrowing to bf16 is the identity and a matmul into a zero accumulator is the plain sum): the product x·W, its two
  products with a1 and a2, and per row tile the column sums of the tile's 2048 rows, repeated on eight sublanes.

  The body's four stored values are first read at an index over arbitrary blocks; then each input block is placed in
  its array (the x block at point t is rows 2048·t … 2048·t + 2047, the other three are whole arrays); so what point t
  writes back to each output is the block at t of one function of the argument arrays; the blocks of the four points
  tile each output array, so each array ends as that function.
-/
import proofs.«430248_j1580547967873_3_alg».proof.Proof.KiRun
import proofs.«430248_j1580547967873_3_alg».proof.Proof.KiValDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Val

open Cert.KernelIdeal Cert.KernelIdeal.Gen Cert.KernelIdeal.Fr
open Idealize.ShloMosaic Idealize.ShloMosaic.TcCoe Idealize.SL.Sem ValueIdx
open Idealize.ShloMosaic.Pipeline (Dat)

namespace K0

/-! ## A plain matrix product into a zero accumulator, at an index -/

/-- With the plain dimension numbers (rows × contraction times contraction × columns, no batch axis) a matmul into the
    zero accumulator, read at (a, b), is the sum over the contracted coordinate of the products of the entries: the
    accumulator contributes the zero pattern, and the one-axis contraction index is its coordinate. -/
theorem matmul_plain_zero_apply {M K N : Nat} {φ₁ φ₂ : FTy}
    (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (a : Fin M) (b : Fin N) :
    matmul (⟨[1], [0], [0], [1], [], [], w⟩ : DotDims _ _ _) none A B (constant (F := Ideal) ⟨2, ![M, N]⟩ .f32 0x00000000#32) (ix2 a b)
      = ∑ c : Fin K, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The body's four stored values at an index, over any blocks -/

/-- The product of the x block and W: entry (p, q) is the sum over the 512 contracted coordinates (both narrowings are
    the identity on extended reals). -/
theorem pay1_apply (x0 : Vec Ideal S2048x512 .f32) (x1 : Vec Ideal S512x256 .f32) (p : Fin 2048) (q : Fin 256) :
    k0_pay1 x0 x1 (ix2 p q) = ∑ k : Fin 512, x0 (ix2 p k) * x1 (ix2 k q) := by
  unfold k0_pay1
  exact matmul_plain_zero_apply dot_S2048x512_S512x256_S2048x256_1_0_0_1_n_n_wf
    (truncf .bf16 x0 bitsLt_bf16_f32) (truncf .bf16 x1 bitsLt_bf16_f32) p q

/-- The narrowed product is the product. -/
theorem pay2_apply (x0 : Vec Ideal S2048x512 .f32) (x1 : Vec Ideal S512x256 .f32) (p : Fin 2048) (q : Fin 256) :
    k0_pay2 x0 x1 (ix2 p q) = ∑ k : Fin 512, x0 (ix2 p k) * x1 (ix2 k q) := by
  unfold k0_pay2
  exact pay1_apply x0 x1 p q

/-- The first logit column of the block: the product row against a1. -/
theorem pay3_apply (x0 : Vec Ideal S2048x512 .f32) (x1 : Vec Ideal S512x256 .f32) (x2 : Vec Ideal S256x1 .f32) (p : Fin 2048) :
    k0_pay3 x0 x1 x2 (ix2 p 0) = ∑ q : Fin 256, (∑ k : Fin 512, x0 (ix2 p k) * x1 (ix2 k q)) * x2 (ix2 q 0) := by
  unfold k0_pay3
  refine (matmul_plain_zero_apply dot_S2048x256_S256x1_S2048x1_1_0_0_1_n_n_wf
    (k0_pay2 x0 x1) (truncf .bf16 x2 bitsLt_bf16_f32) p 0).trans ?_
  refine Finset.sum_congr rfl fun q _ => ?_
  rw [pay2_apply]
  rfl

/-- The second logit column: the product row against a2. -/
theorem pay4_apply (x0 : Vec Ideal S2048x512 .f32) (x1 : Vec Ideal S512x256 .f32) (x3 : Vec Ideal S256x1 .f32) (p : Fin 2048) :
    k0_pay4 x0 x1 x3 (ix2 p 0) = ∑ q : Fin 256, (∑ k : Fin 512, x0 (ix2 p k) * x1 (ix2 k q)) * x3 (ix2 q 0) := by
  unfold k0_pay4
  refine (matmul_plain_zero_apply dot_S2048x256_S256x1_S2048x1_1_0_0_1_n_n_wf
    (k0_pay2 x0 x1) (truncf .bf16 x3 bitsLt_bf16_f32) p 0).trans ?_
  refine Finset.sum_congr rfl fun q _ => ?_
  rw [pay2_apply]
  rfl

/-- The tile's column sums on every sublane: the sum over the block's 2048 rows of the product, whichever sublane is
    read (the reduction drops the row axis, the casts add unit axes, the broadcast repeats along the sublane axis). -/
theorem pay5_apply (x0 : Vec Ideal S2048x512 .f32) (x1 : Vec Ideal S512x256 .f32) (s : Fin 8) (q : Fin 256) :
    k0_pay5 x0 x1 (ix3 (0 : Fin 1) s q) = ∑ r : Fin 2048, ∑ k : Fin 512, x0 (ix2 r k) * x1 (ix2 k q) := by
  unfold k0_pay5
  refine (broadcastTo_apply _ broadcasts_S1x1x256_S1x8x256 (ix3 (0 : Fin 1) s q) (ix3 (0 : Fin 1) (0 : Fin 1) q) ?_).trans ?_
  · intro a
    match a with
    | ⟨0, _⟩ => rfl
    | ⟨1, _⟩ => rfl
    | ⟨2, _⟩ => rfl
  rw [shapeCast_self]
  refine (shapeCast_apply _ shapeCasts_S1x256_S1x1x256 (ix3 (0 : Fin 1) (0 : Fin 1) q) (ix2 (0 : Fin 1) q) ?_).trans ?_
  · rw [Shape.rowMajor_val_two, Shape.rowMajor_val_three]
    show 0 * 256 + q.val = (0 * 1 + 0) * 256 + q.val
    omega
  refine (shapeCast_apply _ shapeCasts_S256_S1x256 (ix2 (0 : Fin 1) q) (ix1 q) ?_).trans ?_
  · rw [Shape.rowMajor_val_one, Shape.rowMajor_val_two]
    show q.val = 0 * 256 + q.val
    omega
  refine (Ideal.multiReduction_add_single (k0_pay1 x0 x1) 0x00000000#32 reduces_S2048x256_S256 (.inl rfl) rfl (ix1 q)).trans ?_
  refine Finset.sum_congr rfl fun r _ => ?_
  have e : reduces_S2048x256_S256.lift (ix1 q) r = ix2 r q := by
    funext a; apply Fin.ext
    match a with
    | ⟨0, _⟩ => rfl
    | ⟨1, _⟩ => rfl
  rw [e]
  exact pay1_apply x0 x1 r q

/-! ## Where each window's block sits in its array -/

/-- The printed index maps over the four grid points: the x window and the four output windows are at block (t, 0[, 0]),
    the windows of W, a1 and a2 at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- A grid point as a tile number. -/
def tile0 (t : Fin cfg0.N) : Fin 4 := ⟨t.val, by have h : t.val < grid0.N := t.isLt; have h4 : grid0.N = 4 := N_0; omega⟩

variable (m : (ℓ : Loc nD τ sig) → Buf (Elt Ideal) ℓ) (c : Dev nD)

/-- The four input blocks at point t. -/
abbrev xblk (t : Fin cfg0.N) : Vec Ideal S2048x512 .f32 := iblk0 (Ve0 m) c 0 t
abbrev wblk (t : Fin cfg0.N) : Vec Ideal S512x256 .f32 := iblk0 (Ve0 m) c 1 t
abbrev a1blk (t : Fin cfg0.N) : Vec Ideal S256x1 .f32 := iblk0 (Ve0 m) c 2 t
abbrev a2blk (t : Fin cfg0.N) : Vec Ideal S256x1 .f32 := iblk0 (Ve0 m) c 3 t

/-- The x window's block at point t is rows 2048·t … 2048·t + 2047 of x. -/
theorem xblk_apply (t : Fin cfg0.N) (p : Fin 2048) (k : Fin 512) :
    xblk m c t (ix2 p k) = xA m c (GatSpec.row (tile0 t) p) k := by
  obtain ⟨h0, h1, -⟩ := idx_facts0 t
  unfold xblk iblk0
  rw [View.read_apply]
  show m ((c : Thread nD τ).loc main_arg0) _ = m ((c : Thread nD τ).loc main_arg0) _
  congr 1
  funext a
  apply Fin.ext
  match a with
  | ⟨0, _⟩ => show win0_0.index t (0 : Fin 2) * 2048 + 1 * p.val = 2048 * t.val + p.val; rw [h0]; omega
  | ⟨1, _⟩ => show win0_0.index t (1 : Fin 2) * 512 + 1 * k.val = k.val; rw [h1]; omega

/-- W's window is the whole of W at every point. -/
theorem wblk_apply (t : Fin cfg0.N) (k : Fin 512) (q : Fin 256) :
    wblk m c t (ix2 k q) = wA m c k q := by
  obtain ⟨-, -, h0, h1, -⟩ := idx_facts0 t
  unfold wblk iblk0
  rw [View.read_apply]
  show m ((c : Thread nD τ).loc main_arg2) _ = m ((c : Thread nD τ).loc main_arg2) _
  congr 1
  funext a
  apply Fin.ext
  match a with
  | ⟨0, _⟩ => show win0_1.index t (0 : Fin 2) * 512 + 1 * k.val = k.val; rw [h0]; omega
  | ⟨1, _⟩ => show win0_1.index t (1 : Fin 2) * 256 + 1 * q.val = q.val; rw [h1]; omega

/-- a1's window is the whole of a1 at every point. -/
theorem a1blk_apply (t : Fin cfg0.N) (q : Fin 256) :
    a1blk m c t (ix2 q (0 : Fin 1)) = a1A m c q := by
  obtain ⟨-, -, -, -, h0, h1, -⟩ := idx_facts0 t
  unfold a1blk iblk0
  rw [View.read_apply]
  show m ((c : Thread nD τ).loc main_arg3) _ = m ((c : Thread nD τ).loc main_arg3) _
  congr 1
  funext a
  apply Fin.ext
  match a with
  | ⟨0, _⟩ => show win0_2.index t (0 : Fin 2) * 256 + 1 * q.val = q.val; rw [h0]; omega
  | ⟨1, _⟩ => show win0_2.index t (1 : Fin 2) * 1 + 1 * 0 = 0; rw [h1]

/-- a2's window is the whole of a2 at every point. -/
theorem a2blk_apply (t : Fin cfg0.N) (q : Fin 256) :
    a2blk m c t (ix2 q (0 : Fin 1)) = a2A m c q := by
  obtain ⟨-, -, -, -, -, -, h0, h1, -⟩ := idx_facts0 t
  unfold a2blk iblk0
  rw [View.read_apply]
  show m ((c : Thread nD τ).loc main_arg4) _ = m ((c : Thread nD τ).loc main_arg4) _
  congr 1
  funext a
  apply Fin.ext
  match a with
  | ⟨0, _⟩ => show win0_3.index t (0 : Fin 2) * 256 + 1 * q.val = q.val; rw [h0]; omega
  | ⟨1, _⟩ => show win0_3.index t (1 : Fin 2) * 1 + 1 * 0 = 0; rw [h1]

/-! ## The four output arrays as functions of the arguments -/

theorem hz2 : (![0, 0] : Fin 2 → Nat) = fun _ => 0 := funext fun a => by fin_cases a <;> rfl
theorem hz3 : (![0, 0, 0] : Fin 3 → Nat) = fun _ => 0 := funext fun a => by fin_cases a <;> rfl

/-- The narrowed product as a whole array: entry i is (x·W) at i's two coordinates. -/
def gH : S8192x256.Idx → EReal := fun i =>
  GatSpec.hh (xA m c) (wA m c) ⟨(i 0).val, idx2_lt0 i⟩ ⟨(i 1).val, idx2_lt1 i⟩
/-- The first logit column as a whole array. -/
def gL1 : S8192x1.Idx → EReal := fun i => GatSpec.l1 (xA m c) (wA m c) (a1A m c) ⟨(i 0).val, idx2_lt0 i⟩
/-- The second logit column as a whole array. -/
def gL2 : S8192x1.Idx → EReal := fun i => GatSpec.l2 (xA m c) (wA m c) (a2A m c) ⟨(i 0).val, idx2_lt0 i⟩
/-- The per-tile column sums as a whole array: entry (q, s, c') is tile q's sum of (x·W)(·, c'), for every sublane s. -/
def gS : S4x8x256.Idx → EReal := fun i =>
  ∑ r : Fin 2048, GatSpec.hh (xA m c) (wA m c) (GatSpec.row ⟨(i 0).val, (i 0).isLt⟩ r) ⟨(i 2).val, (i 2).isLt⟩

theorem gH_apply (i : S8192x256.Idx) (a : Fin 8192) (b : Fin 256) (ha : (i 0).val = a.val) (hb : (i 1).val = b.val) :
    gH m c i = GatSpec.hh (xA m c) (wA m c) a b :=
  congrArg₂ (GatSpec.hh (xA m c) (wA m c)) (Fin.ext ha) (Fin.ext hb)
theorem gL1_apply (i : S8192x1.Idx) (a : Fin 8192) (ha : (i 0).val = a.val) :
    gL1 m c i = GatSpec.l1 (xA m c) (wA m c) (a1A m c) a :=
  congrArg (GatSpec.l1 (xA m c) (wA m c) (a1A m c)) (Fin.ext ha)
theorem gL2_apply (i : S8192x1.Idx) (a : Fin 8192) (ha : (i 0).val = a.val) :
    gL2 m c i = GatSpec.l2 (xA m c) (wA m c) (a2A m c) a :=
  congrArg (GatSpec.l2 (xA m c) (wA m c) (a2A m c)) (Fin.ext ha)
theorem gS_apply (i : S4x8x256.Idx) (q : Fin 4) (b : Fin 256) (hq : (i 0).val = q.val) (hb : (i 2).val = b.val) :
    gS m c i = ∑ r : Fin 2048, GatSpec.hh (xA m c) (wA m c) (GatSpec.row q r) b := by
  unfold gS
  rw [show (⟨(i 0).val, (i 0).isLt⟩ : Fin 4) = q from Fin.ext hq, show (⟨(i 2).val, (i 2).isLt⟩ : Fin 256) = b from Fin.ext hb]

/-- The product of the x block and W at point t is (x·W) on the tile's rows. -/
theorem prod_blk (t : Fin cfg0.N) (p : Fin 2048) (q : Fin 256) :
    (∑ k : Fin 512, xblk m c t (ix2 p k) * wblk m c t (ix2 k q))
      = GatSpec.hh (xA m c) (wA m c) (GatSpec.row (tile0 t) p) q := by
  unfold GatSpec.hh
  refine Finset.sum_congr rfl fun k _ => ?_
  rw [xblk_apply, wblk_apply]

/-! ## What each point writes back is its block of those functions -/

theorem flushedH_eq (t : Fin cfg0.N) :
    (dat0 (Ve0 m) c).flushed 4 t = ((cfg0.win 4).blk t).view.read (Elt Ideal) (gH m c) := by
  show (cfg0.win 4).cut (grid0.coords t) ((dat0 (Ve0 m) c).after 4 t) = _
  rw [after0_4]
  unfold out0_4
  rw [View.canon_unit_zero hz2]
  simp only [View.ld_unit_zero (S := S2048x512) hz2, View.ld_unit_zero (S := S512x256) hz2]
  obtain ⟨-, -, -, -, -, -, -, -, h0, h1, -⟩ := idx_facts0 t
  funext j
  obtain ⟨p, q, rfl⟩ : ∃ (p : Fin 2048) (q : Fin 256), j = ix2 p q := ⟨j 0, j 1, eq_ix2 j⟩
  show k0_pay2 (xblk m c t) (wblk m c t) (ix2 p q) = gH m c (((cfg0.win 4).blk t).view.emb (ix2 p q))
  refine (pay2_apply (xblk m c t) (wblk m c t) p q).trans ?_
  refine (prod_blk m c t p q).trans (gH_apply m c _ (GatSpec.row (tile0 t) p) q ?_ ?_).symm
  · show win0_4.index t (0 : Fin 2) * 2048 + 1 * p.val = 2048 * t.val + p.val
    rw [h0]; omega
  · show win0_4.index t (1 : Fin 2) * 256 + 1 * q.val = q.val
    rw [h1]; omega

/-! ## Every index is in some point's block: row i lies in tile i / 2048 -/

theorem coverH (i : S8192x256.Idx) :
    ∃ t : Fin cfg0.N, (cfg0.win 4).flush t = true ∧ i ∈ ((cfg0.win 4).blk t).view.set := by
  have hi0 : (i 0).val < 8192 := idx2_lt0 i
  have hi1 : (i 1).val < 256 := idx2_lt1 i
  have h4 : grid0.N = 4 := N_0
  have ht : (i 0).val / 2048 < grid0.N := by omega
  obtain ⟨-, -, -, -, -, -, -, -, h0, h1, -⟩ := idx_facts0 ⟨(i 0).val / 2048, ht⟩
  refine ⟨⟨(i 0).val / 2048, ht⟩, flush0_4 _, ?_⟩
  show i ∈ ((View.whole main_v0_0).slice (win0_4.rect ⟨(i 0).val / 2048, ht⟩)).set
  rw [View.set_slice_whole, Rect.mem_set_unit]
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    rw [h0]; show (i 0).val / 2048 * 2048 ≤ (i 0).val ∧ (i 0).val < (i 0).val / 2048 * 2048 + 2048; omega
  | ⟨1, _⟩ =>
    show win0_4.index ⟨(i 0).val / 2048, ht⟩ (1 : Fin 2) * 256 ≤ (i 1).val
      ∧ (i 1).val < win0_4.index ⟨(i 0).val / 2048, ht⟩ (1 : Fin 2) * 256 + 256
    rw [h1]; omega

/-- So the first output array ends as that function. -/
theorem finalH : (dat0 (Ve0 m) c).arrAt 4 cfg0.N = gH m c :=
  (dat0 (Ve0 m) c).arrAt_eq_of_cover 4 (gH m c) (fun t _ => flushedH_eq m c t) (coverH)

/-! ## The two logit columns -/

theorem flushedL1_eq (t : Fin cfg0.N) :
    (dat0 (Ve0 m) c).flushed 5 t = ((cfg0.win 5).blk t).view.read (Elt Ideal) (gL1 m c) := by
  show (cfg0.win 5).cut (grid0.coords t) ((dat0 (Ve0 m) c).after 5 t) = _
  rw [after0_5]
  unfold out0_5
  rw [View.canon_unit_zero hz2]
  simp only [View.ld_unit_zero (S := S2048x512) hz2, View.ld_unit_zero (S := S512x256) hz2, View.ld_unit_zero (S := S256x1) hz2]
  obtain ⟨-, -, -, -, -, -, -, -, -, -, h0, h1, -⟩ := idx_facts0 t
  funext j
  obtain ⟨p, z, rfl⟩ : ∃ (p : Fin 2048) (z : Fin 1), j = ix2 p z := ⟨j 0, j 1, eq_ix2 j⟩
  obtain rfl : z = 0 := Subsingleton.elim _ _
  show k0_pay3 (xblk m c t) (wblk m c t) (a1blk m c t) (ix2 p (0 : Fin 1)) = gL1 m c (((cfg0.win 5).blk t).view.emb (ix2 p (0 : Fin 1)))
  refine (pay3_apply (xblk m c t) (wblk m c t) (a1blk m c t) p).trans ?_
  refine Eq.trans ?_ (gL1_apply m c _ (GatSpec.row (tile0 t) p) ?_).symm
  · unfold GatSpec.l1
    refine Finset.sum_congr rfl fun q _ => ?_
    rw [prod_blk, a1blk_apply]
  · show win0_5.index t (0 : Fin 2) * 2048 + 1 * p.val = 2048 * t.val + p.val
    rw [h0]; omega

theorem coverL1 (i : S8192x1.Idx) :
    ∃ t : Fin cfg0.N, (cfg0.win 5).flush t = true ∧ i ∈ ((cfg0.win 5).blk t).view.set := by
  have hi0 : (i 0).val < 8192 := idx2_lt0 i
  have hi1 : (i 1).val < 1 := idx2_lt1 i
  have h4 : grid0.N = 4 := N_0
  have ht : (i 0).val / 2048 < grid0.N := by omega
  obtain ⟨-, -, -, -, -, -, -, -, -, -, h0, h1, -⟩ := idx_facts0 ⟨(i 0).val / 2048, ht⟩
  refine ⟨⟨(i 0).val / 2048, ht⟩, flush0_5 _, ?_⟩
  show i ∈ ((View.whole main_v0_1).slice (win0_5.rect ⟨(i 0).val / 2048, ht⟩)).set
  rw [View.set_slice_whole, Rect.mem_set_unit]
  intro a
  match a with
  | ⟨0, _⟩ =>
    show win0_5.index ⟨(i 0).val / 2048, ht⟩ (0 : Fin 2) * 2048 ≤ (i 0).val
      ∧ (i 0).val < win0_5.index ⟨(i 0).val / 2048, ht⟩ (0 : Fin 2) * 2048 + 2048
    rw [h0]; show (i 0).val / 2048 * 2048 ≤ (i 0).val ∧ (i 0).val < (i 0).val / 2048 * 2048 + 2048; omega
  | ⟨1, _⟩ =>
    show win0_5.index ⟨(i 0).val / 2048, ht⟩ (1 : Fin 2) * 1 ≤ (i 1).val
      ∧ (i 1).val < win0_5.index ⟨(i 0).val / 2048, ht⟩ (1 : Fin 2) * 1 + 1
    rw [h1]; omega

theorem finalL1 : (dat0 (Ve0 m) c).arrAt 5 cfg0.N = gL1 m c :=
  (dat0 (Ve0 m) c).arrAt_eq_of_cover 5 (gL1 m c) (fun t _ => flushedL1_eq m c t) (coverL1)

theorem flushedL2_eq (t : Fin cfg0.N) :
    (dat0 (Ve0 m) c).flushed 6 t = ((cfg0.win 6).blk t).view.read (Elt Ideal) (gL2 m c) := by
  show (cfg0.win 6).cut (grid0.coords t) ((dat0 (Ve0 m) c).after 6 t) = _
  rw [after0_6]
  unfold out0_6
  rw [View.canon_unit_zero hz2]
  simp only [View.ld_unit_zero (S := S2048x512) hz2, View.ld_unit_zero (S := S512x256) hz2, View.ld_unit_zero (S := S256x1) hz2]
  obtain ⟨-, -, -, -, -, -, -, -, -, -, -, -, h0, h1, -⟩ := idx_facts0 t
  funext j
  obtain ⟨p, z, rfl⟩ : ∃ (p : Fin 2048) (z : Fin 1), j = ix2 p z := ⟨j 0, j 1, eq_ix2 j⟩
  obtain rfl : z = 0 := Subsingleton.elim _ _
  show k0_pay4 (xblk m c t) (wblk m c t) (a2blk m c t) (ix2 p (0 : Fin 1)) = gL2 m c (((cfg0.win 6).blk t).view.emb (ix2 p (0 : Fin 1)))
  refine (pay4_apply (xblk m c t) (wblk m c t) (a2blk m c t) p).trans ?_
  refine Eq.trans ?_ (gL2_apply m c _ (GatSpec.row (tile0 t) p) ?_).symm
  · unfold GatSpec.l2
    refine Finset.sum_congr rfl fun q _ => ?_
    rw [prod_blk, a2blk_apply]
  · show win0_6.index t (0 : Fin 2) * 2048 + 1 * p.val = 2048 * t.val + p.val
    rw [h0]; omega

theorem coverL2 (i : S8192x1.Idx) :
    ∃ t : Fin cfg0.N, (cfg0.win 6).flush t = true ∧ i ∈ ((cfg0.win 6).blk t).view.set := by
  have hi0 : (i 0).val < 8192 := idx2_lt0 i
  have hi1 : (i 1).val < 1 := idx2_lt1 i
  have h4 : grid0.N = 4 := N_0
  have ht : (i 0).val / 2048 < grid0.N := by omega
  obtain ⟨-, -, -, -, -, -, -, -, -, -, -, -, h0, h1, -⟩ := idx_facts0 ⟨(i 0).val / 2048, ht⟩
  refine ⟨⟨(i 0).val / 2048, ht⟩, flush0_6 _, ?_⟩
  show i ∈ ((View.whole main_v0_2).slice (win0_6.rect ⟨(i 0).val / 2048, ht⟩)).set
  rw [View.set_slice_whole, Rect.mem_set_unit]
  intro a
  match a with
  | ⟨0, _⟩ =>
    show win0_6.index ⟨(i 0).val / 2048, ht⟩ (0 : Fin 2) * 2048 ≤ (i 0).val
      ∧ (i 0).val < win0_6.index ⟨(i 0).val / 2048, ht⟩ (0 : Fin 2) * 2048 + 2048
    rw [h0]; show (i 0).val / 2048 * 2048 ≤ (i 0).val ∧ (i 0).val < (i 0).val / 2048 * 2048 + 2048; omega
  | ⟨1, _⟩ =>
    show win0_6.index ⟨(i 0).val / 2048, ht⟩ (1 : Fin 2) * 1 ≤ (i 1).val
      ∧ (i 1).val < win0_6.index ⟨(i 0).val / 2048, ht⟩ (1 : Fin 2) * 1 + 1
    rw [h1]; omega

theorem finalL2 : (dat0 (Ve0 m) c).arrAt 6 cfg0.N = gL2 m c :=
  (dat0 (Ve0 m) c).arrAt_eq_of_cover 6 (gL2 m c) (fun t _ => flushedL2_eq m c t) (coverL2)

/-! ## The per-tile column sums -/

theorem flushedS_eq (t : Fin cfg0.N) :
    (dat0 (Ve0 m) c).flushed 7 t = ((cfg0.win 7).blk t).view.read (Elt Ideal) (gS m c) := by
  show (cfg0.win 7).cut (grid0.coords t) ((dat0 (Ve0 m) c).after 7 t) = _
  rw [after0_7]
  unfold out0_7
  rw [View.canon_unit_zero hz3]
  simp only [View.ld_unit_zero (S := S2048x512) hz2, View.ld_unit_zero (S := S512x256) hz2]
  obtain ⟨-, -, -, -, -, -, -, -, -, -, -, -, -, -, h0, h1, h2⟩ := idx_facts0 t
  funext j
  obtain ⟨z, s, q, rfl⟩ : ∃ (z : Fin 1) (s : Fin 8) (q : Fin 256), j = ix3 z s q := ⟨j 0, j 1, j 2, eq_ix3 j⟩
  obtain rfl : z = 0 := Subsingleton.elim _ _
  show k0_pay5 (xblk m c t) (wblk m c t) (ix3 (0 : Fin 1) s q) = gS m c (((cfg0.win 7).blk t).view.emb (ix3 (0 : Fin 1) s q))
  refine (pay5_apply (xblk m c t) (wblk m c t) s q).trans ?_
  refine Eq.trans ?_ (gS_apply m c _ (tile0 t) q ?_ ?_).symm
  · refine Finset.sum_congr rfl fun r _ => ?_
    exact prod_blk m c t r q
  · show win0_7.index t (0 : Fin 3) * 1 + 1 * 0 = t.val
    rw [h0]; omega
  · show win0_7.index t (2 : Fin 3) * 256 + 1 * q.val = q.val
    rw [h2]; omega

theorem coverS (i : S4x8x256.Idx) :
    ∃ t : Fin cfg0.N, (cfg0.win 7).flush t = true ∧ i ∈ ((cfg0.win 7).blk t).view.set := by
  have hi0 : (i 0).val < 4 := (i 0).isLt
  have hi1 : (i 1).val < 8 := (i 1).isLt
  have hi2 : (i 2).val < 256 := (i 2).isLt
  have h4 : grid0.N = 4 := N_0
  have ht : (i 0).val < grid0.N := by omega
  obtain ⟨-, -, -, -, -, -, -, -, -, -, -, -, -, -, h0, h1, h2⟩ := idx_facts0 ⟨(i 0).val, ht⟩
  refine ⟨⟨(i 0).val, ht⟩, flush0_7 _, ?_⟩
  show i ∈ ((View.whole main_v0_3).slice (win0_7.rect ⟨(i 0).val, ht⟩)).set
  rw [View.set_slice_whole, Rect.mem_set_unit]
  intro a
  match a with
  | ⟨0, _⟩ =>
    show win0_7.index ⟨(i 0).val, ht⟩ (0 : Fin 3) * 1 ≤ (i 0).val
      ∧ (i 0).val < win0_7.index ⟨(i 0).val, ht⟩ (0 : Fin 3) * 1 + 1
    rw [h0]; show (i 0).val * 1 ≤ (i 0).val ∧ (i 0).val < (i 0).val * 1 + 1; omega
  | ⟨1, _⟩ =>
    show win0_7.index ⟨(i 0).val, ht⟩ (1 : Fin 3) * 8 ≤ (i 1).val
      ∧ (i 1).val < win0_7.index ⟨(i 0).val, ht⟩ (1 : Fin 3) * 8 + 8
    rw [h1]; omega
  | ⟨2, _⟩ =>
    show win0_7.index ⟨(i 0).val, ht⟩ (2 : Fin 3) * 256 ≤ (i 2).val
      ∧ (i 2).val < win0_7.index ⟨(i 0).val, ht⟩ (2 : Fin 3) * 256 + 256
    rw [h2]; omega

theorem finalS : (dat0 (Ve0 m) c).arrAt 7 cfg0.N = gS m c :=
  (dat0 (Ve0 m) c).arrAt_eq_of_cover 7 (gS m c) (fun t _ => flushedS_eq m c t) (coverS)

end K0

open K0

variable (m : (ℓ : Loc nD τ sig) → Buf (Elt Ideal) ℓ) (c : Dev nD)

/-- The narrowed product: entry (i, c') of the first output is (x·W)(i, c'). -/
theorem W1_hb (i : Fin 8192) (c' : Fin 256) :
    W1 m c (Proc.devRef .tc main_v0_0) (ix2 i c') = GatSpec.hh (xA m c) (wA m c) i c' := by
  have e : W1 m c (Proc.devRef .tc main_v0_0) = gH m c := (W1_arr m c 4).trans (finalH m c)
  exact (congrFun e (ix2 i c')).trans (gH_apply m c _ i c' rfl rfl)

/-- The first logit column. -/
theorem W1_l1 (i : Fin 8192) :
    W1 m c (Proc.devRef .tc main_v0_1) (ix2 i 0) = GatSpec.l1 (xA m c) (wA m c) (a1A m c) i := by
  have e : W1 m c (Proc.devRef .tc main_v0_1) = gL1 m c := (W1_arr m c 5).trans (finalL1 m c)
  exact (congrFun e (ix2 i 0)).trans (gL1_apply m c _ i rfl)

/-- The second logit column. -/
theorem W1_l2 (i : Fin 8192) :
    W1 m c (Proc.devRef .tc main_v0_2) (ix2 i 0) = GatSpec.l2 (xA m c) (wA m c) (a2A m c) i := by
  have e : W1 m c (Proc.devRef .tc main_v0_2) = gL2 m c := (W1_arr m c 6).trans (finalL2 m c)
  exact (congrFun e (ix2 i 0)).trans (gL2_apply m c _ i rfl)

/-- The per-tile column sums: tile q's sum over its 2048 rows, on every one of the eight sublanes. -/
theorem W1_hsum (q : Fin 4) (s : Fin 8) (c' : Fin 256) :
    W1 m c (Proc.devRef .tc main_v0_3) (ix3 q s c') = ∑ r : Fin 2048, GatSpec.hh (xA m c) (wA m c) (GatSpec.row q r) c' := by
  have e : W1 m c (Proc.devRef .tc main_v0_3) = gS m c := (W1_arr m c 7).trans (finalS m c)
  exact (congrFun e (ix3 q s c')).trans (gS_apply m c _ q c' rfl rfl)

end Cert.KernelIdeal.Val

end
-- ==== Proof.KiValHost.lean ====
/-
  The 25 host operations between the two pallas_calls, read at an index, from ANY contents Wa of the buffers
  before them: the mean row (four tile sums added, times 2^-13), the virtual key's score (leaky-relu of the row's logit
  plus mean·a2), the second logit column transposed to a row, and the value matrix widened by a block whose first
  column is ones. Every buffer the stretch does not write keeps its contents.
-/
import proofs.«430248_j1580547967873_3_alg».proof.Proof.Gen.KernelIdeal.Launch
import proofs.«430248_j1580547967873_3_alg».proof.Proof.Gen.KernelIdeal.Regions
import proofs.«430248_j1580547967873_3_alg».proof.Proof.KiValDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Val

open Cert.KernelIdeal Cert.KernelIdeal.Gen
open Idealize.ShloMosaic Idealize.ShloMosaic.TcCoe Idealize.SL.Sem ValueIdx
open Idealize.ShloMosaic.Pipeline (Dat)

variable (Wa : Valuation τ sig (Elt Ideal))

/-- The buffers after the host stretch. -/
abbrev Wb : Valuation τ sig (Elt Ideal) := StableHlo.after (hostOps1 (F := Ideal)) Wa

/-- The 1×256 by 256×1 product read at its one entry: the sum over the 256 contracted positions. -/
theorem dot_row_col (l : FVec Ideal S1x256 .f32) (r : FVec Ideal S256x1 .f32) :
    Host.dotGeneral (F := Ideal) dot_S1x256_S256x1_S1x1_1_0_0_1_n_n none l r (ix2 0 0)
      = ∑ c : Fin 256, l (ix2 0 c) * r (ix2 c 0) := by
  refine (Ideal.dotGeneral_apply dot_S1x256_S256x1_S1x1_1_0_0_1_n_n none .single l r (ix2 0 0)).trans ?_
  refine Fintype.sum_equiv (contrEquiv1 dot_S1x256_S256x1_S1x1_1_0_0_1_n_n 256 rfl rfl) _ _ (fun k => ?_)
  have e1 : dot_S1x256_S256x1_S1x1_1_0_0_1_n_n.lhsIdx (ix2 0 0) k
      = ix2 0 (contrEquiv1 dot_S1x256_S256x1_S1x1_1_0_0_1_n_n 256 rfl rfl k) := by
    funext a
    match a with
    | ⟨0, _⟩ => exact Fin.ext rfl
    | ⟨1, _⟩ => exact Fin.ext rfl
  have e2 : dot_S1x256_S256x1_S1x1_1_0_0_1_n_n.rhsIdx (ix2 0 0) k
      = ix2 (contrEquiv1 dot_S1x256_S256x1_S1x1_1_0_0_1_n_n 256 rfl rfl k) 0 := by
    funext a
    match a with
    | ⟨0, _⟩ => exact Fin.ext rfl
    | ⟨1, _⟩ => exact Fin.ext rfl
  rw [e1, e2]

/-- A maximum of a sum against its product with a third vector, read at an entry. -/
theorem max_add_mul_apply (A B C : FVec Ideal S8192x1 .f32) (i : Fin 8192) (v al : EReal)
    (hAB : A (ix2 i 0) + B (ix2 i 0) = v) (hC : C (ix2 i 0) = al) :
    maximumf (addf A B) (mulf C (addf A B)) (ix2 i 0) = max v (al * v) := by
  show max (A (ix2 i 0) + B (ix2 i 0)) (C (ix2 i 0) * (A (ix2 i 0) + B (ix2 i 0))) = _
  rw [hAB, hC]

/-- The virtual key's score of row i: the row's logit plus the one entry of the product mean row · a2 column, laid
    along all rows; then the maximum of that sum against its product with the slope. -/
theorem glob_apply (T6 : FVec Ideal S1x256 .f32) (A4 : FVec Ideal S256x1 .f32) (A1 : FVec Ideal S8192x1 .f32)
    (i : Fin 8192) (l1v : EReal) (mean a2v : Fin 256 → EReal)
    (h1 : A1 (ix2 i 0) = l1v) (hm : ∀ c' : Fin 256, T6 (ix2 0 c') = mean c') (ha : ∀ c' : Fin 256, A4 (ix2 c' 0) = a2v c') :
    maximumf
        (addf A1 (broadcastInDim S8192x1 ![] bcast_S_S8192x1 fun i =>
          shapeCast S_ (Host.dotGeneral (F := Ideal) dot_S1x256_S256x1_S1x1_1_0_0_1_n_n none T6 A4) shapeCasts_S1x1_S_ i))
        (mulf (broadcastInDim S8192x1 ![] bcast_S_S8192x1 (constant (F := Ideal) S_ .f32 0x3E4CCCCD#32))
          (addf A1 (broadcastInDim S8192x1 ![] bcast_S_S8192x1 fun i =>
            shapeCast S_ (Host.dotGeneral (F := Ideal) dot_S1x256_S256x1_S1x1_1_0_0_1_n_n none T6 A4) shapeCasts_S1x1_S_ i)))
        (ix2 i 0)
      = GatSpec.lreluK (l1v + ∑ c' : Fin 256, mean c' * a2v c') := by
  unfold GatSpec.lreluK
  refine max_add_mul_apply _ _ _ i _ _ ?_ rfl
  rw [h1]
  congr 1
  refine (broadcastInDim_apply _ _ _ (ix2 i 0) ix0 (fun a => a.elim0)).trans ?_
  refine (shapeCast_apply _ shapeCasts_S1x1_S_ ix0 (ix2 (0 : Fin 1) (0 : Fin 1)) ?_).trans ?_
  · decide
  · refine (dot_row_col _ _).trans ?_
    exact Finset.sum_congr rfl (fun c _ => by rw [hm c, ha c])

/-- The mean row: the four tiles' column sums (sublane 0) added, times 2^-13. The caller names the four sums. -/
theorem host_mean (c' : Fin 256) (hs : Fin 4 → EReal)
    (hhs : ∀ q : Fin 4, Wa (Proc.devRef .tc main_v0_3) (ix3 q 0 c') = hs q) :
    Wb Wa (Proc.devRef .tc main_v6) (ix2 0 c') = (∑ q : Fin 4, hs q) * GatSpec.invN := by
  show StableHlo.after hostOps1 Wa (Proc.devRef .tc main_v6) (ix2 0 c') = _
  after_results
  -- a product of two rows, read entrywise; the second row is the constant 2^-13 at every entry
  refine (mulf_apply _ _ _).trans ?_
  congr 1
  -- the first row is the column sums laid along a unit axis
  refine (broadcastInDim_apply _ _ _ (ix2 0 c') (ix1 c') (fun a => ?_)).trans ?_
  · match a with
    | ⟨0, _⟩ => rfl
  · -- a sum over the four tiles from the initial value zero
    refine (Ideal.hostReduceAdd_single reducesTo_S4x256_S256_d0 (by decide : S4x256.Reduces [0] S256) _ _ (ix1 c')).trans ?_
    refine (congrArg (· + _) Ideal.ofBits_zero_f32).trans ?_
    refine (zero_add _).trans ?_
    refine Finset.sum_congr rfl (fun q _ => ?_)
    -- entry (q, c') of the 4×256 matrix is entry (q, 0, c') of the slice, which is entry (q, 0, c') of the partial sums
    refine (shapeCast_apply _ shapeCasts_S4x1x256_S4x256 _ (ix3 q (0 : Fin 1) c') ?_).trans ?_
    · rw [Shape.rowMajor_val_three, Shape.rowMajor_val_two]
      show (q.val * 1 + 0) * 256 + c'.val = q.val * 256 + c'.val
      omega
    · refine (extractStridedSlice_apply _ _ slices_S4x8x256_S4x1x256_0_0_0 _ (ix3 q (0 : Fin 8) c') (fun a => ?_)).trans (hhs q)
      match a with
      | ⟨0, _⟩ => exact (Nat.zero_add _).symm
      | ⟨1, _⟩ => rfl
      | ⟨2, _⟩ => exact (Nat.zero_add _).symm

/-- The virtual key's score of row i: leaky-relu of the row's logit plus mean·a2. The caller names the row's logit, the
    mean row and a2. -/
theorem host_glob (i : Fin 8192) (l1v : EReal) (mean a2v : Fin 256 → EReal)
    (h1 : Wa (Proc.devRef .tc main_v0_1) (ix2 i 0) = l1v)
    (hm : ∀ c' : Fin 256, Wb Wa (Proc.devRef .tc main_v6) (ix2 0 c') = mean c')
    (ha : ∀ c' : Fin 256, Wa (Proc.devRef .tc main_arg4) (ix2 c' 0) = a2v c') :
    Wb Wa (Proc.devRef .tc main_v13) (ix2 i 0) = GatSpec.lreluK (l1v + ∑ c' : Fin 256, mean c' * a2v c') := by
  show StableHlo.after hostOps1 Wa (Proc.devRef .tc main_v13) (ix2 i 0) = _
  after_results
  refine glob_apply _ _ _ i l1v mean a2v h1 (fun c' => ?_) ha
  -- the mean row inside the product is the mean row's buffer after the stretch
  refine Eq.trans (Eq.symm ?_) (hm c')
  show StableHlo.after hostOps1 Wa (Proc.devRef .tc main_v6) (ix2 0 c') = _
  after_results

/-- The second logit column as a row. -/
theorem host_l2row (j : Fin 8192) :
    Wb Wa (Proc.devRef .tc main_v14) (ix2 0 j) = Wa (Proc.devRef .tc main_v0_2) (ix2 j 0) := by
  show StableHlo.after hostOps1 Wa (Proc.devRef .tc main_v14) (ix2 0 j) = _
  after_results
  exact transpose_ix2_apply _ _ 0 j

/-- A left fold of pointwise overwrites reads v at an index once some step of the list writes v there and every
    step keeps a v that is there. -/
theorem foldl_reach {κ ι β : Type} (step : (ι → β) → κ → ι → β) (i' : ι) (v : β)
    (keep : ∀ r n, r i' = v → step r n i' = v) (n0 : κ) (hit : ∀ r, step r n0 i' = v) :
    ∀ (l : List κ) (x : ι → β), n0 ∈ l → l.foldl step x i' = v := by
  have hk : ∀ (l : List κ) (x : ι → β), x i' = v → l.foldl step x i' = v := by
    intro l
    induction l with
    | nil => intro x hx; exact hx
    | cons n l ih => intro x hx; exact ih _ (keep x n hx)
  intro l
  induction l with
  | nil => intro x h; exact absurd h List.not_mem_nil
  | cons n l ih =>
    intro x h
    rcases List.mem_cons.mp h with rfl | h
    · exact hk l _ (hit x)
    · exact ih _ h

/-- With the one scatter index 0 along axis 1, update j lands at row j, column 0. -/
theorem scatter_resultIdx (idx : IVec S1 32) (hidx : ∀ k, idx k = 0#32) (j : Fin 8192) :
    scatter_S8192x128_S1_S8192_0_1_1_0.resultIdx? (ix1 j) idx = some (ix2 j (0 : Fin 128)) := by
  have hst : ∀ a, scatter_S8192x128_S1_S8192_0_1_1_0.start (ix1 j) idx a = 0 := by
    intro a
    unfold ScatterDims.start
    split
    · rw [hidx]; rfl
    · rfl
  have hb : ∀ a, 0 ≤ scatter_S8192x128_S1_S8192_0_1_1_0.start (ix1 j) idx a + scatter_S8192x128_S1_S8192_0_1_1_0.window (ix1 j) a
      ∧ scatter_S8192x128_S1_S8192_0_1_1_0.start (ix1 j) idx a + scatter_S8192x128_S1_S8192_0_1_1_0.window (ix1 j) a < S8192x128.size a := by
    intro a
    rw [hst a]
    match a with
    | ⟨0, _⟩ =>
      refine ⟨?_, ?_⟩
      · show (0 : Int) ≤ 0 + ((j.val : Nat) : Int); omega
      · show (0 : Int) + ((j.val : Nat) : Int) < ((8192 : Nat) : Int); have := j.isLt; omega
    | ⟨1, _⟩ =>
      refine ⟨?_, ?_⟩
      · show (0 : Int) ≤ 0 + ((0 : Nat) : Int); omega
      · show (0 : Int) + ((0 : Nat) : Int) < ((128 : Nat) : Int); omega
  unfold ScatterDims.resultIdx?
  rw [dif_pos hb]
  congr 1
  funext a
  apply Fin.ext
  match a with
  | ⟨0, h0⟩ =>
    show (scatter_S8192x128_S1_S8192_0_1_1_0.start (ix1 j) idx ⟨0, h0⟩ + ((j.val : Nat) : Int)).toNat = j.val
    rw [hst]; omega
  | ⟨1, h1⟩ =>
    show (scatter_S8192x128_S1_S8192_0_1_1_0.start (ix1 j) idx ⟨1, h1⟩ + ((0 : Nat) : Int)).toNat = 0
    rw [hst]; rfl

/-- A constant update scattered to column 0 of every row leaves that constant at (j, 0). -/
theorem scatter_col0 (x : FVec Ideal S8192x128 .bf16) (idx : IVec S1 32) (upd : FVec Ideal S8192 .bf16) (v : EReal)
    (hidx : ∀ k, idx k = 0#32) (hupd : ∀ k, upd k = v) (j : Fin 8192) :
    Host.scatter scatter_S8192x128_S1_S8192_0_1_1_0 (fun _ b => b) x idx upd (ix2 j (0 : Fin 128)) = v := by
  unfold Host.scatter
  refine foldl_reach _ (ix2 j (0 : Fin 128)) v (fun r n hr => ?_) (S8192.rowMajor (ix1 j)) (fun r => ?_) _ _ (List.mem_finRange _)
  · dsimp only
    generalize scatter_S8192x128_S1_S8192_0_1_1_0.resultIdx? (S8192.rowMajor.symm n) idx = o
    cases o with
    | none => exact hr
    | some i =>
      dsimp only
      split_ifs
      · exact hupd _
      · exact hr
  · dsimp only
    rw [Equiv.symm_apply_apply, scatter_resultIdx idx hidx j]
    dsimp only
    rw [if_pos rfl]
    exact hupd _

/-- The widened value matrix: its first 256 columns are the first pallas_call's narrowed product, -/
theorem host_vaug_h (j : Fin 8192) (c' : Fin 256) :
    Wb Wa (Proc.devRef .tc main_v19) (ix2 j (⟨c'.val, by omega⟩ : Fin 384)) = Wa (Proc.devRef .tc main_v0_0) (ix2 j c') := by
  show StableHlo.after hostOps1 Wa (Proc.devRef .tc main_v19) (ix2 j (⟨c'.val, by omega⟩ : Fin 384)) = _
  after_results
  -- a column below 256 falls in the first piece, at the same coordinates
  refine concatenate_pair_apply_left 1 _ _ concatenates_S8192x256_S8192x128_S8192x384_d1
    (ix2 j (⟨c'.val, by omega⟩ : Fin 384)) rfl (ix2 j c') (fun b => ?_)
  match b with
  | ⟨0, _⟩ => rfl
  | ⟨1, _⟩ => rfl

/-- and column 256 is ones. -/
theorem host_vaug_one (j : Fin 8192) :
    Wb Wa (Proc.devRef .tc main_v19) (ix2 j (⟨256, by omega⟩ : Fin 384)) = GatSpec.oneB := by
  show StableHlo.after hostOps1 Wa (Proc.devRef .tc main_v19) (ix2 j (⟨256, by omega⟩ : Fin 384)) = _
  after_results
  -- column 256 is column 0 of the second piece, where the scatter left the update, the constant one
  refine (concatenate_pair_apply_right 1 _ _ concatenates_S8192x256_S8192x128_S8192x384_d1
    (ix2 j (⟨256, by omega⟩ : Fin 384)) rfl rfl (ix2 j (0 : Fin 128)) (fun b hb => ?_) rfl).trans ?_
  · match b with
    | ⟨0, _⟩ => rfl
    | ⟨1, _⟩ => exact absurd rfl hb
  · exact scatter_col0 _ _ _ GatSpec.oneB (fun _ => rfl) (fun _ => rfl) j

/-- A buffer the stretch does not write keeps its contents. -/
theorem host_keep (b : Ref sig .tc) (h : b ∉ hostOps1_W) : Wb Wa (Proc.devRef .tc b) = Wa (Proc.devRef .tc b) :=
  StableHlo.after_of_writes_sub hostOps1 _ hostOps1_writes h

end Cert.KernelIdeal.Val

end
-- ==== Proof.KiVal1Cases.lean ====
/-
  One grid point of the second pallas_call, read row by row at the extended reals. Whatever case the point is in, what
  the body leaves in the three scratch buffers at row r is the specification's one-row tile step applied to what they
  held before (minus infinity, zero, zero at a first key tile): the running maximum, the rescaled denominator plus the
  tile's row sum read off the ones column, the rescaled numerator plus the tile's weighted value rows. At a last key
  tile the output block's row r is the final step: the virtual key folded in, the quotient, elu.
-/
import proofs.«430248_j1580547967873_3_alg».proof.Proof.KiR1
import proofs.«430248_j1580547967873_3_alg».proof.Proof.KiValDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

namespace Cert.KernelIdeal.Val

open Cert.KernelIdeal Cert.KernelIdeal.Gen Cert.KernelIdeal.Fr
open Idealize.ShloMosaic Idealize.ShloMosaic.TcCoe Idealize.SL.Sem ValueIdx
open Idealize.ShloMosaic.Pipeline (Dat)

/-- The zero offsets, however they are spelt. -/
theorem hz2 : (![0, 0] : Fin 2 → Nat) = fun _ => 0 := funext fun a => by fin_cases a <;> rfl

/-! ## What each case leaves, as the body's named values

Every load and store of the body goes through the whole of its buffer, so each buffer ends at the value its last store
wrote, and each load reads either the block the point was given or the value an earlier store of the same point wrote.
At a first key tile the three scratch buffers are first set to minus infinity, zero and zero and the step reads those
back; elsewhere the step reads what the buffers held. At a last key tile the final step reads the scratch buffers after
the step's stores. With m0, l0, acc0 the three values the step reads: the new maximum is the old one against the tile's
row maximum, the new denominator the rescaled l0 plus the product's ones column, the new numerator the rescaled acc0
plus the product's value columns. -/

section Pieces
variable {F : FTy → Type} [FloatOps F]
variable (c : Dev nD) (t : Fin cfg1.N)

theorem resA_s0 (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) :
    (resA (F := F) c t h0 h1 x0 x1 x2 x3 x4 x5).2.1 = k1_pay3 (k1_pay9 x0 x1 x2 k1_pay5) := by
  unfold resA
  dsimp only
  rw [View.read_writes_eq_canon _ _ _ (scoverA_0 c t h0 h1 x0 x1 x2 x3 x4 x5)]
  unfold runA kernelRun1_A
  dsimp only
  sl_unfold_words
  rw [View.canon_cons_unit_zero (S := S2048x1) hz2]
  simp only [View.readAt_eq_ld, (hs1_0 t).read_unread, (hs1_1 t).read_unread, (hs1_2 t).read_unread, (hs1_3 t).read_unread, (hs1_4 t).read_unread, (hs1_5 t).read_unread, (Memref.isWhole_whole cc1_scratch0).read_unread, (Memref.isWhole_whole cc1_scratch1).read_unread, (Memref.isWhole_whole cc1_scratch2).read_unread, View.ld_unit_zero (S := S2048x1) hz2, View.ld_unit_zero (S := S1x256) hz2, View.ld_unit_zero (S := S2048x256) hz2, View.ld_unit_zero (S := S256x384) hz2, View.readCov_unit_zero (S := S2048x1) _ hz2, View.readCov_unit_zero (S := S2048x256) _ hz2]

theorem resA_s1 (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) :
    (resA (F := F) c t h0 h1 x0 x1 x2 x3 x4 x5).2.2.1 = k1_pay1 (k1_pay13 x0 x1 x2 k1_pay5 x3 k1_pay6) := by
  unfold resA
  dsimp only
  rw [View.read_writes_eq_canon _ _ _ (scoverA_1 c t h0 h1 x0 x1 x2 x3 x4 x5)]
  unfold runA kernelRun1_A
  dsimp only
  sl_unfold_words
  rw [View.canon_cons_unit_zero (S := S2048x1) hz2]
  simp only [View.readAt_eq_ld, (hs1_0 t).read_unread, (hs1_1 t).read_unread, (hs1_2 t).read_unread, (hs1_3 t).read_unread, (hs1_4 t).read_unread, (hs1_5 t).read_unread, (Memref.isWhole_whole cc1_scratch0).read_unread, (Memref.isWhole_whole cc1_scratch1).read_unread, (Memref.isWhole_whole cc1_scratch2).read_unread, View.ld_unit_zero (S := S2048x1) hz2, View.ld_unit_zero (S := S1x256) hz2, View.ld_unit_zero (S := S2048x256) hz2, View.ld_unit_zero (S := S256x384) hz2, View.readCov_unit_zero (S := S2048x1) _ hz2, View.readCov_unit_zero (S := S2048x256) _ hz2]

theorem resA_s2 (h0 : cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) :
    (resA (F := F) c t h0 h1 x0 x1 x2 x3 x4 x5).2.2.2 = k1_pay2 (k1_pay10 x0 x1 x2 k1_pay5) (k1_pay12 x0 x1 x2 k1_pay5 x3) k1_pay7 := by
  unfold resA
  dsimp only
  rw [View.read_writes_eq_canon _ _ _ (scoverA_2 c t h0 h1 x0 x1 x2 x3 x4 x5)]
  unfold runA kernelRun1_A
  dsimp only
  sl_unfold_words
  rw [View.canon_cons_unit_zero (S := S2048x256) hz2]
  simp only [View.readAt_eq_ld, (hs1_0 t).read_unread, (hs1_1 t).read_unread, (hs1_2 t).read_unread, (hs1_3 t).read_unread, (hs1_4 t).read_unread, (hs1_5 t).read_unread, (Memref.isWhole_whole cc1_scratch0).read_unread, (Memref.isWhole_whole cc1_scratch1).read_unread, (Memref.isWhole_whole cc1_scratch2).read_unread, View.ld_unit_zero (S := S2048x1) hz2, View.ld_unit_zero (S := S1x256) hz2, View.ld_unit_zero (S := S2048x256) hz2, View.ld_unit_zero (S := S256x384) hz2, View.readCov_unit_zero (S := S2048x1) _ hz2, View.readCov_unit_zero (S := S2048x256) _ hz2]

theorem resB_s0 (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    (resB (F := F) c t h0 h1 x0 x1 x2 x3 x4 x5 xs0 xs1 xs2).2.1 = k1_pay3 (k1_pay9 x0 x1 x2 xs0) := by
  unfold resB
  dsimp only
  rw [View.read_writes_eq_canon _ _ _ (scoverB_0 c t h0 h1 x0 x1 x2 x3 x4 x5 xs0 xs1 xs2)]
  unfold runB kernelRun1_B
  dsimp only
  sl_unfold_words
  rw [View.canon_unit_zero hz2]
  simp only [View.readAt_eq_ld, (hs1_0 t).read_unread, (hs1_1 t).read_unread, (hs1_2 t).read_unread, (hs1_3 t).read_unread, (hs1_4 t).read_unread, (hs1_5 t).read_unread, (Memref.isWhole_whole cc1_scratch0).read_unread, (Memref.isWhole_whole cc1_scratch1).read_unread, (Memref.isWhole_whole cc1_scratch2).read_unread, View.ld_unit_zero (S := S2048x1) hz2, View.ld_unit_zero (S := S1x256) hz2, View.ld_unit_zero (S := S2048x256) hz2, View.ld_unit_zero (S := S256x384) hz2, View.readCov_unit_zero (S := S2048x1) _ hz2, View.readCov_unit_zero (S := S2048x256) _ hz2]

theorem resB_s1 (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    (resB (F := F) c t h0 h1 x0 x1 x2 x3 x4 x5 xs0 xs1 xs2).2.2.1 = k1_pay1 (k1_pay13 x0 x1 x2 xs0 x3 xs1) := by
  unfold resB
  dsimp only
  rw [View.read_writes_eq_canon _ _ _ (scoverB_1 c t h0 h1 x0 x1 x2 x3 x4 x5 xs0 xs1 xs2)]
  unfold runB kernelRun1_B
  dsimp only
  sl_unfold_words
  rw [View.canon_unit_zero hz2]
  simp only [View.readAt_eq_ld, (hs1_0 t).read_unread, (hs1_1 t).read_unread, (hs1_2 t).read_unread, (hs1_3 t).read_unread, (hs1_4 t).read_unread, (hs1_5 t).read_unread, (Memref.isWhole_whole cc1_scratch0).read_unread, (Memref.isWhole_whole cc1_scratch1).read_unread, (Memref.isWhole_whole cc1_scratch2).read_unread, View.ld_unit_zero (S := S2048x1) hz2, View.ld_unit_zero (S := S1x256) hz2, View.ld_unit_zero (S := S2048x256) hz2, View.ld_unit_zero (S := S256x384) hz2, View.readCov_unit_zero (S := S2048x1) _ hz2, View.readCov_unit_zero (S := S2048x256) _ hz2]

theorem resB_s2 (h0 : ¬cond1_0 (grid1.coords t)) (h1 : ¬cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    (resB (F := F) c t h0 h1 x0 x1 x2 x3 x4 x5 xs0 xs1 xs2).2.2.2 = k1_pay2 (k1_pay10 x0 x1 x2 xs0) (k1_pay12 x0 x1 x2 xs0 x3) xs2 := by
  unfold resB
  dsimp only
  rw [View.read_writes_eq_canon _ _ _ (scoverB_2 c t h0 h1 x0 x1 x2 x3 x4 x5 xs0 xs1 xs2)]
  unfold runB kernelRun1_B
  dsimp only
  sl_unfold_words
  rw [View.canon_unit_zero hz2]
  simp only [View.readAt_eq_ld, (hs1_0 t).read_unread, (hs1_1 t).read_unread, (hs1_2 t).read_unread, (hs1_3 t).read_unread, (hs1_4 t).read_unread, (hs1_5 t).read_unread, (Memref.isWhole_whole cc1_scratch0).read_unread, (Memref.isWhole_whole cc1_scratch1).read_unread, (Memref.isWhole_whole cc1_scratch2).read_unread, View.ld_unit_zero (S := S2048x1) hz2, View.ld_unit_zero (S := S1x256) hz2, View.ld_unit_zero (S := S2048x256) hz2, View.ld_unit_zero (S := S256x384) hz2, View.readCov_unit_zero (S := S2048x1) _ hz2, View.readCov_unit_zero (S := S2048x256) _ hz2]

theorem resC_s0 (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    (resC (F := F) c t h0 h1 x0 x1 x2 x3 x4 x5 xs0 xs1 xs2).2.1 = k1_pay3 (k1_pay9 x0 x1 x2 xs0) := by
  unfold resC
  dsimp only
  rw [View.read_writes_eq_canon _ _ _ (scoverC_0 c t h0 h1 x0 x1 x2 x3 x4 x5 xs0 xs1 xs2)]
  unfold runC kernelRun1_C
  dsimp only
  sl_unfold_words
  rw [View.canon_unit_zero hz2]
  simp only [View.readAt_eq_ld, (hs1_0 t).read_unread, (hs1_1 t).read_unread, (hs1_2 t).read_unread, (hs1_3 t).read_unread, (hs1_4 t).read_unread, (hs1_5 t).read_unread, (Memref.isWhole_whole cc1_scratch0).read_unread, (Memref.isWhole_whole cc1_scratch1).read_unread, (Memref.isWhole_whole cc1_scratch2).read_unread, View.ld_unit_zero (S := S2048x1) hz2, View.ld_unit_zero (S := S1x256) hz2, View.ld_unit_zero (S := S2048x256) hz2, View.ld_unit_zero (S := S256x384) hz2, View.readCov_unit_zero (S := S2048x1) _ hz2, View.readCov_unit_zero (S := S2048x256) _ hz2]

theorem resC_s1 (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    (resC (F := F) c t h0 h1 x0 x1 x2 x3 x4 x5 xs0 xs1 xs2).2.2.1 = k1_pay1 (k1_pay13 x0 x1 x2 xs0 x3 xs1) := by
  unfold resC
  dsimp only
  rw [View.read_writes_eq_canon _ _ _ (scoverC_1 c t h0 h1 x0 x1 x2 x3 x4 x5 xs0 xs1 xs2)]
  unfold runC kernelRun1_C
  dsimp only
  sl_unfold_words
  rw [View.canon_unit_zero hz2]
  simp only [View.readAt_eq_ld, (hs1_0 t).read_unread, (hs1_1 t).read_unread, (hs1_2 t).read_unread, (hs1_3 t).read_unread, (hs1_4 t).read_unread, (hs1_5 t).read_unread, (Memref.isWhole_whole cc1_scratch0).read_unread, (Memref.isWhole_whole cc1_scratch1).read_unread, (Memref.isWhole_whole cc1_scratch2).read_unread, View.ld_unit_zero (S := S2048x1) hz2, View.ld_unit_zero (S := S1x256) hz2, View.ld_unit_zero (S := S2048x256) hz2, View.ld_unit_zero (S := S256x384) hz2, View.readCov_unit_zero (S := S2048x1) _ hz2, View.readCov_unit_zero (S := S2048x256) _ hz2]

theorem resC_s2 (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    (resC (F := F) c t h0 h1 x0 x1 x2 x3 x4 x5 xs0 xs1 xs2).2.2.2 = k1_pay2 (k1_pay10 x0 x1 x2 xs0) (k1_pay12 x0 x1 x2 xs0 x3) xs2 := by
  unfold resC
  dsimp only
  rw [View.read_writes_eq_canon _ _ _ (scoverC_2 c t h0 h1 x0 x1 x2 x3 x4 x5 xs0 xs1 xs2)]
  unfold runC kernelRun1_C
  dsimp only
  sl_unfold_words
  rw [View.canon_unit_zero hz2]
  simp only [View.readAt_eq_ld, (hs1_0 t).read_unread, (hs1_1 t).read_unread, (hs1_2 t).read_unread, (hs1_3 t).read_unread, (hs1_4 t).read_unread, (hs1_5 t).read_unread, (Memref.isWhole_whole cc1_scratch0).read_unread, (Memref.isWhole_whole cc1_scratch1).read_unread, (Memref.isWhole_whole cc1_scratch2).read_unread, View.ld_unit_zero (S := S2048x1) hz2, View.ld_unit_zero (S := S1x256) hz2, View.ld_unit_zero (S := S2048x256) hz2, View.ld_unit_zero (S := S256x384) hz2, View.readCov_unit_zero (S := S2048x1) _ hz2, View.readCov_unit_zero (S := S2048x256) _ hz2]

theorem resC_o (h0 : ¬cond1_0 (grid1.coords t)) (h1 : cond1_1 (grid1.coords t)) (x0 : Vec F S2048x1 .f32) (x1 : Vec F S1x256 .f32) (x2 : Vec F S2048x256 .i32) (x3 : Vec F S256x384 .bf16) (x4 : Vec F S2048x1 .f32) (x5 : Vec F S1x256 .f32) (xs0 : Vec F S2048x1 .f32) (xs1 : Vec F S2048x1 .f32) (xs2 : Vec F S2048x256 .f32) :
    (resC (F := F) c t h0 h1 x0 x1 x2 x3 x4 x5 xs0 xs1 xs2).1 = k1_pay4 x4 (k1_pay3 (k1_pay9 x0 x1 x2 xs0)) (k1_pay3 (k1_pay9 x0 x1 x2 xs0)) (k1_pay1 (k1_pay13 x0 x1 x2 xs0 x3 xs1)) (k1_pay2 (k1_pay10 x0 x1 x2 xs0) (k1_pay12 x0 x1 x2 xs0 x3) xs2) x5 := by
  unfold resC
  dsimp only
  rw [View.read_writes_eq_canon _ _ _ (coverC_6 c t h0 h1 x0 x1 x2 x3 x4 x5 xs0 xs1 xs2)]
  unfold runC kernelRun1_C
  dsimp only
  sl_unfold_words
  rw [View.canon_unit_zero hz2]
  simp only [View.readAt_eq_ld, (hs1_0 t).read_unread, (hs1_1 t).read_unread, (hs1_2 t).read_unread, (hs1_3 t).read_unread, (hs1_4 t).read_unread, (hs1_5 t).read_unread, (Memref.isWhole_whole cc1_scratch0).read_unread, (Memref.isWhole_whole cc1_scratch1).read_unread, (Memref.isWhole_whole cc1_scratch2).read_unread, View.ld_unit_zero (S := S2048x1) hz2, View.ld_unit_zero (S := S1x256) hz2, View.ld_unit_zero (S := S2048x256) hz2, View.ld_unit_zero (S := S256x384) hz2, View.readCov_unit_zero (S := S2048x1) _ hz2, View.readCov_unit_zero (S := S2048x256) _ hz2]

end Pieces

/-! ## The layout operations of the body at a row -/

section Layout
variable {α : Type}

/-- A column vector broadcast along the columns reads its row's entry. -/
theorem bcast_col (v : S2048x1.Idx → α) (h : S2048x1.Broadcasts S2048x256) (r : Fin 2048) (j : Fin 256) :
    broadcastTo S2048x256 v h (ix2 r j) = v (ix2 r 0) :=
  broadcastTo_apply v h (ix2 r j) (ix2 r 0) fun a => by
    match a with
    | ⟨0, _⟩ => rfl
    | ⟨1, _⟩ => rfl

/-- A row vector broadcast along the rows reads its column's entry. -/
theorem bcast_row (v : S1x256.Idx → α) (h : S1x256.Broadcasts S2048x256) (r : Fin 2048) (j : Fin 256) :
    broadcastTo S2048x256 v h (ix2 r j) = v (ix2 0 j) :=
  broadcastTo_apply v h (ix2 r j) (ix2 0 j) fun a => by
    match a with
    | ⟨0, _⟩ => rfl
    | ⟨1, _⟩ => rfl

/-- A vector of 2048 entries viewed as a column reads entry r at (r, 0). -/
theorem cast_col (v : S2048.Idx → α) (h : S2048.ShapeCasts S2048x1) (r : Fin 2048) :
    shapeCast S2048x1 v h (ix2 r 0) = v (ix1 r) :=
  shapeCast_apply v h (ix2 r 0) (ix1 r) (by
    rw [Shape.rowMajor_val_one, Shape.rowMajor_val_two]
    show r.val = r.val * 1 + 0
    omega)

/-- The index a row reduction reads at column k of row r. -/
theorem lift_row (h : S2048x256.Reduces [1] S2048) (r : Fin 2048) (k : Fin 256) : h.lift (ix1 r) k = ix2 r k := by
  funext a
  match a with
  | ⟨0, _⟩ => exact Fin.ext rfl
  | ⟨1, _⟩ => exact Fin.ext rfl

end Layout

/-! ## The payloads at a row, over the extended reals -/

section Payloads
variable (v3 : Vec Ideal S2048x1 .f32) (v5 : Vec Ideal S1x256 .f32) (v13 : Vec Ideal S2048x256 .i32)
  (v20 : Vec Ideal S2048x1 .f32) (v28 : Vec Ideal S256x384 .bf16) (v33 : Vec Ideal S2048x1 .f32)

/-- The masked score of row r against key j. -/
theorem pay8_apply (r : Fin 2048) (j : Fin 256) :
    k1_pay8 (F := Ideal) v3 v5 v13 (ix2 r j)
      = Scalar.select (IntOp.cmpi .sgt (v13 (ix2 r j)) 0#32) (GatSpec.lreluK (v3 (ix2 r 0) + v5 (ix2 0 j))) GatSpec.negBig := by
  unfold k1_pay8
  simp only [shapeCast_self]
  show Scalar.select _ (max (broadcastTo S2048x256 v3 _ (ix2 r j) + broadcastTo S2048x256 v5 _ (ix2 r j)) (_ * (broadcastTo S2048x256 v3 _ (ix2 r j) + broadcastTo S2048x256 v5 _ (ix2 r j)))) _ = _
  rw [bcast_col, bcast_row]
  rfl

/-- The new running maximum of row r: the old one against the tile's largest score. -/
theorem pay9_apply (r : Fin 2048) :
    k1_pay9 (F := Ideal) v3 v5 v13 v20 (ix2 r 0)
      = max (v20 (ix2 r 0)) ((Finset.univ : Finset (Fin 256)).fold max GatSpec.negInf (fun j => k1_pay8 (F := Ideal) v3 v5 v13 (ix2 r j))) := by
  unfold k1_pay9
  show max (v20 (ix2 r 0)) (shapeCast S2048x1 _ _ (ix2 r 0)) = _
  refine congrArg (max (v20 (ix2 r 0))) ?_
  refine (cast_col _ _ r).trans ?_
  refine (Ideal.multiReduction_maximumf_single _ _ _ _ _ (ix1 r)).trans ?_
  refine congrArg (fun g : Fin 256 → EReal => (Finset.univ : Finset (Fin 256)).fold max GatSpec.negInf g) ?_
  funext k
  exact congrArg (k1_pay8 (F := Ideal) v3 v5 v13) (lift_row _ r k)

end Payloads

/-! ## The product with the value rows at a row -/

section Product

local notation "D" => dot_S2048x256_S256x384_S2048x384_1_0_0_1_n_n

theorem lhs_ax0 (i : S2048x384.Idx) (q : (D).contr.Idx) : ((D).lhsIdx i q 0).val = (i 0).val := by
  unfold DotDims.lhsIdx
  rw [dif_neg (show ¬(0 : Fin S2048x256.rank) ∈ (D).lhsBatch by decide), dif_pos (show (0 : Fin S2048x256.rank) ∈ (D).lhsNonContracting by decide)]
  rfl
theorem lhs_ax1 (i : S2048x384.Idx) (q : (D).contr.Idx) : ((D).lhsIdx i q 1).val = (q ⟨0, by decide⟩).val :=
  (D).lhsIdx_val_of_single rfl i q
theorem rhs_ax0 (i : S2048x384.Idx) (q : (D).contr.Idx) : ((D).rhsIdx i q 0).val = (q ⟨0, by decide⟩).val :=
  (D).rhsIdx_val_of_single rfl i q
theorem rhs_ax1 (i : S2048x384.Idx) (q : (D).contr.Idx) : ((D).rhsIdx i q 1).val = (i 1).val := by
  unfold DotDims.rhsIdx
  rw [dif_neg (show ¬(1 : Fin S256x384.rank) ∈ (D).rhsBatch by decide), dif_pos (show (1 : Fin S256x384.rank) ∈ (D).rhsNonContracting by decide)]
  rfl

/-- The product into a zero accumulator at (r, c) is the sum over the 256 keys of the row's weight times the key's value. -/
theorem matmul_row (p : FVec Ideal S2048x256 .bf16) (w : FVec Ideal S256x384 .bf16) (r : Fin 2048) (cc : Fin 384) :
    matmul (D) none p w (constant S2048x384 .f32 0x00000000#32) (ix2 r cc) = ∑ j : Fin 256, p (ix2 r j) * w (ix2 j cc) := by
  simp only [matmul]
  rw [Ideal.matmul_constant_zero_apply, ← Equiv.sum_comp (contrEquiv1 (D) 256 rfl rfl).symm]
  refine Finset.sum_congr rfl fun k _ => ?_
  have hk := contrEquiv1_symm_val (D) 256 rfl rfl k
  have el : (D).lhsIdx (ix2 r cc) ((contrEquiv1 (D) 256 rfl rfl).symm k) = ix2 r k := funext fun a => Fin.ext (by
    match a with
    | ⟨0, _⟩ => exact lhs_ax0 _ _
    | ⟨1, _⟩ => exact (lhs_ax1 _ _).trans hk)
  have er : (D).rhsIdx (ix2 r cc) ((contrEquiv1 (D) 256 rfl rfl).symm k) = ix2 k cc := funext fun a => Fin.ext (by
    match a with
    | ⟨0, _⟩ => exact (rhs_ax0 _ _).trans hk
    | ⟨1, _⟩ => exact rhs_ax1 _ _)
  rw [el, er]

end Product

section Payloads2
variable (v3 : Vec Ideal S2048x1 .f32) (v5 : Vec Ideal S1x256 .f32) (v13 : Vec Ideal S2048x256 .i32)
  (v20 : Vec Ideal S2048x1 .f32) (v28 : Vec Ideal S256x384 .bf16) (v33 : Vec Ideal S2048x1 .f32)

/-- The rescaling factor of row r: the exponential of the old maximum minus the new one. -/
theorem pay10_apply (r : Fin 2048) :
    k1_pay10 (F := Ideal) v3 v5 v13 v20 (ix2 r 0)
      = Ideal.exp (v20 (ix2 r 0) - k1_pay9 (F := Ideal) v3 v5 v13 v20 (ix2 r 0)) := rfl

/-- The tile's weights of row r times the value rows (and the ones column), at column c. -/
theorem pay11_apply (r : Fin 2048) (cc : Fin 384) :
    k1_pay11 (F := Ideal) v3 v5 v13 v20 v28 (ix2 r cc)
      = ∑ j : Fin 256, Ideal.exp (k1_pay8 (F := Ideal) v3 v5 v13 (ix2 r j) - k1_pay9 (F := Ideal) v3 v5 v13 v20 (ix2 r 0)) * v28 (ix2 j cc) := by
  unfold k1_pay11
  refine (matmul_row _ _ r cc).trans ?_
  refine Finset.sum_congr rfl fun j _ => ?_
  show Ideal.exp (k1_pay8 (F := Ideal) v3 v5 v13 (ix2 r j) - broadcastTo S2048x256 (k1_pay9 (F := Ideal) v3 v5 v13 v20) _ (ix2 r j)) * shapeCast S256x384 v28 _ (ix2 j cc) = _
  rw [bcast_col, shapeCast_self]

/-- The weighted value rows: the product's first 256 columns. -/
theorem pay12_apply (r : Fin 2048) (c' : Fin 256) :
    k1_pay12 (F := Ideal) v3 v5 v13 v20 v28 (ix2 r c')
      = k1_pay11 (F := Ideal) v3 v5 v13 v20 v28 (ix2 r (⟨c'.val, by omega⟩ : Fin 384)) := by
  unfold k1_pay12
  refine extractStridedSlice_apply _ _ _ (ix2 r c') (ix2 r (⟨c'.val, by omega⟩ : Fin 384)) fun a => ?_
  match a with
  | ⟨0, _⟩ => show r.val = 0 + r.val; omega
  | ⟨1, _⟩ => show c'.val = 0 + c'.val; omega

/-- The new denominator of row r: the rescaled old one plus the product's column 256. -/
theorem pay13_apply (r : Fin 2048) :
    k1_pay13 (F := Ideal) v3 v5 v13 v20 v28 v33 (ix2 r 0)
      = k1_pay10 (F := Ideal) v3 v5 v13 v20 (ix2 r 0) * v33 (ix2 r 0)
        + k1_pay11 (F := Ideal) v3 v5 v13 v20 v28 (ix2 r (⟨256, by omega⟩ : Fin 384)) := by
  unfold k1_pay13
  show k1_pay10 (F := Ideal) v3 v5 v13 v20 (ix2 r 0) * v33 (ix2 r 0) + extractStridedSlice S2048x1 ![0, 256] (k1_pay11 (F := Ideal) v3 v5 v13 v20 v28) _ (ix2 r 0) = _
  refine congrArg (k1_pay10 (F := Ideal) v3 v5 v13 v20 (ix2 r 0) * v33 (ix2 r 0) + ·) ?_
  refine extractStridedSlice_apply _ _ _ (ix2 r 0) (ix2 r (⟨256, by omega⟩ : Fin 384)) fun a => ?_
  match a with
  | ⟨0, _⟩ => show r.val = 0 + r.val; omega
  | ⟨1, _⟩ => show 256 = 256 + 0; omega

/-- The new numerator of row r at column c: the rescaled old one plus the weighted value rows. -/
theorem pay2_apply (v23 : FVec Ideal S2048x1 .f32) (v31 : FVec Ideal S2048x256 .f32) (v39 : Vec Ideal S2048x256 .f32) (r : Fin 2048) (c' : Fin 256) :
    k1_pay2 (F := Ideal) v23 v31 v39 (ix2 r c') = v23 (ix2 r 0) * v39 (ix2 r c') + v31 (ix2 r c') := by
  unfold k1_pay2
  simp only [shapeCast_self]
  show broadcastTo S2048x256 v23 _ (ix2 r c') * v39 (ix2 r c') + v31 (ix2 r c') = _
  rw [bcast_col]

theorem pay1_eq (v35 : FVec Ideal S2048x1 .f32) : k1_pay1 (F := Ideal) v35 = v35 := by
  unfold k1_pay1; exact shapeCast_self _ _
theorem pay3_eq (v21 : FVec Ideal S2048x1 .f32) : k1_pay3 (F := Ideal) v21 = v21 := by
  unfold k1_pay3; exact shapeCast_self _ _

/-- What the reset stores: minus infinity, zero, zero. -/
theorem pay5_apply (i : S2048x1.Idx) : k1_pay5 (F := Ideal) i = GatSpec.negInf := by
  unfold k1_pay5; rw [shapeCast_self]; rfl
theorem pay6_apply (i : S2048x1.Idx) : k1_pay6 (F := Ideal) i = 0 := by
  unfold k1_pay6; rw [shapeCast_self]; exact Ideal.ofBits_zero_f32
theorem pay7_apply (i : S2048x256.Idx) : k1_pay7 (F := Ideal) i = 0 := by
  unfold k1_pay7; rw [shapeCast_self]; exact Ideal.ofBits_zero_f32

/-- The finalisation at (r, c): the virtual key folded into the row's state, the quotient, elu. -/
theorem pay4_apply (v52 v54 v56 v61 : Vec Ideal S2048x1 .f32) (v64 : Vec Ideal S2048x256 .f32) (v67 : Vec Ideal S1x256 .f32)
    (r : Fin 2048) (c' : Fin 256) :
    k1_pay4 (F := Ideal) v52 v54 v56 v61 v64 v67 (ix2 r c')
      = (let mf : EReal := max (v54 (ix2 r 0)) (v52 (ix2 r 0))
         let a : EReal := Ideal.exp (v56 (ix2 r 0) - mf)
         let pg : EReal := Ideal.exp (v52 (ix2 r 0) - mf)
         let lf : EReal := a * v61 (ix2 r 0) + pg
         let af : EReal := a * v64 (ix2 r c') + pg * v67 (ix2 0 c')
         let o : EReal := Ideal.div af lf
         Scalar.select (Ideal.cmp .ogt o 0) o (Ideal.exp o - GatSpec.oneF)) := by
  unfold k1_pay4
  simp only [shapeCast_self]
  show Scalar.select (Ideal.cmp .ogt (Ideal.div (broadcastTo S2048x256 _ _ (ix2 r c') * v64 (ix2 r c') + broadcastTo S2048x256 _ _ (ix2 r c') * broadcastTo S2048x256 v67 _ (ix2 r c')) (broadcastTo S2048x256 _ _ (ix2 r c'))) (Ideal.ofBits .f32 0x00000000#32)) _ _ = _
  rw [Ideal.ofBits_zero_f32]
  show Scalar.select (Ideal.cmp .ogt (Ideal.div (broadcastTo S2048x256 _ _ (ix2 r c') * v64 (ix2 r c') + broadcastTo S2048x256 _ _ (ix2 r c') * broadcastTo S2048x256 v67 _ (ix2 r c')) (broadcastTo S2048x256 _ _ (ix2 r c'))) 0)
    (Ideal.div (broadcastTo S2048x256 _ _ (ix2 r c') * v64 (ix2 r c') + broadcastTo S2048x256 _ _ (ix2 r c') * broadcastTo S2048x256 v67 _ (ix2 r c')) (broadcastTo S2048x256 _ _ (ix2 r c')))
    (Ideal.exp (Ideal.div (broadcastTo S2048x256 _ _ (ix2 r c') * v64 (ix2 r c') + broadcastTo S2048x256 _ _ (ix2 r c') * broadcastTo S2048x256 v67 _ (ix2 r c')) (broadcastTo S2048x256 _ _ (ix2 r c'))) - GatSpec.oneF) = _
  simp only [bcast_col, bcast_row]
  rfl

end Payloads2

/-! ## One grid point at a row -/

/-- The body's three stores at row r are the one-row tile step of the row's data and the state the loads found. -/
theorem kstep_row (v3 : Vec Ideal S2048x1 .f32) (v5 : Vec Ideal S1x256 .f32) (v13 : Vec Ideal S2048x256 .i32) (v28 : Vec Ideal S256x384 .bf16)
    (m0 l0 : Vec Ideal S2048x1 .f32) (acc0 : Vec Ideal S2048x256 .f32)
    (hone : ∀ j : Fin 256, v28 (ix2 j (⟨256, by omega⟩ : Fin 384)) = GatSpec.oneB) (r : Fin 2048) :
    (k1_pay3 (F := Ideal) (k1_pay9 v3 v5 v13 m0) (ix2 r 0), k1_pay1 (F := Ideal) (k1_pay13 v3 v5 v13 m0 v28 l0) (ix2 r 0),
      fun c' : Fin 256 => k1_pay2 (F := Ideal) (k1_pay10 v3 v5 v13 m0) (k1_pay12 v3 v5 v13 m0 v28) acc0 (ix2 r c'))
      = gstep (v3 (ix2 r 0)) (fun j => v5 (ix2 0 j)) (fun j => IntOp.cmpi .sgt (v13 (ix2 r j)) 0#32)
          (fun j c' => v28 (ix2 j (⟨c'.val, by omega⟩ : Fin 384))) (m0 (ix2 r 0), l0 (ix2 r 0), fun c' : Fin 256 => acc0 (ix2 r c')) := by
  rw [pay3_eq, pay1_eq, pay13_apply]
  simp only [pay2_apply, pay12_apply, pay11_apply, pay10_apply, pay9_apply, pay8_apply, hone]
  rfl

variable (c : Dev nD) (t : Fin cfg1.N)

/-- A first key tile: the step from the empty state. -/
theorem resA_row (h0 : cond1_0 (grid1.coords t)) (h1 : ¬cond1_1 (grid1.coords t)) (x0 : Vec Ideal S2048x1 .f32) (x1 : Vec Ideal S1x256 .f32) (x2 : Vec Ideal S2048x256 .i32) (x3 : Vec Ideal S256x384 .bf16) (x4 : Vec Ideal S2048x1 .f32) (x5 : Vec Ideal S1x256 .f32)
    (hone : ∀ j : Fin 256, x3 (ix2 j (⟨256, by omega⟩ : Fin 384)) = GatSpec.oneB) (r : Fin 2048) :
    ((resA (F := Ideal) c t h0 h1 x0 x1 x2 x3 x4 x5).2.1 (ix2 r 0), (resA (F := Ideal) c t h0 h1 x0 x1 x2 x3 x4 x5).2.2.1 (ix2 r 0), fun c' : Fin 256 => (resA (F := Ideal) c t h0 h1 x0 x1 x2 x3 x4 x5).2.2.2 (ix2 r c'))
      = gstep (x0 (ix2 r 0)) (fun j => x1 (ix2 0 j)) (fun j => IntOp.cmpi .sgt (x2 (ix2 r j)) 0#32) (fun j c' => x3 (ix2 j (⟨c'.val, by omega⟩ : Fin 384))) (GatSpec.negInf, 0, fun _ => 0) := by
  rw [resA_s0, resA_s1, resA_s2]
  refine (kstep_row x0 x1 x2 x3 (k1_pay5 (F := Ideal)) (k1_pay6 (F := Ideal)) (k1_pay7 (F := Ideal)) hone r).trans ?_
  simp only [pay5_apply, pay6_apply, pay7_apply]

/-- A middle key tile: the step from what the scratch buffers held. -/
theorem resB_row (h0 : ¬cond1_0 (grid1.coords t)) (h1 : ¬cond1_1 (grid1.coords t)) (x0 : Vec Ideal S2048x1 .f32) (x1 : Vec Ideal S1x256 .f32) (x2 : Vec Ideal S2048x256 .i32) (x3 : Vec Ideal S256x384 .bf16) (x4 : Vec Ideal S2048x1 .f32) (x5 : Vec Ideal S1x256 .f32) (xs0 : Vec Ideal S2048x1 .f32) (xs1 : Vec Ideal S2048x1 .f32) (xs2 : Vec Ideal S2048x256 .f32)
    (hone : ∀ j : Fin 256, x3 (ix2 j (⟨256, by omega⟩ : Fin 384)) = GatSpec.oneB) (r : Fin 2048) :
    ((resB (F := Ideal) c t h0 h1 x0 x1 x2 x3 x4 x5 xs0 xs1 xs2).2.1 (ix2 r 0), (resB (F := Ideal) c t h0 h1 x0 x1 x2 x3 x4 x5 xs0 xs1 xs2).2.2.1 (ix2 r 0), fun c' : Fin 256 => (resB (F := Ideal) c t h0 h1 x0 x1 x2 x3 x4 x5 xs0 xs1 xs2).2.2.2 (ix2 r c'))
      = gstep (x0 (ix2 r 0)) (fun j => x1 (ix2 0 j)) (fun j => IntOp.cmpi .sgt (x2 (ix2 r j)) 0#32) (fun j c' => x3 (ix2 j (⟨c'.val, by omega⟩ : Fin 384))) (xs0 (ix2 r 0), xs1 (ix2 r 0), fun c' : Fin 256 => xs2 (ix2 r c')) := by
  rw [resB_s0, resB_s1, resB_s2]
  exact kstep_row x0 x1 x2 x3 xs0 xs1 xs2 hone r

/-- A last key tile: the same step in the scratch buffers, -/
theorem resC_row (h0 : ¬cond1_0 (grid1.coords t)) (h1 : cond1_1 (grid1.coords t)) (x0 : Vec Ideal S2048x1 .f32) (x1 : Vec Ideal S1x256 .f32) (x2 : Vec Ideal S2048x256 .i32) (x3 : Vec Ideal S256x384 .bf16) (x4 : Vec Ideal S2048x1 .f32) (x5 : Vec Ideal S1x256 .f32) (xs0 : Vec Ideal S2048x1 .f32) (xs1 : Vec Ideal S2048x1 .f32) (xs2 : Vec Ideal S2048x256 .f32)
    (hone : ∀ j : Fin 256, x3 (ix2 j (⟨256, by omega⟩ : Fin 384)) = GatSpec.oneB) (r : Fin 2048) :
    ((resC (F := Ideal) c t h0 h1 x0 x1 x2 x3 x4 x5 xs0 xs1 xs2).2.1 (ix2 r 0), (resC (F := Ideal) c t h0 h1 x0 x1 x2 x3 x4 x5 xs0 xs1 xs2).2.2.1 (ix2 r 0), fun c' : Fin 256 => (resC (F := Ideal) c t h0 h1 x0 x1 x2 x3 x4 x5 xs0 xs1 xs2).2.2.2 (ix2 r c'))
      = gstep (x0 (ix2 r 0)) (fun j => x1 (ix2 0 j)) (fun j => IntOp.cmpi .sgt (x2 (ix2 r j)) 0#32) (fun j c' => x3 (ix2 j (⟨c'.val, by omega⟩ : Fin 384))) (xs0 (ix2 r 0), xs1 (ix2 r 0), fun c' : Fin 256 => xs2 (ix2 r c')) := by
  rw [resC_s0, resC_s1, resC_s2]
  exact kstep_row x0 x1 x2 x3 xs0 xs1 xs2 hone r

/-- and the output block: the final step at the row's new state, the virtual key's score and the mean row. -/
theorem resC_out (h0 : ¬cond1_0 (grid1.coords t)) (h1 : cond1_1 (grid1.coords t)) (x0 : Vec Ideal S2048x1 .f32) (x1 : Vec Ideal S1x256 .f32) (x2 : Vec Ideal S2048x256 .i32) (x3 : Vec Ideal S256x384 .bf16) (x4 : Vec Ideal S2048x1 .f32) (x5 : Vec Ideal S1x256 .f32) (xs0 : Vec Ideal S2048x1 .f32) (xs1 : Vec Ideal S2048x1 .f32) (xs2 : Vec Ideal S2048x256 .f32)
    (hone : ∀ j : Fin 256, x3 (ix2 j (⟨256, by omega⟩ : Fin 384)) = GatSpec.oneB) (r : Fin 2048) (c' : Fin 256) :
    (resC (F := Ideal) c t h0 h1 x0 x1 x2 x3 x4 x5 xs0 xs1 xs2).1 (ix2 r c')
      = gfinal (gstep (x0 (ix2 r 0)) (fun j => x1 (ix2 0 j)) (fun j => IntOp.cmpi .sgt (x2 (ix2 r j)) 0#32) (fun j c' => x3 (ix2 j (⟨c'.val, by omega⟩ : Fin 384))) (xs0 (ix2 r 0), xs1 (ix2 r 0), fun c' : Fin 256 => xs2 (ix2 r c'))) (x4 (ix2 r 0)) (fun c' => x5 (ix2 0 c')) c' := by
  rw [resC_o, ← kstep_row x0 x1 x2 x3 xs0 xs1 xs2 hone r]
  refine (pay4_apply _ _ _ _ _ _ r c').trans ?_
  rfl

end Cert.KernelIdeal.Val

end
-- ==== Proof.KiVal1.lean ====
/-
  The second pallas_call's output array, read at an index: entry (i, c') is the specification's tiled result. By
  induction along a row tile's 32 key tiles the three scratch buffers hold the specification's running state of each of
  the tile's rows; at the last key tile the output block is the final step; the 4 blocks written back (one per row
  tile, at the last key tile) tile the array.
-/
import proofs.«430248_j1580547967873_3_alg».proof.Proof.KiVal0
import proofs.«430248_j1580547967873_3_alg».proof.Proof.KiValHost
import proofs.«430248_j1580547967873_3_alg».proof.Proof.KiVal1Cases
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Val

open Cert.KernelIdeal Cert.KernelIdeal.Gen Cert.KernelIdeal.Fr
open Idealize.ShloMosaic Idealize.ShloMosaic.TcCoe Idealize.SL.Sem ValueIdx
open Idealize.ShloMosaic.Pipeline (Dat)

variable (m : (ℓ : Loc nD τ sig) → Buf (Elt Ideal) ℓ) (c : Dev nD)

/-! ## The second region's entry contents -/

theorem attn_ent_l1 (i : Fin 8192) :
    Ve2 m c main_v0_1 (ix2 i 0) = GatSpec.l1 (xA m c) (wA m c) (a1A m c) i := by
  show Wb (W1 m c) (Proc.devRef .tc main_v0_1) (ix2 i 0) = _
  rw [host_keep (W1 m c) main_v0_1 (by decide)]
  exact W1_l1 m c i

theorem attn_ent_l2 (j : Fin 8192) :
    Ve2 m c main_v14 (ix2 0 j) = GatSpec.l2 (xA m c) (wA m c) (a2A m c) j := by
  show Wb (W1 m c) (Proc.devRef .tc main_v14) (ix2 0 j) = _
  rw [host_l2row (W1 m c) j]
  exact W1_l2 m c j

theorem attn_ent_adj : Ve2 m c main_arg1 = m ((c : Thread nD τ).loc main_arg1) := by
  show Wb (W1 m c) (Proc.devRef .tc main_arg1) = _
  rw [host_keep (W1 m c) main_arg1 (by decide)]
  exact W1_of_ne m c main_arg1 (by decide)

theorem attn_ent_vh (j : Fin 8192) (c' : Fin 256) :
    Ve2 m c main_v19 (ix2 j (⟨c'.val, by omega⟩ : Fin 384)) = GatSpec.hh (xA m c) (wA m c) j c' := by
  show Wb (W1 m c) (Proc.devRef .tc main_v19) _ = _
  rw [host_vaug_h (W1 m c) j c']
  exact W1_hb m c j c'

theorem attn_ent_vone (j : Fin 8192) :
    Ve2 m c main_v19 (ix2 j (⟨256, by omega⟩ : Fin 384)) = GatSpec.oneB :=
  host_vaug_one (W1 m c) j

theorem attn_ent_mean (c' : Fin 256) :
    Ve2 m c main_v6 (ix2 0 c') = GatSpec.meanK (xA m c) (wA m c) c' :=
  host_mean (W1 m c) c' (fun q => ∑ r : Fin 2048, GatSpec.hh (xA m c) (wA m c) (GatSpec.row q r) c')
    (fun q => W1_hsum m c q 0 c')

theorem attn_ent_a2 (c' : Fin 256) : W1 m c (Proc.devRef .tc main_arg4) (ix2 c' 0) = a2A m c c' := by
  rw [show W1 m c (Proc.devRef .tc main_arg4) = W0 m c (Proc.devRef .tc main_arg4) from
    (W1_arr m c 3).trans (((dat0 (Ve0 m) c).arrAt_in 3 rfl _).trans (A_eq0 (Ve0 m) c 3))]

theorem attn_ent_glob (i : Fin 8192) :
    Ve2 m c main_v13 (ix2 i 0) = GatSpec.globK (xA m c) (wA m c) (a1A m c) (a2A m c) i :=
  host_glob (W1 m c) i _ (GatSpec.meanK (xA m c) (wA m c)) (a2A m c) (W1_l1 m c i) (attn_ent_mean m c) (attn_ent_a2 m c)

/-! ## The blocks -/

theorem attn_idx_facts1 : ∀ t : Fin cfg1.N,
    win1_0.index t (0 : Fin 2) = t.val / 32 ∧ win1_0.index t (1 : Fin 2) = 0
    ∧ win1_1.index t (0 : Fin 2) = 0 ∧ win1_1.index t (1 : Fin 2) = t.val % 32
    ∧ win1_2.index t (0 : Fin 2) = t.val / 32 ∧ win1_2.index t (1 : Fin 2) = t.val % 32
    ∧ win1_3.index t (0 : Fin 2) = t.val % 32 ∧ win1_3.index t (1 : Fin 2) = 0
    ∧ win1_4.index t (0 : Fin 2) = t.val / 32 ∧ win1_4.index t (1 : Fin 2) = 0
    ∧ win1_5.index t (0 : Fin 2) = 0 ∧ win1_5.index t (1 : Fin 2) = 0
    ∧ win1_6.index t (0 : Fin 2) = t.val / 32 ∧ win1_6.index t (1 : Fin 2) = 0 :=
  (by decide +kernel : ∀ t : Fin grid1.N, _)

/-- The row tile and the key tile of a grid point. -/
def attn_tq (t : Fin cfg1.N) : Fin 4 := ⟨t.val / 32, by have h : t.val < 128 := lt_of_lt_of_eq t.isLt (show cfg1.N = 128 from N_1); omega⟩
def attn_tk (t : Fin cfg1.N) : Fin 32 := ⟨t.val % 32, Nat.mod_lt _ (by decide)⟩

theorem attn_blk_l1 (t : Fin cfg1.N) (r : Fin 2048) :
    (iblk1 (Ve2 m) c 0 t : Vec Ideal S2048x1 .f32) (ix2 r 0)
      = GatSpec.l1 (xA m c) (wA m c) (a1A m c) (GatSpec.row (attn_tq t) r) := by
  unfold iblk1
  rw [View.read_apply]
  refine Eq.trans (congrArg (Ve2 m c main_v0_1) ?_) (attn_ent_l1 m c _)
  obtain ⟨e00, e01, -⟩ := attn_idx_facts1 t
  funext a; apply Fin.ext
  match a with
  | ⟨0, _⟩ => show win1_0.index t (0 : Fin 2) * 2048 + 1 * r.val = 2048 * (t.val / 32) + r.val; rw [e00]; omega
  | ⟨1, _⟩ => show win1_0.index t (1 : Fin 2) * 1 + 1 * 0 = 0; rw [e01]

theorem attn_blk_l2 (t : Fin cfg1.N) (j : Fin 256) :
    (iblk1 (Ve2 m) c 1 t : Vec Ideal S1x256 .f32) (ix2 0 j)
      = GatSpec.l2 (xA m c) (wA m c) (a2A m c) (GatSpec.key (attn_tk t) j) := by
  unfold iblk1
  rw [View.read_apply]
  refine Eq.trans (congrArg (Ve2 m c main_v14) ?_) (attn_ent_l2 m c _)
  obtain ⟨-, -, e10, e11, -⟩ := attn_idx_facts1 t
  funext a; apply Fin.ext
  match a with
  | ⟨0, _⟩ => show win1_1.index t (0 : Fin 2) * 1 + 1 * 0 = 0; rw [e10]
  | ⟨1, _⟩ => show win1_1.index t (1 : Fin 2) * 256 + 1 * j.val = 256 * (t.val % 32) + j.val; rw [e11]; omega

theorem attn_blk_msk (t : Fin cfg1.N) (r : Fin 2048) (j : Fin 256) :
    IntOp.cmpi .sgt ((iblk1 (Ve2 m) c 2 t : Vec Ideal S2048x256 .i32) (ix2 r j)) 0#32
      = mskA m c (GatSpec.row (attn_tq t) r) (GatSpec.key (attn_tk t) j) := by
  unfold iblk1
  rw [View.read_apply]
  refine congrArg (fun v => IntOp.cmpi .sgt v 0#32) ?_
  refine Eq.trans (congrArg (Ve2 m c main_arg1) ?_) (congrFun (attn_ent_adj m c) _)
  obtain ⟨-, -, -, -, e20, e21, -⟩ := attn_idx_facts1 t
  funext a; apply Fin.ext
  match a with
  | ⟨0, _⟩ => show win1_2.index t (0 : Fin 2) * 2048 + 1 * r.val = 2048 * (t.val / 32) + r.val; rw [e20]; omega
  | ⟨1, _⟩ => show win1_2.index t (1 : Fin 2) * 256 + 1 * j.val = 256 * (t.val % 32) + j.val; rw [e21]; omega

theorem attn_blk_vh (t : Fin cfg1.N) (j : Fin 256) (c' : Fin 256) :
    (iblk1 (Ve2 m) c 3 t : Vec Ideal S256x384 .bf16) (ix2 j (⟨c'.val, by omega⟩ : Fin 384))
      = GatSpec.hh (xA m c) (wA m c) (GatSpec.key (attn_tk t) j) c' := by
  unfold iblk1
  rw [View.read_apply]
  refine Eq.trans (congrArg (Ve2 m c main_v19) ?_) (attn_ent_vh m c _ _)
  obtain ⟨-, -, -, -, -, -, e30, e31, -⟩ := attn_idx_facts1 t
  funext a; apply Fin.ext
  match a with
  | ⟨0, _⟩ => show win1_3.index t (0 : Fin 2) * 256 + 1 * j.val = 256 * (t.val % 32) + j.val; rw [e30]; omega
  | ⟨1, _⟩ => show win1_3.index t (1 : Fin 2) * 384 + 1 * c'.val = c'.val; rw [e31]; omega

theorem attn_blk_vone (t : Fin cfg1.N) (j : Fin 256) :
    (iblk1 (Ve2 m) c 3 t : Vec Ideal S256x384 .bf16) (ix2 j (⟨256, by omega⟩ : Fin 384)) = GatSpec.oneB := by
  unfold iblk1
  rw [View.read_apply]
  refine Eq.trans (congrArg (Ve2 m c main_v19) ?_) (attn_ent_vone m c (GatSpec.key (attn_tk t) j))
  obtain ⟨-, -, -, -, -, -, e30, e31, -⟩ := attn_idx_facts1 t
  funext a; apply Fin.ext
  match a with
  | ⟨0, _⟩ => show win1_3.index t (0 : Fin 2) * 256 + 1 * j.val = 256 * (t.val % 32) + j.val; rw [e30]; omega
  | ⟨1, _⟩ => show win1_3.index t (1 : Fin 2) * 384 + 1 * 256 = 256; rw [e31]

theorem attn_blk_glob (t : Fin cfg1.N) (r : Fin 2048) :
    (iblk1 (Ve2 m) c 4 t : Vec Ideal S2048x1 .f32) (ix2 r 0)
      = GatSpec.globK (xA m c) (wA m c) (a1A m c) (a2A m c) (GatSpec.row (attn_tq t) r) := by
  unfold iblk1
  rw [View.read_apply]
  refine Eq.trans (congrArg (Ve2 m c main_v13) ?_) (attn_ent_glob m c _)
  obtain ⟨-, -, -, -, -, -, -, -, e40, e41, -⟩ := attn_idx_facts1 t
  funext a; apply Fin.ext
  match a with
  | ⟨0, _⟩ => show win1_4.index t (0 : Fin 2) * 2048 + 1 * r.val = 2048 * (t.val / 32) + r.val; rw [e40]; omega
  | ⟨1, _⟩ => show win1_4.index t (1 : Fin 2) * 1 + 1 * 0 = 0; rw [e41]

theorem attn_blk_mean (t : Fin cfg1.N) (c' : Fin 256) :
    (iblk1 (Ve2 m) c 5 t : Vec Ideal S1x256 .f32) (ix2 0 c') = GatSpec.meanK (xA m c) (wA m c) c' := by
  unfold iblk1
  rw [View.read_apply]
  refine Eq.trans (congrArg (Ve2 m c main_v6) ?_) (attn_ent_mean m c _)
  obtain ⟨-, -, -, -, -, -, -, -, -, -, e50, e51, -⟩ := attn_idx_facts1 t
  funext a; apply Fin.ext
  match a with
  | ⟨0, _⟩ => show win1_5.index t (0 : Fin 2) * 1 + 1 * 0 = 0; rw [e50]
  | ⟨1, _⟩ => show win1_5.index t (1 : Fin 2) * 256 + 1 * c'.val = c'.val; rw [e51]; omega

/-! ## The invariant along a row tile -/

/-- The specification's running state of a row, at this program's arguments. -/
abbrev attn_spSt (i : Fin 8192) (n : ℕ) : EReal × EReal × (Fin 256 → EReal) :=
  GatSpec.stK (xA m c) (mskA m c) (wA m c) (a1A m c) (a2A m c) i n

/-- Row r of the three scratch buffers. -/
abbrev attn_rowSt (o : Res1 Ideal) (r : Fin 2048) : EReal × EReal × (Fin 256 → EReal) :=
  (o.2.1 (ix2 r 0), o.2.2.1 (ix2 r 0), fun c' : Fin 256 => o.2.2.2 (ix2 r c'))

/-- The one-row step at a point's blocks is the specification's tile step of the point's row and key tile. -/
theorem attn_step_blk (t : Fin cfg1.N) (r : Fin 2048) (st : EReal × EReal × (Fin 256 → EReal)) :
    gstep ((iblk1 (Ve2 m) c 0 t : Vec Ideal S2048x1 .f32) (ix2 r 0))
        (fun j => (iblk1 (Ve2 m) c 1 t : Vec Ideal S1x256 .f32) (ix2 0 j))
        (fun j => IntOp.cmpi .sgt ((iblk1 (Ve2 m) c 2 t : Vec Ideal S2048x256 .i32) (ix2 r j)) 0#32)
        (fun j c' => (iblk1 (Ve2 m) c 3 t : Vec Ideal S256x384 .bf16) (ix2 j (⟨c'.val, by omega⟩ : Fin 384))) st
      = GatSpec.stepK (xA m c) (mskA m c) (wA m c) (a1A m c) (a2A m c) (GatSpec.row (attn_tq t) r) (attn_tk t) st := by
  rw [stepK_eq_gstep, attn_blk_l1 m c t r, funext (attn_blk_l2 m c t), funext (attn_blk_msk m c t r),
    funext (fun j => funext (attn_blk_vh m c t j))]

/-- At a first key tile. -/
theorem attn_inv_first (t : Fin cfg1.N) (h0 : t.val % 32 = 0) (r : Fin 2048) :
    attn_rowSt (outsAt1 (Ve2 m) c t.val t.isLt) r = attn_spSt m c (GatSpec.row (attn_tq t) r) (t.val % 32 + 1) := by
  have hc0 : cond1_0 (grid1.coords t) := (hcond1_0 t).mpr h0
  have hc1 : ¬cond1_1 (grid1.coords t) := fun h => by have := (hcond1_1 t).mp h; omega
  rw [outsAt1_A (Ve2 m) c t h0]
  refine (resA_row c t hc0 hc1 (iblk1 (Ve2 m) c 0 t) (iblk1 (Ve2 m) c 1 t) (iblk1 (Ve2 m) c 2 t) (iblk1 (Ve2 m) c 3 t)
    (iblk1 (Ve2 m) c 4 t) (iblk1 (Ve2 m) c 5 t) (attn_blk_vone m c t) r).trans ?_
  refine (attn_step_blk m c t r _).trans ?_
  show _ = GatSpec.stK _ _ _ _ _ _ (t.val % 32 + 1)
  rw [stK_succ _ _ _ _ _ _ (t.val % 32) (Nat.mod_lt _ (by decide))]
  refine congrArg (GatSpec.stepK (xA m c) (mskA m c) (wA m c) (a1A m c) (a2A m c) (GatSpec.row (attn_tq t) r) (attn_tk t)) ?_
  rw [h0]; rfl

/-- Away from a first key tile: from the state the point before left. -/
theorem attn_inv_next (t : Fin cfg1.N) (h0 : ¬t.val % 32 = 0) (r : Fin 2048)
    (ih : attn_rowSt (outsAt1 (Ve2 m) c (t.val - 1) (Nat.lt_of_le_of_lt (Nat.sub_le _ _) t.isLt)) r
      = attn_spSt m c (GatSpec.row (attn_tq t) r) (t.val % 32)) :
    attn_rowSt (outsAt1 (Ve2 m) c t.val t.isLt) r = attn_spSt m c (GatSpec.row (attn_tq t) r) (t.val % 32 + 1) := by
  have hc0 : ¬cond1_0 (grid1.coords t) := fun h => h0 ((hcond1_0 t).mp h)
  have fin : ∀ st, st = attn_spSt m c (GatSpec.row (attn_tq t) r) (t.val % 32) →
      gstep ((iblk1 (Ve2 m) c 0 t : Vec Ideal S2048x1 .f32) (ix2 r 0))
        (fun j => (iblk1 (Ve2 m) c 1 t : Vec Ideal S1x256 .f32) (ix2 0 j))
        (fun j => IntOp.cmpi .sgt ((iblk1 (Ve2 m) c 2 t : Vec Ideal S2048x256 .i32) (ix2 r j)) 0#32)
        (fun j c' => (iblk1 (Ve2 m) c 3 t : Vec Ideal S256x384 .bf16) (ix2 j (⟨c'.val, by omega⟩ : Fin 384))) st
      = attn_spSt m c (GatSpec.row (attn_tq t) r) (t.val % 32 + 1) := fun st hst => by
    refine (attn_step_blk m c t r _).trans ?_
    show _ = GatSpec.stK _ _ _ _ _ _ (t.val % 32 + 1)
    rw [stK_succ _ _ _ _ _ _ (t.val % 32) (Nat.mod_lt _ (by decide))]
    exact congrArg (GatSpec.stepK (xA m c) (mskA m c) (wA m c) (a1A m c) (a2A m c) (GatSpec.row (attn_tq t) r) (attn_tk t)) hst
  by_cases h1 : t.val % 32 = 31
  · have hc1 : cond1_1 (grid1.coords t) := (hcond1_1 t).mpr h1
    rw [outsAt1_C (Ve2 m) c t h0 h1]
    refine (resC_row c t hc0 hc1 (iblk1 (Ve2 m) c 0 t) (iblk1 (Ve2 m) c 1 t) (iblk1 (Ve2 m) c 2 t) (iblk1 (Ve2 m) c 3 t)
      (iblk1 (Ve2 m) c 4 t) (iblk1 (Ve2 m) c 5 t)
      (outsAt1 (Ve2 m) c (t.val - 1) (Nat.lt_of_le_of_lt (Nat.sub_le _ _) t.isLt)).2.1
      (outsAt1 (Ve2 m) c (t.val - 1) (Nat.lt_of_le_of_lt (Nat.sub_le _ _) t.isLt)).2.2.1
      (outsAt1 (Ve2 m) c (t.val - 1) (Nat.lt_of_le_of_lt (Nat.sub_le _ _) t.isLt)).2.2.2
      (attn_blk_vone m c t) r).trans ?_
    exact fin _ ih
  · have hc1 : ¬cond1_1 (grid1.coords t) := fun h => h1 ((hcond1_1 t).mp h)
    rw [outsAt1_B (Ve2 m) c t h0 h1]
    refine (resB_row c t hc0 hc1 (iblk1 (Ve2 m) c 0 t) (iblk1 (Ve2 m) c 1 t) (iblk1 (Ve2 m) c 2 t) (iblk1 (Ve2 m) c 3 t)
      (iblk1 (Ve2 m) c 4 t) (iblk1 (Ve2 m) c 5 t)
      (outsAt1 (Ve2 m) c (t.val - 1) (Nat.lt_of_le_of_lt (Nat.sub_le _ _) t.isLt)).2.1
      (outsAt1 (Ve2 m) c (t.val - 1) (Nat.lt_of_le_of_lt (Nat.sub_le _ _) t.isLt)).2.2.1
      (outsAt1 (Ve2 m) c (t.val - 1) (Nat.lt_of_le_of_lt (Nat.sub_le _ _) t.isLt)).2.2.2
      (attn_blk_vone m c t) r).trans ?_
    exact fin _ ih

/-- THE INVARIANT: after the point of row tile q and key tile k the scratch buffers' row r holds the specification's
    state of row (q, r) after k + 1 key tiles. By induction on the point. -/
theorem attn_inv : ∀ (n : ℕ) (hn : n < cfg1.N) (r : Fin 2048),
    attn_rowSt (outsAt1 (Ve2 m) c n hn) r = attn_spSt m c (GatSpec.row (attn_tq ⟨n, hn⟩) r) (n % 32 + 1)
  | 0, hn, r => attn_inv_first m c ⟨0, hn⟩ rfl r
  | n + 1, hn, r => by
    by_cases h0 : (n + 1) % 32 = 0
    · exact attn_inv_first m c ⟨n + 1, hn⟩ h0 r
    · refine attn_inv_next m c ⟨n + 1, hn⟩ h0 r ?_
      have hn' : n < cfg1.N := Nat.lt_of_succ_lt hn
      have hN : n + 1 < 128 := lt_of_lt_of_eq hn (show cfg1.N = 128 from N_1)
      have hq : attn_tq ⟨n, hn'⟩ = attn_tq ⟨n + 1, hn⟩ := Fin.ext (by show n / 32 = (n + 1) / 32; omega)
      have hk : n % 32 + 1 = (n + 1) % 32 := by omega
      have := attn_inv n hn' r
      rw [hq, hk] at this
      exact this

/-! ## The output block at a last key tile -/

theorem attn_out_last (t : Fin cfg1.N) (h1 : t.val % 32 = 31) (r : Fin 2048) (c' : Fin 256) :
    (outsAt1 (Ve2 m) c t.val t.isLt).1 (ix2 r c')
      = GatSpec.outK (xA m c) (mskA m c) (wA m c) (a1A m c) (a2A m c) (GatSpec.row (attn_tq t) r) c' := by
  have h0 : ¬t.val % 32 = 0 := by omega
  have hc0 : ¬cond1_0 (grid1.coords t) := fun h => h0 ((hcond1_0 t).mp h)
  have hc1 : cond1_1 (grid1.coords t) := (hcond1_1 t).mpr h1
  have e1 : attn_rowSt (outsAt1 (Ve2 m) c t.val t.isLt) r = attn_spSt m c (GatSpec.row (attn_tq t) r) (t.val % 32 + 1) :=
    attn_inv m c t.val t.isLt r
  rw [outsAt1_C (Ve2 m) c t h0 h1] at e1 ⊢
  have e2 := (resC_row c t hc0 hc1 (iblk1 (Ve2 m) c 0 t) (iblk1 (Ve2 m) c 1 t) (iblk1 (Ve2 m) c 2 t) (iblk1 (Ve2 m) c 3 t)
      (iblk1 (Ve2 m) c 4 t) (iblk1 (Ve2 m) c 5 t)
      (outsAt1 (Ve2 m) c (t.val - 1) (Nat.lt_of_le_of_lt (Nat.sub_le _ _) t.isLt)).2.1
      (outsAt1 (Ve2 m) c (t.val - 1) (Nat.lt_of_le_of_lt (Nat.sub_le _ _) t.isLt)).2.2.1
      (outsAt1 (Ve2 m) c (t.val - 1) (Nat.lt_of_le_of_lt (Nat.sub_le _ _) t.isLt)).2.2.2
      (attn_blk_vone m c t) r).symm.trans e1
  refine (resC_out c t hc0 hc1 (iblk1 (Ve2 m) c 0 t) (iblk1 (Ve2 m) c 1 t) (iblk1 (Ve2 m) c 2 t) (iblk1 (Ve2 m) c 3 t)
      (iblk1 (Ve2 m) c 4 t) (iblk1 (Ve2 m) c 5 t)
      (outsAt1 (Ve2 m) c (t.val - 1) (Nat.lt_of_le_of_lt (Nat.sub_le _ _) t.isLt)).2.1
      (outsAt1 (Ve2 m) c (t.val - 1) (Nat.lt_of_le_of_lt (Nat.sub_le _ _) t.isLt)).2.2.1
      (outsAt1 (Ve2 m) c (t.val - 1) (Nat.lt_of_le_of_lt (Nat.sub_le _ _) t.isLt)).2.2.2
      (attn_blk_vone m c t) r c').trans ?_
  rw [outK_eq_gfinal, e2, attn_blk_glob m c t r, funext (attn_blk_mean m c t)]
  show gfinal (GatSpec.stK _ _ _ _ _ _ (t.val % 32 + 1)) _ _ _ = _
  rw [h1]

/-- The same at any index of the block. -/
theorem attn_out_last_idx (t : Fin cfg1.N) (h1 : t.val % 32 = 31) (y : S2048x256.Idx) :
    (outsAt1 (Ve2 m) c t.val t.isLt).1 y
      = GatSpec.outK (xA m c) (mskA m c) (wA m c) (a1A m c) (a2A m c) (GatSpec.row (attn_tq t) (y 0)) (y 1) :=
  (congrArg (outsAt1 (Ve2 m) c t.val t.isLt).1 (eq_ix2 y)).trans (attn_out_last m c t h1 (y 0) (y 1))

/-! ## From the blocks written back to the array -/

/-- The specification's result as one array. -/
abbrev attn_outArr : S8192x256.Idx → EReal :=
  fun i => GatSpec.outK (xA m c) (mskA m c) (wA m c) (a1A m c) (a2A m c) (i 0) (i 1)

/-- What a last key tile writes back is its block of the specification's array. -/
theorem attn_flushed_eq (t : Fin cfg1.N) (hf : (cfg1.win 6).flush t = true) :
    (dat1 (Ve2 m) c).flushed 6 t = ((cfg1.win 6).blk t).view.read (Elt Ideal) (attn_outArr m c) := by
  have h31 : t.val % 32 = 31 := (flush1_6 t).mp hf
  obtain ⟨-, -, -, -, -, -, -, -, -, -, -, -, e60, e61⟩ := attn_idx_facts1 t
  funext y
  show (cfg1.win 6).cut (grid1.coords t) ((dat1 (Ve2 m) c).after 6 t) y = _
  rw [after1_6, View.read_apply]
  refine (attn_out_last_idx m c t h31 _).trans ?_
  refine congr (congrArg (GatSpec.outK (xA m c) (mskA m c) (wA m c) (a1A m c) (a2A m c)) (Fin.ext ?_)) (Fin.ext ?_)
  · show 2048 * (t.val / 32) + (y 0).val = win1_6.index t (0 : Fin 2) * 2048 + 1 * (y 0).val
    rw [e60]; omega
  · show (y 1).val = win1_6.index t (1 : Fin 2) * 256 + 1 * (y 1).val
    rw [e61]; omega

/-- Every row lies in the block its row tile writes back at its last key tile. -/
theorem attn_covered (i : S8192x256.Idx) :
    ∃ t : Fin cfg1.N, (cfg1.win 6).flush t = true ∧ i ∈ ((cfg1.win 6).blk t).view.set := by
  have hi0 : (i 0).val < 8192 := idx2_lt0 i
  have hi1 : (i 1).val < 256 := idx2_lt1 i
  have hN : cfg1.N = 128 := N_1
  let t : Fin cfg1.N := ⟨32 * ((i 0).val / 2048) + 31, by rw [hN]; omega⟩
  have ht : t.val = 32 * ((i 0).val / 2048) + 31 := rfl
  obtain ⟨-, -, -, -, -, -, -, -, -, -, -, -, e60, e61⟩ := attn_idx_facts1 t
  refine ⟨t, (flush1_6 t).mpr (by rw [ht]; omega), ?_⟩
  show i ∈ ((View.whole main_v20).slice (win1_6.rect t)).set
  rw [View.set_slice_whole, Rect.mem_set_unit]
  intro a
  match a with
  | ⟨0, _⟩ =>
    show win1_6.index t (0 : Fin 2) * 2048 ≤ (i 0).val ∧ (i 0).val < win1_6.index t (0 : Fin 2) * 2048 + 2048
    rw [e60, ht]; omega
  | ⟨1, _⟩ =>
    show win1_6.index t (1 : Fin 2) * 256 ≤ (i 1).val ∧ (i 1).val < win1_6.index t (1 : Fin 2) * 256 + 256
    rw [e61]; omega

/-- The result array. -/
theorem final_out (i : Fin 8192) (c' : Fin 256) :
    (dat1 (Ve2 m) c).arrAt 6 cfg1.N (ix2 i c')
      = GatSpec.outK (xA m c) (mskA m c) (wA m c) (a1A m c) (a2A m c) i c' :=
  congrFun ((dat1 (Ve2 m) c).arrAt_eq_of_cover 6 (attn_outArr m c) (attn_flushed_eq m c) attn_covered) (ix2 i c')

end Cert.KernelIdeal.Val

end
-- ==== Proof.RefTerm.lean ====
/-
  The reference as one pure function of its five argument arrays: its operations composed in program order, each
  function the program calls (the two leaky-relus, the wheres, elu) unfolded where it is called. In words:
  h = x·W; l1 = h·a1, l2 = h·a2; e(i,j) = leaky(l1 i + l2 j) where adj(i,j) > 0, the large negative fill elsewhere;
  mean = (column sums of h) / 8192; g(i) = leaky(l1 i + mean·a2); the 8193-wide rows [e | g] are softmaxed
  (subtract the row maximum, exponentiate, divide by the row sum) and multiplied with [h ; mean]; elu at the end.
-/
import proofs.«430248_j1580547967873_3_alg».proof.Proof.Gen.ReferenceIdeal

noncomputable section

namespace Cert.ReferenceIdeal.Hand

open Cert.ReferenceIdeal Idealize.ShloMosaic Idealize.ShloMosaic.TcCoe Cert.ReferenceIdeal.Facts₀

variable {F : FTy → Type} [FloatOps F]

/-! Each value of the program, in program order, as a function of the five arguments. The names follow the program's:
    `t_vN` is its value %N; `t_pN`, `t_rN` are the values inside the two leaky-relus, `t_q0` the mask's fill, `t_eN` and
    `t_f1` the values inside elu. -/

def t_v0 (x : FVec F S8192x512 .f32) (adj : IVec S8192x8192 32) (w : FVec F S512x256 .f32) (a1 a2 : FVec F S256x1 .f32) : FVec F S8192x256 .f32 :=
  Host.dotGeneral dot_S8192x512_S512x256_S8192x256_1_0_0_1_n_n none x w
def t_v1 (x : FVec F S8192x512 .f32) (adj : IVec S8192x8192 32) (w : FVec F S512x256 .f32) (a1 a2 : FVec F S256x1 .f32) : FVec F S8192x1 .f32 :=
  Host.dotGeneral dot_S8192x256_S256x1_S8192x1_1_0_0_1_n_n none (t_v0 x adj w a1 a2) a1
def t_v2 (x : FVec F S8192x512 .f32) (adj : IVec S8192x8192 32) (w : FVec F S512x256 .f32) (a1 a2 : FVec F S256x1 .f32) : FVec F S8192x1 .f32 :=
  Host.dotGeneral dot_S8192x256_S256x1_S8192x1_1_0_0_1_n_n none (t_v0 x adj w a1 a2) a2
def t_v3 (x : FVec F S8192x512 .f32) (adj : IVec S8192x8192 32) (w : FVec F S512x256 .f32) (a1 a2 : FVec F S256x1 .f32) : FVec F S1x8192 .f32 :=
  transpose S1x8192 [1, 0] (t_v2 x adj w a1 a2) transposes_S8192x1_S1x8192_1_0
def t_v4 (x : FVec F S8192x512 .f32) (adj : IVec S8192x8192 32) (w : FVec F S512x256 .f32) (a1 a2 : FVec F S256x1 .f32) : FVec F S8192x8192 .f32 :=
  broadcastInDim S8192x8192 ![0, 1] bcast_S8192x1_S8192x8192_0_1 (t_v1 x adj w a1 a2)
def t_v5 (x : FVec F S8192x512 .f32) (adj : IVec S8192x8192 32) (w : FVec F S512x256 .f32) (a1 a2 : FVec F S256x1 .f32) : FVec F S8192x8192 .f32 :=
  broadcastInDim S8192x8192 ![0, 1] bcast_S1x8192_S8192x8192_0_1 (t_v3 x adj w a1 a2)
def t_v6 (x : FVec F S8192x512 .f32) (adj : IVec S8192x8192 32) (w : FVec F S512x256 .f32) (a1 a2 : FVec F S256x1 .f32) : FVec F S8192x8192 .f32 :=
  addf (t_v4 x adj w a1 a2) (t_v5 x adj w a1 a2)
def t_cst (x : FVec F S8192x512 .f32) (adj : IVec S8192x8192 32) (w : FVec F S512x256 .f32) (a1 a2 : FVec F S256x1 .f32) : FVec F S_ .f32 :=
  constant S_ .f32 0x3E4CCCCD#32
def t_p0 (x : FVec F S8192x512 .f32) (adj : IVec S8192x8192 32) (w : FVec F S512x256 .f32) (a1 a2 : FVec F S256x1 .f32) : FVec F S8192x8192 .f32 :=
  broadcastInDim S8192x8192 ![] bcast_S_S8192x8192 (constant S_ .f32 0x00000000#32)
def t_p1 (x : FVec F S8192x512 .f32) (adj : IVec S8192x8192 32) (w : FVec F S512x256 .f32) (a1 a2 : FVec F S256x1 .f32) : IVec S8192x8192 1 :=
  cmpf .oge (t_v6 x adj w a1 a2) (t_p0 x adj w a1 a2)
def t_p3 (x : FVec F S8192x512 .f32) (adj : IVec S8192x8192 32) (w : FVec F S512x256 .f32) (a1 a2 : FVec F S256x1 .f32) : FVec F S8192x8192 .f32 :=
  broadcastInDim S8192x8192 ![] bcast_S_S8192x8192 (id (t_cst x adj w a1 a2))
def t_p4 (x : FVec F S8192x512 .f32) (adj : IVec S8192x8192 32) (w : FVec F S512x256 .f32) (a1 a2 : FVec F S256x1 .f32) : FVec F S8192x8192 .f32 :=
  mulf (t_p3 x adj w a1 a2) (t_v6 x adj w a1 a2)
def t_v7 (x : FVec F S8192x512 .f32) (adj : IVec S8192x8192 32) (w : FVec F S512x256 .f32) (a1 a2 : FVec F S256x1 .f32) : FVec F S8192x8192 .f32 :=
  select (t_p1 x adj w a1 a2) (t_v6 x adj w a1 a2) (t_p4 x adj w a1 a2)
def t_v8 (x : FVec F S8192x512 .f32) (adj : IVec S8192x8192 32) (w : FVec F S512x256 .f32) (a1 a2 : FVec F S256x1 .f32) : IVec S8192x8192 32 :=
  broadcastInDim S8192x8192 ![] bcast_S_S8192x8192 (constantI S_ 32 0#32)
def t_v9 (x : FVec F S8192x512 .f32) (adj : IVec S8192x8192 32) (w : FVec F S512x256 .f32) (a1 a2 : FVec F S256x1 .f32) : IVec S8192x8192 1 :=
  cmpi .sgt adj (t_v8 x adj w a1 a2)
def t_q0 (x : FVec F S8192x512 .f32) (adj : IVec S8192x8192 32) (w : FVec F S512x256 .f32) (a1 a2 : FVec F S256x1 .f32) : FVec F S8192x8192 .f32 :=
  broadcastInDim S8192x8192 ![] bcast_S_S8192x8192 (constant S_ .f32 0xD9FFCB9E#32)
def t_v10 (x : FVec F S8192x512 .f32) (adj : IVec S8192x8192 32) (w : FVec F S512x256 .f32) (a1 a2 : FVec F S256x1 .f32) : FVec F S8192x8192 .f32 :=
  select (t_v9 x adj w a1 a2) (t_v7 x adj w a1 a2) (t_q0 x adj w a1 a2)
def t_v11 (x : FVec F S8192x512 .f32) (adj : IVec S8192x8192 32) (w : FVec F S512x256 .f32) (a1 a2 : FVec F S256x1 .f32) : FVec F S256 .f32 :=
  Host.reduceAdd (t_v0 x adj w a1 a2) (constant S_ .f32 0x00000000#32) reducesTo_S8192x256_S256_d0 h_S_
def t_v12 (x : FVec F S8192x512 .f32) (adj : IVec S8192x8192 32) (w : FVec F S512x256 .f32) (a1 a2 : FVec F S256x1 .f32) : FVec F S1x256 .f32 :=
  broadcastInDim S1x256 ![1] bcast_S256_S1x256_1 (t_v11 x adj w a1 a2)
def t_v13 (x : FVec F S8192x512 .f32) (adj : IVec S8192x8192 32) (w : FVec F S512x256 .f32) (a1 a2 : FVec F S256x1 .f32) : FVec F S1x256 .f32 :=
  broadcastInDim S1x256 ![] bcast_S_S1x256 (constant S_ .f32 0x46000000#32)
def t_v14 (x : FVec F S8192x512 .f32) (adj : IVec S8192x8192 32) (w : FVec F S512x256 .f32) (a1 a2 : FVec F S256x1 .f32) : FVec F S1x256 .f32 :=
  Host.divf (t_v12 x adj w a1 a2) (t_v13 x adj w a1 a2)
def t_v15 (x : FVec F S8192x512 .f32) (adj : IVec S8192x8192 32) (w : FVec F S512x256 .f32) (a1 a2 : FVec F S256x1 .f32) : FVec F S1x1 .f32 :=
  Host.dotGeneral dot_S1x256_S256x1_S1x1_1_0_0_1_n_n none (t_v14 x adj w a1 a2) a2
def t_v16 (x : FVec F S8192x512 .f32) (adj : IVec S8192x8192 32) (w : FVec F S512x256 .f32) (a1 a2 : FVec F S256x1 .f32) : FVec F S8192x1 .f32 :=
  broadcastInDim S8192x1 ![0, 1] bcast_S1x1_S8192x1_0_1 (t_v15 x adj w a1 a2)
def t_v17 (x : FVec F S8192x512 .f32) (adj : IVec S8192x8192 32) (w : FVec F S512x256 .f32) (a1 a2 : FVec F S256x1 .f32) : FVec F S8192x1 .f32 :=
  addf (t_v1 x adj w a1 a2) (t_v16 x adj w a1 a2)
def t_cst_3 (x : FVec F S8192x512 .f32) (adj : IVec S8192x8192 32) (w : FVec F S512x256 .f32) (a1 a2 : FVec F S256x1 .f32) : FVec F S_ .f32 :=
  constant S_ .f32 0x3E4CCCCD#32
def t_r0 (x : FVec F S8192x512 .f32) (adj : IVec S8192x8192 32) (w : FVec F S512x256 .f32) (a1 a2 : FVec F S256x1 .f32) : FVec F S8192x1 .f32 :=
  broadcastInDim S8192x1 ![] bcast_S_S8192x1 (constant S_ .f32 0x00000000#32)
def t_r1 (x : FVec F S8192x512 .f32) (adj : IVec S8192x8192 32) (w : FVec F S512x256 .f32) (a1 a2 : FVec F S256x1 .f32) : IVec S8192x1 1 :=
  cmpf .oge (t_v17 x adj w a1 a2) (t_r0 x adj w a1 a2)
def t_r3 (x : FVec F S8192x512 .f32) (adj : IVec S8192x8192 32) (w : FVec F S512x256 .f32) (a1 a2 : FVec F S256x1 .f32) : FVec F S8192x1 .f32 :=
  broadcastInDim S8192x1 ![] bcast_S_S8192x1 (id (t_cst_3 x adj w a1 a2))
def t_r4 (x : FVec F S8192x512 .f32) (adj : IVec S8192x8192 32) (w : FVec F S512x256 .f32) (a1 a2 : FVec F S256x1 .f32) : FVec F S8192x1 .f32 :=
  mulf (t_r3 x adj w a1 a2) (t_v17 x adj w a1 a2)
def t_v18 (x : FVec F S8192x512 .f32) (adj : IVec S8192x8192 32) (w : FVec F S512x256 .f32) (a1 a2 : FVec F S256x1 .f32) : FVec F S8192x1 .f32 :=
  select (t_r1 x adj w a1 a2) (t_v17 x adj w a1 a2) (t_r4 x adj w a1 a2)
def t_v19 (x : FVec F S8192x512 .f32) (adj : IVec S8192x8192 32) (w : FVec F S512x256 .f32) (a1 a2 : FVec F S256x1 .f32) : FVec F S8192x8193 .f32 :=
  concatenate S8192x8193 1 [⟨S8192x8192, (t_v10 x adj w a1 a2)⟩, ⟨S8192x1, (t_v18 x adj w a1 a2)⟩] concatenates_S8192x8192_S8192x1_S8192x8193_d1
def t_v20 (x : FVec F S8192x512 .f32) (adj : IVec S8192x8192 32) (w : FVec F S512x256 .f32) (a1 a2 : FVec F S256x1 .f32) : FVec F S8192 .f32 :=
  Host.reduce FloatOps.maximumf (t_v19 x adj w a1 a2) (constant S_ .f32 0xFF800000#32) reducesTo_S8192x8193_S8192_d1 h_S_
def t_v21 (x : FVec F S8192x512 .f32) (adj : IVec S8192x8192 32) (w : FVec F S512x256 .f32) (a1 a2 : FVec F S256x1 .f32) : FVec F S8192 .f32 :=
  broadcastInDim S8192 ![] bcast_S_S8192 (constant S_ .f32 0xFF800000#32)
def t_v22 (x : FVec F S8192x512 .f32) (adj : IVec S8192x8192 32) (w : FVec F S512x256 .f32) (a1 a2 : FVec F S256x1 .f32) : FVec F S8192 .f32 :=
  maximumf (t_v21 x adj w a1 a2) (t_v20 x adj w a1 a2)
def t_v23 (x : FVec F S8192x512 .f32) (adj : IVec S8192x8192 32) (w : FVec F S512x256 .f32) (a1 a2 : FVec F S256x1 .f32) : FVec F S8192x1 .f32 :=
  broadcastInDim S8192x1 ![0] bcast_S8192_S8192x1_0 (t_v22 x adj w a1 a2)
def t_v24 (x : FVec F S8192x512 .f32) (adj : IVec S8192x8192 32) (w : FVec F S512x256 .f32) (a1 a2 : FVec F S256x1 .f32) : FVec F S8192x8193 .f32 :=
  broadcastInDim S8192x8193 ![0, 1] bcast_S8192x1_S8192x8193_0_1 (t_v23 x adj w a1 a2)
def t_v25 (x : FVec F S8192x512 .f32) (adj : IVec S8192x8192 32) (w : FVec F S512x256 .f32) (a1 a2 : FVec F S256x1 .f32) : FVec F S8192x8193 .f32 :=
  subf (t_v19 x adj w a1 a2) (t_v24 x adj w a1 a2)
def t_v26 (x : FVec F S8192x512 .f32) (adj : IVec S8192x8192 32) (w : FVec F S512x256 .f32) (a1 a2 : FVec F S256x1 .f32) : FVec F S8192x8193 .f32 :=
  Host.exp (t_v25 x adj w a1 a2)
def t_v27 (x : FVec F S8192x512 .f32) (adj : IVec S8192x8192 32) (w : FVec F S512x256 .f32) (a1 a2 : FVec F S256x1 .f32) : FVec F S8192 .f32 :=
  Host.reduceAdd (t_v26 x adj w a1 a2) (constant S_ .f32 0x00000000#32) reducesTo_S8192x8193_S8192_d1 h_S_
def t_v28 (x : FVec F S8192x512 .f32) (adj : IVec S8192x8192 32) (w : FVec F S512x256 .f32) (a1 a2 : FVec F S256x1 .f32) : FVec F S8192x1 .f32 :=
  broadcastInDim S8192x1 ![0] bcast_S8192_S8192x1_0 (t_v27 x adj w a1 a2)
def t_v29 (x : FVec F S8192x512 .f32) (adj : IVec S8192x8192 32) (w : FVec F S512x256 .f32) (a1 a2 : FVec F S256x1 .f32) : FVec F S8192x8193 .f32 :=
  broadcastInDim S8192x8193 ![0, 1] bcast_S8192x1_S8192x8193_0_1 (t_v28 x adj w a1 a2)
def t_v30 (x : FVec F S8192x512 .f32) (adj : IVec S8192x8192 32) (w : FVec F S512x256 .f32) (a1 a2 : FVec F S256x1 .f32) : FVec F S8192x8193 .f32 :=
  Host.divf (t_v26 x adj w a1 a2) (t_v29 x adj w a1 a2)
def t_v31 (x : FVec F S8192x512 .f32) (adj : IVec S8192x8192 32) (w : FVec F S512x256 .f32) (a1 a2 : FVec F S256x1 .f32) : FVec F S8193x256 .f32 :=
  concatenate S8193x256 0 [⟨S8192x256, (t_v0 x adj w a1 a2)⟩, ⟨S1x256, (t_v14 x adj w a1 a2)⟩] concatenates_S8192x256_S1x256_S8193x256_d0
def t_v32 (x : FVec F S8192x512 .f32) (adj : IVec S8192x8192 32) (w : FVec F S512x256 .f32) (a1 a2 : FVec F S256x1 .f32) : FVec F S8192x256 .f32 :=
  Host.dotGeneral dot_S8192x8193_S8193x256_S8192x256_1_0_0_1_n_n none (t_v30 x adj w a1 a2) (t_v31 x adj w a1 a2)
def t_e0 (x : FVec F S8192x512 .f32) (adj : IVec S8192x8192 32) (w : FVec F S512x256 .f32) (a1 a2 : FVec F S256x1 .f32) : FVec F S8192x256 .f32 :=
  broadcastInDim S8192x256 ![] bcast_S_S8192x256 (constant S_ .f32 0x00000000#32)
def t_e1 (x : FVec F S8192x512 .f32) (adj : IVec S8192x8192 32) (w : FVec F S512x256 .f32) (a1 a2 : FVec F S256x1 .f32) : IVec S8192x256 1 :=
  cmpf .ogt (t_v32 x adj w a1 a2) (t_e0 x adj w a1 a2)
def t_e2 (x : FVec F S8192x512 .f32) (adj : IVec S8192x8192 32) (w : FVec F S512x256 .f32) (a1 a2 : FVec F S256x1 .f32) : FVec F S8192x256 .f32 :=
  broadcastInDim S8192x256 ![] bcast_S_S8192x256 (constant S_ .f32 0x00000000#32)
def t_e3 (x : FVec F S8192x512 .f32) (adj : IVec S8192x8192 32) (w : FVec F S512x256 .f32) (a1 a2 : FVec F S256x1 .f32) : IVec S8192x256 1 :=
  cmpf .ogt (t_v32 x adj w a1 a2) (t_e2 x adj w a1 a2)
def t_f1 (x : FVec F S8192x512 .f32) (adj : IVec S8192x8192 32) (w : FVec F S512x256 .f32) (a1 a2 : FVec F S256x1 .f32) : FVec F S8192x256 .f32 :=
  broadcastInDim S8192x256 ![] bcast_S_S8192x256 (id (constant S_ .f32 0x00000000#32))
def t_e4 (x : FVec F S8192x512 .f32) (adj : IVec S8192x8192 32) (w : FVec F S512x256 .f32) (a1 a2 : FVec F S256x1 .f32) : FVec F S8192x256 .f32 :=
  select (t_e3 x adj w a1 a2) (t_f1 x adj w a1 a2) (t_v32 x adj w a1 a2)
def t_e5 (x : FVec F S8192x512 .f32) (adj : IVec S8192x8192 32) (w : FVec F S512x256 .f32) (a1 a2 : FVec F S256x1 .f32) : FVec F S8192x256 .f32 :=
  Host.expm1 (t_e4 x adj w a1 a2)
def t_e6 (x : FVec F S8192x512 .f32) (adj : IVec S8192x8192 32) (w : FVec F S512x256 .f32) (a1 a2 : FVec F S256x1 .f32) : FVec F S8192x256 .f32 :=
  broadcastInDim S8192x256 ![] bcast_S_S8192x256 (constant S_ .f32 0x3F800000#32)
def t_e7 (x : FVec F S8192x512 .f32) (adj : IVec S8192x8192 32) (w : FVec F S512x256 .f32) (a1 a2 : FVec F S256x1 .f32) : FVec F S8192x256 .f32 :=
  mulf (t_e6 x adj w a1 a2) (t_e5 x adj w a1 a2)

/-- The reference's result as a function of its arguments (x, adj, W, a1, a2). -/
def refTerm (x : FVec F S8192x512 .f32) (adj : IVec S8192x8192 32) (w : FVec F S512x256 .f32) (a1 a2 : FVec F S256x1 .f32) : FVec F S8192x256 .f32 :=
  select (t_e1 x adj w a1 a2) (t_v32 x adj w a1 a2) (t_e7 x adj w a1 a2)

end Cert.ReferenceIdeal.Hand

end
-- ==== Proof.RefRun.lean ====
/-
  The run of the reference program. Its @main is a straight line of host operations once each call of a
  module-local function is replaced by the callee's body over that call's buffers (the two leaky-relus and elu each
  make a call of their own, inlined likewise): seventy operations in program order. From any memory with zero counters
  every weakly fair execution terminates; the result buffer then holds the operations' composed pure term of the five
  argument buffers' launch contents, and the five argument buffers are unchanged (no operation writes them).
-/
import proofs.«430248_j1580547967873_3_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem
  Idealize.ShloMosaic.StableHlo Cert.ReferenceIdeal.Facts₀

variable {F : FTy → Type} [FloatOps F]

/-- @main's operations in program order, each call unfolded where it is made: the first leaky-relu is seven operations
    (the zero, its broadcast, the comparison with it, the slope converted to its own type and broadcast, the product,
    and the select its own call of where makes); the masking where two (the fill's broadcast, the select); the second
    leaky-relu seven again at the column shape; elu fifteen (two comparisons with a broadcast zero, the inner where's
    three, the exponential minus one, the unit's broadcast, the product, the outer where's select). -/
abbrev ops : List (HloOp τ sig (Elt F)) :=
  [ binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_v0 main_arg3 main_v1 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    binary main_v0 main_arg4 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v1 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v6 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v6 : TRef sig ⟨S8192x8192, .f32⟩) main_call0.v4 mulf,
    TRef.ternary main_call0.v1 (.of main_v6 : TRef sig ⟨S8192x8192, .f32⟩) main_call0.v4 main_call0.call0.v0 select,
    nullary main_c (constantI S_ 32 0#32),
    unary main_c main_v8 (broadcastInDim S8192x8192 ![] bcast_S_S8192x8192 : (⟨S_, .i32⟩ : BufTy).Contents (Elt F) → (⟨S8192x8192, .i32⟩ : BufTy).Contents (Elt F)),
    binary main_arg1 main_v8 main_v9 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0 : TRef sig ⟨S_, .f32⟩) main_call1.v0 (broadcastInDim S8192x8192 ![] bcast_S_S8192x8192),
    TRef.ternary (.of main_v9 : TRef sig ⟨S8192x8192, .i1⟩) (.of main_v7 : TRef sig ⟨S8192x8192, .f32⟩) main_call1.v0 main_call1.v1 select,
    nullary main_cst_1 (constant S_ .f32 0x00000000#32),
    binary main_v0 main_cst_1 main_v11 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    unary main_v11 main_v12 (broadcastInDim S1x256 ![1] bcast_S256_S1x256_1 : (⟨S256, .f32⟩ : BufTy).Contents (Elt F) → (⟨S1x256, .f32⟩ : BufTy).Contents (Elt F)),
    nullary main_cst_2 (constant S_ .f32 0x46000000#32),
    unary main_cst_2 main_v13 (broadcastInDim S1x256 ![] bcast_S_S1x256 : (⟨S_, .f32⟩ : BufTy).Contents (Elt F) → (⟨S1x256, .f32⟩ : BufTy).Contents (Elt F)),
    binary main_v12 main_v13 main_v14 (Host.divf : (⟨S1x256, .f32⟩ : BufTy).Contents (Elt F) → (⟨S1x256, .f32⟩ : BufTy).Contents (Elt F) → (⟨S1x256, .f32⟩ : BufTy).Contents (Elt F)),
    binary main_v14 main_arg4 main_v15 ((fun l r => Host.dotGeneral dot_S1x256_S256x1_S1x1_1_0_0_1_n_n none l r) : (⟨S1x256, .f32⟩ : BufTy).Contents (Elt F) → (⟨S256x1, .f32⟩ : BufTy).Contents (Elt F) → (⟨S1x1, .f32⟩ : BufTy).Contents (Elt F)),
    unary main_v15 main_v16 (broadcastInDim S8192x1 ![0, 1] bcast_S1x1_S8192x1_0_1 : (⟨S1x1, .f32⟩ : BufTy).Contents (Elt F) → (⟨S8192x1, .f32⟩ : BufTy).Contents (Elt F)),
    binary main_v1 main_v16 main_v17 (addf : (⟨S8192x1, .f32⟩ : BufTy).Contents (Elt F) → (⟨S8192x1, .f32⟩ : BufTy).Contents (Elt F) → (⟨S8192x1, .f32⟩ : BufTy).Contents (Elt F)),
    nullary main_cst_3 (constant S_ .f32 0x3E4CCCCD#32),
    TRef.nullary main_call2.cst (constant S_ .f32 0x00000000#32),
    TRef.unary main_call2.cst main_call2.v0 (broadcastInDim S8192x1 ![] bcast_S_S8192x1),
    TRef.binary (.of main_v17 : TRef sig ⟨S8192x1, .f32⟩) main_call2.v0 main_call2.v1 (cmpf .oge),
    TRef.unary (.of main_cst_3 : TRef sig ⟨S_, .f32⟩) main_call2.v2 id,
    TRef.unary main_call2.v2 main_call2.v3 (broadcastInDim S8192x1 ![] bcast_S_S8192x1),
    TRef.binary main_call2.v3 (.of main_v17 : TRef sig ⟨S8192x1, .f32⟩) main_call2.v4 mulf,
    TRef.ternary main_call2.v1 (.of main_v17 : TRef sig ⟨S8192x1, .f32⟩) main_call2.v4 main_call2.call0.v0 select,
    binary main_v10 main_v18 main_v19 ((fun a b => concatenate S8192x8193 1 [⟨S8192x8192, a⟩, ⟨S8192x1, b⟩] concatenates_S8192x8192_S8192x1_S8192x8193_d1) : (⟨S8192x8192, .f32⟩ : BufTy).Contents (Elt F) → (⟨S8192x1, .f32⟩ : BufTy).Contents (Elt F) → (⟨S8192x8193, .f32⟩ : BufTy).Contents (Elt F)),
    nullary main_cst_4 (constant S_ .f32 0xFF800000#32),
    binary main_v19 main_cst_4 main_v20 ((fun x v => Host.reduce FloatOps.maximumf x v reducesTo_S8192x8193_S8192_d1 h_S_) : (⟨S8192x8193, .f32⟩ : BufTy).Contents (Elt F) → (⟨S_, .f32⟩ : BufTy).Contents (Elt F) → (⟨S8192, .f32⟩ : BufTy).Contents (Elt F)),
    nullary main_cst_5 (constant S_ .f32 0xFF800000#32),
    unary main_cst_5 main_v21 (broadcastInDim S8192 ![] bcast_S_S8192 : (⟨S_, .f32⟩ : BufTy).Contents (Elt F) → (⟨S8192, .f32⟩ : BufTy).Contents (Elt F)),
    binary main_v21 main_v20 main_v22 (maximumf : (⟨S8192, .f32⟩ : BufTy).Contents (Elt F) → (⟨S8192, .f32⟩ : BufTy).Contents (Elt F) → (⟨S8192, .f32⟩ : BufTy).Contents (Elt F)),
    unary main_v22 main_v23 (broadcastInDim S8192x1 ![0] bcast_S8192_S8192x1_0 : (⟨S8192, .f32⟩ : BufTy).Contents (Elt F) → (⟨S8192x1, .f32⟩ : BufTy).Contents (Elt F)),
    unary main_v23 main_v24 (broadcastInDim S8192x8193 ![0, 1] bcast_S8192x1_S8192x8193_0_1 : (⟨S8192x1, .f32⟩ : BufTy).Contents (Elt F) → (⟨S8192x8193, .f32⟩ : BufTy).Contents (Elt F)),
    binary main_v19 main_v24 main_v25 (subf : (⟨S8192x8193, .f32⟩ : BufTy).Contents (Elt F) → (⟨S8192x8193, .f32⟩ : BufTy).Contents (Elt F) → (⟨S8192x8193, .f32⟩ : BufTy).Contents (Elt F)),
    unary main_v25 main_v26 (Host.exp : (⟨S8192x8193, .f32⟩ : BufTy).Contents (Elt F) → (⟨S8192x8193, .f32⟩ : BufTy).Contents (Elt F)),
    nullary main_cst_6 (constant S_ .f32 0x00000000#32),
    binary main_v26 main_cst_6 main_v27 ((fun x v => Host.reduceAdd x v reducesTo_S8192x8193_S8192_d1 h_S_) : (⟨S8192x8193, .f32⟩ : BufTy).Contents (Elt F) → (⟨S_, .f32⟩ : BufTy).Contents (Elt F) → (⟨S8192, .f32⟩ : BufTy).Contents (Elt F)),
    unary main_v27 main_v28 (broadcastInDim S8192x1 ![0] bcast_S8192_S8192x1_0 : (⟨S8192, .f32⟩ : BufTy).Contents (Elt F) → (⟨S8192x1, .f32⟩ : BufTy).Contents (Elt F)),
    unary main_v28 main_v29 (broadcastInDim S8192x8193 ![0, 1] bcast_S8192x1_S8192x8193_0_1 : (⟨S8192x1, .f32⟩ : BufTy).Contents (Elt F) → (⟨S8192x8193, .f32⟩ : BufTy).Contents (Elt F)),
    binary main_v26 main_v29 main_v30 (Host.divf : (⟨S8192x8193, .f32⟩ : BufTy).Contents (Elt F) → (⟨S8192x8193, .f32⟩ : BufTy).Contents (Elt F) → (⟨S8192x8193, .f32⟩ : BufTy).Contents (Elt F)),
    binary main_v0 main_v14 main_v31 ((fun a b => concatenate S8193x256 0 [⟨S8192x256, a⟩, ⟨S1x256, b⟩] concatenates_S8192x256_S1x256_S8193x256_d0) : (⟨S8192x256, .f32⟩ : BufTy).Contents (Elt F) → (⟨S1x256, .f32⟩ : BufTy).Contents (Elt F) → (⟨S8193x256, .f32⟩ : BufTy).Contents (Elt F)),
    binary main_v30 main_v31 main_v32 ((fun l r => Host.dotGeneral dot_S8192x8193_S8193x256_S8192x256_1_0_0_1_n_n none l r) : (⟨S8192x8193, .f32⟩ : BufTy).Contents (Elt F) → (⟨S8193x256, .f32⟩ : BufTy).Contents (Elt F) → (⟨S8192x256, .f32⟩ : BufTy).Contents (Elt F)),
    TRef.nullary main_call3.cst (constant S_ .f32 0x00000000#32),
    TRef.unary main_call3.cst main_call3.v0 (broadcastInDim S8192x256 ![] bcast_S_S8192x256),
    TRef.binary (.of main_v32 : TRef sig ⟨S8192x256, .f32⟩) main_call3.v0 main_call3.v1 (cmpf .ogt),
    TRef.nullary main_call3.cst_0 (constant S_ .f32 0x00000000#32),
    TRef.unary main_call3.cst_0 main_call3.v2 (broadcastInDim S8192x256 ![] bcast_S_S8192x256),
    TRef.binary (.of main_v32 : TRef sig ⟨S8192x256, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S8192x256 ![] bcast_S_S8192x256),
    TRef.ternary main_call3.v3 main_call3.call0.v1 (.of main_v32 : TRef sig ⟨S8192x256, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S8192x256 ![] bcast_S_S8192x256),
    TRef.binary main_call3.v6 main_call3.v5 main_call3.v7 mulf,
    TRef.ternary main_call3.v1 (.of main_v32 : TRef sig ⟨S8192x256, .f32⟩) main_call3.v7 main_call3.call1.v0 select ]

set_option maxRecDepth 8192 in
/-- @main is that straight line: with each function's definition unfolded at its call and each record at its fields,
    both sides are the same chain of steps (sequencing a call's steps and then the rest is, by computation, sequencing
    them all). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., binary_bufs_sub .., unary_bufs_sub .., nullary_bufs_sub .., unary_bufs_sub .., binary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-! ## The line in five pieces

The line is cut so that each concatenate is the first operation of its piece: the two arrays it joins are then among
the piece's starting contents. For each piece: what the buffers still needed later hold after it, given what they held
before it. -/

/-- Operations 1–21: the projections, the pairwise scores, the first leaky-relu, the mask and its fill. -/
abbrev opsA : List (HloOp τ sig (Elt F)) :=
  [ binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_v0 main_arg3 main_v1 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    binary main_v0 main_arg4 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v1 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v6 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v6 : TRef sig ⟨S8192x8192, .f32⟩) main_call0.v4 mulf,
    TRef.ternary main_call0.v1 (.of main_v6 : TRef sig ⟨S8192x8192, .f32⟩) main_call0.v4 main_call0.call0.v0 select,
    nullary main_c (constantI S_ 32 0#32),
    unary main_c main_v8 (broadcastInDim S8192x8192 ![] bcast_S_S8192x8192 : (⟨S_, .i32⟩ : BufTy).Contents (Elt F) → (⟨S8192x8192, .i32⟩ : BufTy).Contents (Elt F)),
    binary main_arg1 main_v8 main_v9 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0 : TRef sig ⟨S_, .f32⟩) main_call1.v0 (broadcastInDim S8192x8192 ![] bcast_S_S8192x8192),
    TRef.ternary (.of main_v9 : TRef sig ⟨S8192x8192, .i1⟩) (.of main_v7 : TRef sig ⟨S8192x8192, .f32⟩) main_call1.v0 main_call1.v1 select ]
/-- Operations 22–38: the column mean, its score, and the second leaky-relu. -/
abbrev opsB : List (HloOp τ sig (Elt F)) :=
  [ nullary main_cst_1 (constant S_ .f32 0x00000000#32),
    binary main_v0 main_cst_1 main_v11 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    unary main_v11 main_v12 (broadcastInDim S1x256 ![1] bcast_S256_S1x256_1 : (⟨S256, .f32⟩ : BufTy).Contents (Elt F) → (⟨S1x256, .f32⟩ : BufTy).Contents (Elt F)),
    nullary main_cst_2 (constant S_ .f32 0x46000000#32),
    unary main_cst_2 main_v13 (broadcastInDim S1x256 ![] bcast_S_S1x256 : (⟨S_, .f32⟩ : BufTy).Contents (Elt F) → (⟨S1x256, .f32⟩ : BufTy).Contents (Elt F)),
    binary main_v12 main_v13 main_v14 (Host.divf : (⟨S1x256, .f32⟩ : BufTy).Contents (Elt F) → (⟨S1x256, .f32⟩ : BufTy).Contents (Elt F) → (⟨S1x256, .f32⟩ : BufTy).Contents (Elt F)),
    binary main_v14 main_arg4 main_v15 ((fun l r => Host.dotGeneral dot_S1x256_S256x1_S1x1_1_0_0_1_n_n none l r) : (⟨S1x256, .f32⟩ : BufTy).Contents (Elt F) → (⟨S256x1, .f32⟩ : BufTy).Contents (Elt F) → (⟨S1x1, .f32⟩ : BufTy).Contents (Elt F)),
    unary main_v15 main_v16 (broadcastInDim S8192x1 ![0, 1] bcast_S1x1_S8192x1_0_1 : (⟨S1x1, .f32⟩ : BufTy).Contents (Elt F) → (⟨S8192x1, .f32⟩ : BufTy).Contents (Elt F)),
    binary main_v1 main_v16 main_v17 (addf : (⟨S8192x1, .f32⟩ : BufTy).Contents (Elt F) → (⟨S8192x1, .f32⟩ : BufTy).Contents (Elt F) → (⟨S8192x1, .f32⟩ : BufTy).Contents (Elt F)),
    nullary main_cst_3 (constant S_ .f32 0x3E4CCCCD#32),
    TRef.nullary main_call2.cst (constant S_ .f32 0x00000000#32),
    TRef.unary main_call2.cst main_call2.v0 (broadcastInDim S8192x1 ![] bcast_S_S8192x1),
    TRef.binary (.of main_v17 : TRef sig ⟨S8192x1, .f32⟩) main_call2.v0 main_call2.v1 (cmpf .oge),
    TRef.unary (.of main_cst_3 : TRef sig ⟨S_, .f32⟩) main_call2.v2 id,
    TRef.unary main_call2.v2 main_call2.v3 (broadcastInDim S8192x1 ![] bcast_S_S8192x1),
    TRef.binary main_call2.v3 (.of main_v17 : TRef sig ⟨S8192x1, .f32⟩) main_call2.v4 mulf,
    TRef.ternary main_call2.v1 (.of main_v17 : TRef sig ⟨S8192x1, .f32⟩) main_call2.v4 main_call2.call0.v0 select ]
/-- Operations 39–53: the rows joined with the extra column, and their softmax. -/
abbrev opsC : List (HloOp τ sig (Elt F)) :=
  [ binary main_v10 main_v18 main_v19 ((fun a b => concatenate S8192x8193 1 [⟨S8192x8192, a⟩, ⟨S8192x1, b⟩] concatenates_S8192x8192_S8192x1_S8192x8193_d1) : (⟨S8192x8192, .f32⟩ : BufTy).Contents (Elt F) → (⟨S8192x1, .f32⟩ : BufTy).Contents (Elt F) → (⟨S8192x8193, .f32⟩ : BufTy).Contents (Elt F)),
    nullary main_cst_4 (constant S_ .f32 0xFF800000#32),
    binary main_v19 main_cst_4 main_v20 ((fun x v => Host.reduce FloatOps.maximumf x v reducesTo_S8192x8193_S8192_d1 h_S_) : (⟨S8192x8193, .f32⟩ : BufTy).Contents (Elt F) → (⟨S_, .f32⟩ : BufTy).Contents (Elt F) → (⟨S8192, .f32⟩ : BufTy).Contents (Elt F)),
    nullary main_cst_5 (constant S_ .f32 0xFF800000#32),
    unary main_cst_5 main_v21 (broadcastInDim S8192 ![] bcast_S_S8192 : (⟨S_, .f32⟩ : BufTy).Contents (Elt F) → (⟨S8192, .f32⟩ : BufTy).Contents (Elt F)),
    binary main_v21 main_v20 main_v22 (maximumf : (⟨S8192, .f32⟩ : BufTy).Contents (Elt F) → (⟨S8192, .f32⟩ : BufTy).Contents (Elt F) → (⟨S8192, .f32⟩ : BufTy).Contents (Elt F)),
    unary main_v22 main_v23 (broadcastInDim S8192x1 ![0] bcast_S8192_S8192x1_0 : (⟨S8192, .f32⟩ : BufTy).Contents (Elt F) → (⟨S8192x1, .f32⟩ : BufTy).Contents (Elt F)),
    unary main_v23 main_v24 (broadcastInDim S8192x8193 ![0, 1] bcast_S8192x1_S8192x8193_0_1 : (⟨S8192x1, .f32⟩ : BufTy).Contents (Elt F) → (⟨S8192x8193, .f32⟩ : BufTy).Contents (Elt F)),
    binary main_v19 main_v24 main_v25 (subf : (⟨S8192x8193, .f32⟩ : BufTy).Contents (Elt F) → (⟨S8192x8193, .f32⟩ : BufTy).Contents (Elt F) → (⟨S8192x8193, .f32⟩ : BufTy).Contents (Elt F)),
    unary main_v25 main_v26 (Host.exp : (⟨S8192x8193, .f32⟩ : BufTy).Contents (Elt F) → (⟨S8192x8193, .f32⟩ : BufTy).Contents (Elt F)),
    nullary main_cst_6 (constant S_ .f32 0x00000000#32),
    binary main_v26 main_cst_6 main_v27 ((fun x v => Host.reduceAdd x v reducesTo_S8192x8193_S8192_d1 h_S_) : (⟨S8192x8193, .f32⟩ : BufTy).Contents (Elt F) → (⟨S_, .f32⟩ : BufTy).Contents (Elt F) → (⟨S8192, .f32⟩ : BufTy).Contents (Elt F)),
    unary main_v27 main_v28 (broadcastInDim S8192x1 ![0] bcast_S8192_S8192x1_0 : (⟨S8192, .f32⟩ : BufTy).Contents (Elt F) → (⟨S8192x1, .f32⟩ : BufTy).Contents (Elt F)),
    unary main_v28 main_v29 (broadcastInDim S8192x8193 ![0, 1] bcast_S8192x1_S8192x8193_0_1 : (⟨S8192x1, .f32⟩ : BufTy).Contents (Elt F) → (⟨S8192x8193, .f32⟩ : BufTy).Contents (Elt F)),
    binary main_v26 main_v29 main_v30 (Host.divf : (⟨S8192x8193, .f32⟩ : BufTy).Contents (Elt F) → (⟨S8192x8193, .f32⟩ : BufTy).Contents (Elt F) → (⟨S8192x8193, .f32⟩ : BufTy).Contents (Elt F)) ]
/-- Operations 54–55: the values joined with the mean row, and the product with the weights. -/
abbrev opsE : List (HloOp τ sig (Elt F)) :=
  [ binary main_v0 main_v14 main_v31 ((fun a b => concatenate S8193x256 0 [⟨S8192x256, a⟩, ⟨S1x256, b⟩] concatenates_S8192x256_S1x256_S8193x256_d0) : (⟨S8192x256, .f32⟩ : BufTy).Contents (Elt F) → (⟨S1x256, .f32⟩ : BufTy).Contents (Elt F) → (⟨S8193x256, .f32⟩ : BufTy).Contents (Elt F)),
    binary main_v30 main_v31 main_v32 ((fun l r => Host.dotGeneral dot_S8192x8193_S8193x256_S8192x256_1_0_0_1_n_n none l r) : (⟨S8192x8193, .f32⟩ : BufTy).Contents (Elt F) → (⟨S8193x256, .f32⟩ : BufTy).Contents (Elt F) → (⟨S8192x256, .f32⟩ : BufTy).Contents (Elt F)) ]
/-- Operations 56–70: elu. -/
abbrev opsD : List (HloOp τ sig (Elt F)) :=
  [ TRef.nullary main_call3.cst (constant S_ .f32 0x00000000#32),
    TRef.unary main_call3.cst main_call3.v0 (broadcastInDim S8192x256 ![] bcast_S_S8192x256),
    TRef.binary (.of main_v32 : TRef sig ⟨S8192x256, .f32⟩) main_call3.v0 main_call3.v1 (cmpf .ogt),
    TRef.nullary main_call3.cst_0 (constant S_ .f32 0x00000000#32),
    TRef.unary main_call3.cst_0 main_call3.v2 (broadcastInDim S8192x256 ![] bcast_S_S8192x256),
    TRef.binary (.of main_v32 : TRef sig ⟨S8192x256, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S8192x256 ![] bcast_S_S8192x256),
    TRef.ternary main_call3.v3 main_call3.call0.v1 (.of main_v32 : TRef sig ⟨S8192x256, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S8192x256 ![] bcast_S_S8192x256),
    TRef.binary main_call3.v6 main_call3.v5 main_call3.v7 mulf,
    TRef.ternary main_call3.v1 (.of main_v32 : TRef sig ⟨S8192x256, .f32⟩) main_call3.v7 main_call3.call1.v0 select ]

/-- The line is its five pieces in order. -/
theorem ops_split : (ops : List (HloOp τ sig (Elt F))) = opsA ++ (opsB ++ (opsC ++ (opsE ++ opsD))) := rfl

/-- Running two lines one after the other from contents `V` is running the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
/-- After the first piece: %0, %1 and %10 are their terms of the arguments, and the last argument is untouched. -/
theorem segA (W : Valuation τ sig (Elt F)) (x : FVec F S8192x512 .f32) (adj : IVec S8192x8192 32) (w : FVec F S512x256 .f32) (a1 a2 : FVec F S256x1 .f32)
    (hx : W (main_arg0 : DevRef τ sig) = x) (hadj : W (main_arg1 : DevRef τ sig) = adj) (hw : W (main_arg2 : DevRef τ sig) = w)
    (ha1 : W (main_arg3 : DevRef τ sig) = a1) (ha2 : W (main_arg4 : DevRef τ sig) = a2) :
    after opsA W (main_v0 : DevRef τ sig) = t_v0 x adj w a1 a2 ∧ after opsA W (main_v1 : DevRef τ sig) = t_v1 x adj w a1 a2
      ∧ after opsA W (main_v10 : DevRef τ sig) = t_v10 x adj w a1 a2 ∧ after opsA W (main_arg4 : DevRef τ sig) = a2 := by
  subst hx hadj hw ha1 ha2
  refine ⟨?_, ?_, ?_, ?_⟩
  · after_results_simp; rfl
  · after_results_simp; rfl
  · after_results_simp; rfl
  · after_results_simp

set_option maxRecDepth 8192 in
/-- After the second piece: %14 and %18 are their terms; %0 and %10 are untouched. -/
theorem segB (W : Valuation τ sig (Elt F)) (x : FVec F S8192x512 .f32) (adj : IVec S8192x8192 32) (w : FVec F S512x256 .f32) (a1 a2 : FVec F S256x1 .f32)
    (h0 : W (main_v0 : DevRef τ sig) = t_v0 x adj w a1 a2) (h1 : W (main_v1 : DevRef τ sig) = t_v1 x adj w a1 a2)
    (h10 : W (main_v10 : DevRef τ sig) = t_v10 x adj w a1 a2) (ha2 : W (main_arg4 : DevRef τ sig) = a2) :
    after opsB W (main_v0 : DevRef τ sig) = t_v0 x adj w a1 a2 ∧ after opsB W (main_v10 : DevRef τ sig) = t_v10 x adj w a1 a2
      ∧ after opsB W (main_v14 : DevRef τ sig) = t_v14 x adj w a1 a2 ∧ after opsB W (main_v18 : DevRef τ sig) = t_v18 x adj w a1 a2 := by
  refine ⟨?_, ?_, ?_, ?_⟩
  · after_results_simp; exact h0
  · after_results_simp; exact h10
  · after_results_simp; rw [h0]; rfl
  · after_results_simp; rw [h0, h1, ha2]; rfl

set_option maxRecDepth 8192 in
/-- After the third piece: %30 is its term; %0 and %14 are untouched. -/
theorem segC (W : Valuation τ sig (Elt F)) (x : FVec F S8192x512 .f32) (adj : IVec S8192x8192 32) (w : FVec F S512x256 .f32) (a1 a2 : FVec F S256x1 .f32)
    (h0 : W (main_v0 : DevRef τ sig) = t_v0 x adj w a1 a2) (h10 : W (main_v10 : DevRef τ sig) = t_v10 x adj w a1 a2)
    (h14 : W (main_v14 : DevRef τ sig) = t_v14 x adj w a1 a2) (h18 : W (main_v18 : DevRef τ sig) = t_v18 x adj w a1 a2) :
    after opsC W (main_v0 : DevRef τ sig) = t_v0 x adj w a1 a2 ∧ after opsC W (main_v14 : DevRef τ sig) = t_v14 x adj w a1 a2
      ∧ after opsC W (main_v30 : DevRef τ sig) = t_v30 x adj w a1 a2 := by
  refine ⟨?_, ?_, ?_⟩
  · after_results_simp; exact h0
  · after_results_simp; exact h14
  · after_results_simp; rw [h10, h18]; rfl

set_option maxRecDepth 8192 in
/-- After the fourth piece: %32 is its term. -/
theorem segE (W : Valuation τ sig (Elt F)) (x : FVec F S8192x512 .f32) (adj : IVec S8192x8192 32) (w : FVec F S512x256 .f32) (a1 a2 : FVec F S256x1 .f32)
    (h0 : W (main_v0 : DevRef τ sig) = t_v0 x adj w a1 a2) (h14 : W (main_v14 : DevRef τ sig) = t_v14 x adj w a1 a2)
    (h30 : W (main_v30 : DevRef τ sig) = t_v30 x adj w a1 a2) :
    after opsE W (main_v32 : DevRef τ sig) = t_v32 x adj w a1 a2 := by
  after_results_simp; rw [h0, h14, h30]; rfl

set_option maxRecDepth 8192 in
/-- After the last piece: the result is the reference's term. -/
theorem segD (W : Valuation τ sig (Elt F)) (x : FVec F S8192x512 .f32) (adj : IVec S8192x8192 32) (w : FVec F S512x256 .f32) (a1 a2 : FVec F S256x1 .f32)
    (h32 : W (main_v32 : DevRef τ sig) = t_v32 x adj w a1 a2) :
    after opsD W (main_v33 : DevRef τ sig) = refTerm x adj w a1 a2 := by
  after_results_simp; rw [h32]; rfl

/-- The result buffer after the whole line holds the reference's term of the five arguments' starting contents: piece
    by piece, each piece's hypotheses the conclusions of the one before. -/
theorem out_eq (V : Valuation τ sig (Elt F)) :
    after ops V (main_v33 : DevRef τ sig) = refTerm (V (main_arg0 : DevRef τ sig)) (V (main_arg1 : DevRef τ sig)) (V (main_arg2 : DevRef τ sig)) (V (main_arg3 : DevRef τ sig)) (V (main_arg4 : DevRef τ sig)) := by
  rw [ops_split, after_app, after_app, after_app, after_app]
  obtain ⟨hA0, hA1, hA10, hA4⟩ := segA V (V (main_arg0 : DevRef τ sig)) (V (main_arg1 : DevRef τ sig)) (V (main_arg2 : DevRef τ sig)) (V (main_arg3 : DevRef τ sig)) (V (main_arg4 : DevRef τ sig)) rfl rfl rfl rfl rfl
  obtain ⟨hB0, hB10, hB14, hB18⟩ := segB (after opsA V) (V (main_arg0 : DevRef τ sig)) (V (main_arg1 : DevRef τ sig)) (V (main_arg2 : DevRef τ sig)) (V (main_arg3 : DevRef τ sig)) (V (main_arg4 : DevRef τ sig)) hA0 hA1 hA10 hA4
  obtain ⟨hC0, hC14, hC30⟩ := segC (after opsB (after opsA V)) (V (main_arg0 : DevRef τ sig)) (V (main_arg1 : DevRef τ sig)) (V (main_arg2 : DevRef τ sig)) (V (main_arg3 : DevRef τ sig)) (V (main_arg4 : DevRef τ sig)) hB0 hB10 hB14 hB18
  exact segD _ (V (main_arg0 : DevRef τ sig)) (V (main_arg1 : DevRef τ sig)) (V (main_arg2 : DevRef τ sig)) (V (main_arg3 : DevRef τ sig)) (V (main_arg4 : DevRef τ sig)) (segE _ (V (main_arg0 : DevRef τ sig)) (V (main_arg1 : DevRef τ sig)) (V (main_arg2 : DevRef τ sig)) (V (main_arg3 : DevRef τ sig)) (V (main_arg4 : DevRef τ sig)) hC0 hC14 hC30)

set_option maxRecDepth 8192 in
/-- No operation writes argument 0's buffer. -/
theorem arg0_eq (V : Valuation τ sig (Elt F)) :
    after ops V (main_arg0 : DevRef τ sig) = V (main_arg0 : DevRef τ sig) := by
  after_results_simp

set_option maxRecDepth 8192 in
/-- No operation writes argument 1's buffer. -/
theorem arg1_eq (V : Valuation τ sig (Elt F)) :
    after ops V (main_arg1 : DevRef τ sig) = V (main_arg1 : DevRef τ sig) := by
  after_results_simp

set_option maxRecDepth 8192 in
/-- No operation writes argument 2's buffer. -/
theorem arg2_eq (V : Valuation τ sig (Elt F)) :
    after ops V (main_arg2 : DevRef τ sig) = V (main_arg2 : DevRef τ sig) := by
  after_results_simp

set_option maxRecDepth 8192 in
/-- No operation writes argument 3's buffer. -/
theorem arg3_eq (V : Valuation τ sig (Elt F)) :
    after ops V (main_arg3 : DevRef τ sig) = V (main_arg3 : DevRef τ sig) := by
  after_results_simp

set_option maxRecDepth 8192 in
/-- No operation writes argument 4's buffer. -/
theorem arg4_eq (V : Valuation τ sig (Elt F)) :
    after ops V (main_arg4 : DevRef τ sig) = V (main_arg4 : DevRef τ sig) := by
  after_results_simp

/-- On every device, for any float values, from any memory with zero counters: every weakly fair execution of @main
    terminates with the result buffer at the reference's term of the arguments' launch contents, and the five
    argument buffers unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v33).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.Hand

end
-- ==== Proof.RefVal.lean ====
/-
  The reference's result, read at an index, is the specification's one-pass function.

  Each value of the reference is read at explicit coordinates and identified with the function of the specification that
  it is: the product h = x·W with the double sum hh, the two logit columns with l1 and l2, the masked scores with sR,
  the column mean with meanR, the virtual key's score with globR, the 8193-wide score rows with eAll, their maximum,
  exponentials, sum and quotient with maxR, pR, sumR and attR, the 8193 value rows with hAll, the weighted average with
  avgR, and elu of it with outR. Every step is one operation read at an index: a matrix product is the sum over the
  contracted coordinate of the products of the entries, a broadcast reads its operand at the coordinates it keeps, a
  concatenation reads the piece its coordinate falls in, a reduction over one axis is the sum (or the maximum) over that
  axis's coordinates, and the pointwise operations act on the entries.
-/
import proofs.«430248_j1580547967873_3_alg».proof.Proof.RefTerm
import proofs.«430248_j1580547967873_3_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws

noncomputable section

namespace Cert.ReferenceIdeal.Hand

open Cert.ReferenceIdeal Idealize.ShloMosaic Idealize.ShloMosaic.ValueIdx Cert.ReferenceIdeal.Facts₀
open scoped BigOperators

/-! ## The arguments as functions of coordinates -/

/-- x as a function of (row, feature). -/
abbrev argX (x : FVec Ideal S8192x512 .f32) : Fin 8192 → Fin 512 → EReal := fun i k => x (ix2 i k)
/-- The adjacency mask as one bit per pair: the signed comparison of the entry with zero. -/
abbrev argM (adj : IVec S8192x8192 32) : Fin 8192 → Fin 8192 → BitVec 1 := fun i j => IntOp.cmpi .sgt (adj (ix2 i j)) 0#32
/-- W as a function of (feature, column). -/
abbrev argW (w : FVec Ideal S512x256 .f32) : Fin 512 → Fin 256 → EReal := fun k c => w (ix2 k c)
/-- A column vector [256, 1] as a function of its row. -/
abbrev argA (a : FVec Ideal S256x1 .f32) : Fin 256 → EReal := fun c => a (ix2 c 0)

/-! ## The four matrix products' dimension numbers are the plain ones -/

theorem dot0_eq_plain : dot_S8192x512_S512x256_S8192x256_1_0_0_1_n_n = DotDims.plain 8192 512 256 := rfl
theorem dot1_eq_plain : dot_S8192x256_S256x1_S8192x1_1_0_0_1_n_n = DotDims.plain 8192 256 1 := rfl
theorem dot2_eq_plain : dot_S1x256_S256x1_S1x1_1_0_0_1_n_n = DotDims.plain 1 256 1 := rfl
theorem dot3_eq_plain : dot_S8192x8193_S8193x256_S8192x256_1_0_0_1_n_n = DotDims.plain 8192 8193 256 := rfl

section
variable (x : FVec Ideal S8192x512 .f32) (adj : IVec S8192x8192 32) (w : FVec Ideal S512x256 .f32) (a1 a2 : FVec Ideal S256x1 .f32)

/-! ## h = x·W and the two logit columns -/

/-- h at (i, c) is the sum over the 512 features of x(i, k)·W(k, c). -/
theorem t_v0_apply (i : Fin 8192) (c : Fin 256) :
    t_v0 x adj w a1 a2 (ix2 i c) = GatSpec.hh (argX x) (argW w) i c := by
  unfold t_v0 GatSpec.hh
  rw [dot0_eq_plain]
  exact StackMember.dotGeneral_plain_apply none x w i c

/-- The first logit column at row i is the sum over the 256 columns of h(i, c)·a1(c). -/
theorem t_v1_apply (i : Fin 8192) :
    t_v1 x adj w a1 a2 (ix2 i 0) = GatSpec.l1 (argX x) (argW w) (argA a1) i := by
  unfold t_v1 GatSpec.l1
  rw [dot1_eq_plain]
  refine (StackMember.dotGeneral_plain_apply none (t_v0 x adj w a1 a2) a1 i 0).trans ?_
  exact Finset.sum_congr rfl fun c _ => by rw [t_v0_apply]

/-- The second logit column likewise with a2. -/
theorem t_v2_apply (i : Fin 8192) :
    t_v2 x adj w a1 a2 (ix2 i 0) = GatSpec.l2 (argX x) (argW w) (argA a2) i := by
  unfold t_v2 GatSpec.l2
  rw [dot1_eq_plain]
  refine (StackMember.dotGeneral_plain_apply none (t_v0 x adj w a1 a2) a2 i 0).trans ?_
  exact Finset.sum_congr rfl fun c _ => by rw [t_v0_apply]

end

section
variable (x : FVec Ideal S8192x512 .f32) (adj : IVec S8192x8192 32) (w : FVec Ideal S512x256 .f32) (a1 a2 : FVec Ideal S256x1 .f32)

/-! ## The pairwise sums, leaky-relu, and the masked scores -/

/-- The second logit column laid out as a row. -/
theorem t_v3_apply (j : Fin 8192) :
    t_v3 x adj w a1 a2 (ix2 0 j) = GatSpec.l2 (argX x) (argW w) (argA a2) j := by
  unfold t_v3
  rw [transpose_ix2_apply, t_v2_apply]

/-- The first logit column copied along every row. -/
theorem t_v4_apply (i j : Fin 8192) :
    t_v4 x adj w a1 a2 (ix2 i j) = GatSpec.l1 (argX x) (argW w) (argA a1) i := by
  unfold t_v4
  rw [broadcastInDim_apply _ _ _ (ix2 i j) (ix2 i 0) fun a => match a with | ⟨0, _⟩ => rfl | ⟨1, _⟩ => rfl, t_v1_apply]

/-- The second logit row copied down every column. -/
theorem t_v5_apply (i j : Fin 8192) :
    t_v5 x adj w a1 a2 (ix2 i j) = GatSpec.l2 (argX x) (argW w) (argA a2) j := by
  unfold t_v5
  rw [broadcastInDim_apply _ _ _ (ix2 i j) (ix2 0 j) fun a => match a with | ⟨0, _⟩ => rfl | ⟨1, _⟩ => rfl, t_v3_apply]

/-- The pairwise sum l1(i) + l2(j). -/
theorem t_v6_apply (i j : Fin 8192) :
    t_v6 x adj w a1 a2 (ix2 i j)
      = GatSpec.l1 (argX x) (argW w) (argA a1) i + GatSpec.l2 (argX x) (argW w) (argA a2) j := by
  unfold t_v6
  rw [addf_apply, t_v4_apply, t_v5_apply]

/-- The zero the sign is compared with. -/
theorem t_p0_apply (i j : Fin 8192) : t_p0 x adj w a1 a2 (ix2 i j) = 0 := by
  unfold t_p0
  rw [broadcastInDim_scalar_apply, constant_apply, Ideal.ofBits_zero_f32]

/-- The slope, copied everywhere. -/
theorem t_p3_apply (i j : Fin 8192) : t_p3 x adj w a1 a2 (ix2 i j) = GatSpec.alpha := by
  unfold t_p3 t_cst
  rw [broadcastInDim_scalar_apply]
  rfl

/-- Leaky-relu of the pairwise sum: the sum where it is at least zero, the slope times it elsewhere. -/
theorem t_v7_apply (i j : Fin 8192) :
    t_v7 x adj w a1 a2 (ix2 i j)
      = GatSpec.lreluR (GatSpec.l1 (argX x) (argW w) (argA a1) i + GatSpec.l2 (argX x) (argW w) (argA a2) j) := by
  unfold t_v7 t_p1 t_p4 GatSpec.lreluR
  rw [select_apply, cmpf_apply, mulf_apply, t_v6_apply, t_p0_apply, t_p3_apply]
  rfl

/-- The mask bit: the adjacency entry is greater than zero, as signed words. -/
theorem t_v9_apply (i j : Fin 8192) : t_v9 x adj w a1 a2 (ix2 i j) = argM adj i j := by
  unfold t_v9 t_v8
  show IntOp.cmpi .sgt (adj (ix2 i j)) _ = _
  rw [broadcastInDim_scalar_apply, constantI_apply]

/-- The fill value, copied everywhere. -/
theorem t_q0_apply (i j : Fin 8192) : t_q0 x adj w a1 a2 (ix2 i j) = GatSpec.negBig := by
  unfold t_q0
  rw [broadcastInDim_scalar_apply]
  rfl

/-- The masked score of the pair (i, j). -/
theorem t_v10_apply (i j : Fin 8192) :
    t_v10 x adj w a1 a2 (ix2 i j) = GatSpec.sR (argX x) (argM adj) (argW w) (argA a1) (argA a2) i j := by
  unfold t_v10 GatSpec.sR
  rw [select_apply, t_v9_apply, t_v7_apply, t_q0_apply]

end

/-! ## Reductions over one axis: the index with the reduced coordinate put back -/

theorem reduces_rows : S8192x256.Reduces [0] S256 := by decide
theorem reduces_keys : S8192x8193.Reduces [1] S8192 := by decide

/-- Column c of the [8192, 256] array with row k put back is (k, c). -/
theorem lift_rows (c : Fin 256) (k : Fin (S8192x256.size 0)) :
    reduces_rows.lift (ix1 c) k = ix2 (⟨k.val, k.isLt⟩ : Fin 8192) c := by
  funext a; apply Fin.ext
  fin_cases a <;> rfl

/-- Row i of the [8192, 8193] array with key k put back is (i, k). -/
theorem lift_keys (i : Fin 8192) (k : Fin (S8192x8193.size 1)) :
    reduces_keys.lift (ix1 i) k = ix2 i (⟨k.val, k.isLt⟩ : Fin 8193) := by
  funext a; apply Fin.ext
  fin_cases a <;> rfl

section
variable (x : FVec Ideal S8192x512 .f32) (adj : IVec S8192x8192 32) (w : FVec Ideal S512x256 .f32) (a1 a2 : FVec Ideal S256x1 .f32)

/-! ## The column mean of h, the virtual key's logit and score -/

/-- The column sums of h. -/
theorem t_v11_apply (c : Fin 256) :
    t_v11 x adj w a1 a2 (ix1 c) = ∑ i : Fin 8192, GatSpec.hh (argX x) (argW w) i c := by
  unfold t_v11
  rw [hostReduceAdd_apply, Ideal.hostReduceAdd_single _ reduces_rows, constant_apply, Ideal.ofBits_zero_f32, zero_add]
  exact Finset.sum_congr rfl fun k _ => by rw [lift_rows]; exact t_v0_apply x adj w a1 a2 _ c

/-- The column sums as a one-row matrix. -/
theorem t_v12_apply (c : Fin 256) :
    t_v12 x adj w a1 a2 (ix2 0 c) = ∑ i : Fin 8192, GatSpec.hh (argX x) (argW w) i c := by
  unfold t_v12
  rw [broadcastInDim_apply _ _ _ (ix2 0 c) (ix1 c) fun a => match a with | ⟨0, _⟩ => rfl, t_v11_apply]

/-- The row count, copied along the row. -/
theorem t_v13_apply (c : Fin 256) : t_v13 x adj w a1 a2 (ix2 0 c) = GatSpec.nRows := by
  unfold t_v13
  rw [broadcastInDim_scalar_apply]
  rfl

/-- The column mean: the column sum divided by the row count. -/
theorem t_v14_apply (c : Fin 256) : t_v14 x adj w a1 a2 (ix2 0 c) = GatSpec.meanR (argX x) (argW w) c := by
  unfold t_v14 GatSpec.meanR
  rw [hostDivf_apply, t_v12_apply, t_v13_apply]

/-- The virtual key's logit: the mean row times a2. -/
theorem t_v15_apply : t_v15 x adj w a1 a2 (ix2 0 0) = GatSpec.cR (argX x) (argW w) (argA a2) := by
  unfold t_v15 GatSpec.cR
  rw [dot2_eq_plain]
  refine (StackMember.dotGeneral_plain_apply none (t_v14 x adj w a1 a2) a2 0 0).trans ?_
  exact Finset.sum_congr rfl fun c _ => by rw [t_v14_apply]

/-- The virtual key's logit copied down the rows. -/
theorem t_v16_apply (i : Fin 8192) : t_v16 x adj w a1 a2 (ix2 i 0) = GatSpec.cR (argX x) (argW w) (argA a2) := by
  unfold t_v16
  rw [broadcastInDim_apply _ _ _ (ix2 i 0) (ix2 0 0) fun a => match a with | ⟨0, _⟩ => rfl | ⟨1, _⟩ => rfl, t_v15_apply]

/-- l1(i) plus the virtual key's logit. -/
theorem t_v17_apply (i : Fin 8192) :
    t_v17 x adj w a1 a2 (ix2 i 0)
      = GatSpec.l1 (argX x) (argW w) (argA a1) i + GatSpec.cR (argX x) (argW w) (argA a2) := by
  unfold t_v17
  rw [addf_apply, t_v1_apply, t_v16_apply]

theorem t_r0_apply (i : Fin 8192) : t_r0 x adj w a1 a2 (ix2 i 0) = 0 := by
  unfold t_r0
  rw [broadcastInDim_scalar_apply, constant_apply, Ideal.ofBits_zero_f32]

theorem t_r3_apply (i : Fin 8192) : t_r3 x adj w a1 a2 (ix2 i 0) = GatSpec.alpha := by
  unfold t_r3 t_cst_3
  rw [broadcastInDim_scalar_apply]
  rfl

/-- The virtual key's score in row i: leaky-relu of l1(i) plus its logit. -/
theorem t_v18_apply (i : Fin 8192) :
    t_v18 x adj w a1 a2 (ix2 i 0) = GatSpec.globR (argX x) (argW w) (argA a1) (argA a2) i := by
  unfold t_v18 t_r1 t_r4 GatSpec.globR GatSpec.lreluR
  rw [select_apply, cmpf_apply, mulf_apply, t_v17_apply, t_r0_apply, t_r3_apply]
  rfl

end

section
variable (x : FVec Ideal S8192x512 .f32) (adj : IVec S8192x8192 32) (w : FVec Ideal S512x256 .f32) (a1 a2 : FVec Ideal S256x1 .f32)

/-! ## The 8193 scores of a row and their softmax -/

/-- The scores of row i with the virtual key's appended: the masked score below 8192, the virtual key's at 8192. -/
theorem t_v19_apply (i : Fin 8192) (j : Fin 8193) :
    t_v19 x adj w a1 a2 (ix2 i j) = GatSpec.eAll (argX x) (argM adj) (argW w) (argA a1) (argA a2) i j := by
  unfold t_v19 GatSpec.eAll
  by_cases hj : j.val < 8192
  · rw [dif_pos hj,
      concatenate_pair_apply_left (s₁ := S8192x8192) (s₂ := S8192x1) _ _ _ _ (ix2 i j) rfl (ix2 i (⟨j.val, hj⟩ : Fin 8192))
        fun b => match b with | ⟨0, _⟩ => rfl | ⟨1, _⟩ => rfl,
      t_v10_apply]
  · rw [dif_neg hj,
      concatenate_pair_apply_right (s₁ := S8192x8192) (s₂ := S8192x1) _ _ _ _ (ix2 i j) rfl rfl (ix2 i (0 : Fin 1))
        (fun b hb => match b, hb with | ⟨0, _⟩, _ => rfl | ⟨1, _⟩, hb => (hb rfl).elim)
        (by have := j.isLt; show 0 + 8192 = j.val; omega),
      t_v18_apply]

/-- The maximum over the 8193 scores of row i, from minus infinity. -/
theorem t_v20_apply (i : Fin 8192) :
    t_v20 x adj w a1 a2 (ix1 i)
      = (Finset.univ : Finset (Fin 8193)).fold max GatSpec.negInf (GatSpec.eAll (argX x) (argM adj) (argW w) (argA a1) (argA a2) i) := by
  unfold t_v20
  rw [Host.reduce_eq_fold_single FloatOps.maximumf _ _ _ reduces_keys]
  have hf : (t_v19 x adj w a1 a2 ∘ reduces_keys.lift (ix1 i))
      = fun k : Fin 8193 => GatSpec.eAll (argX x) (argM adj) (argW w) (argA a1) (argA a2) i k :=
    funext fun k => by
      show t_v19 x adj w a1 a2 (reduces_keys.lift (ix1 i) k) = _
      rw [lift_keys]; exact t_v19_apply x adj w a1 a2 i _
  exact congrArg (fun f => Finset.fold max GatSpec.negInf f (Finset.univ : Finset (Fin 8193))) hf

theorem t_v21_apply (i : Fin 8192) : t_v21 x adj w a1 a2 (ix1 i) = GatSpec.negInf := by
  unfold t_v21
  rw [broadcastInDim_scalar_apply]
  rfl

/-- The row maximum. -/
theorem t_v22_apply (i : Fin 8192) :
    t_v22 x adj w a1 a2 (ix1 i) = GatSpec.maxR (argX x) (argM adj) (argW w) (argA a1) (argA a2) i := by
  unfold t_v22 GatSpec.maxR
  rw [maximumf_apply, t_v21_apply, t_v20_apply]

theorem t_v23_apply (i : Fin 8192) :
    t_v23 x adj w a1 a2 (ix2 i 0) = GatSpec.maxR (argX x) (argM adj) (argW w) (argA a1) (argA a2) i := by
  unfold t_v23
  rw [broadcastInDim_apply _ _ _ (ix2 i 0) (ix1 i) fun a => match a with | ⟨0, _⟩ => rfl, t_v22_apply]

/-- The row maximum copied along the row. -/
theorem t_v24_apply (i : Fin 8192) (j : Fin 8193) :
    t_v24 x adj w a1 a2 (ix2 i j) = GatSpec.maxR (argX x) (argM adj) (argW w) (argA a1) (argA a2) i := by
  unfold t_v24
  rw [broadcastInDim_apply _ _ _ (ix2 i j) (ix2 i 0) fun a => match a with | ⟨0, _⟩ => rfl | ⟨1, _⟩ => rfl, t_v23_apply]

theorem t_v25_apply (i : Fin 8192) (j : Fin 8193) :
    t_v25 x adj w a1 a2 (ix2 i j)
      = GatSpec.eAll (argX x) (argM adj) (argW w) (argA a1) (argA a2) i j
        - GatSpec.maxR (argX x) (argM adj) (argW w) (argA a1) (argA a2) i := by
  unfold t_v25
  rw [subf_apply, t_v19_apply, t_v24_apply]

/-- The exponential of the score less the row maximum. -/
theorem t_v26_apply (i : Fin 8192) (j : Fin 8193) :
    t_v26 x adj w a1 a2 (ix2 i j) = GatSpec.pR (argX x) (argM adj) (argW w) (argA a1) (argA a2) i j := by
  unfold t_v26 GatSpec.pR
  show FloatOps.hostUnary .exp (t_v25 x adj w a1 a2 (ix2 i j)) = _
  rw [Ideal.hostUnary_exp_def, t_v25_apply]

/-- The row's sum of exponentials. -/
theorem t_v27_apply (i : Fin 8192) :
    t_v27 x adj w a1 a2 (ix1 i) = GatSpec.sumR (argX x) (argM adj) (argW w) (argA a1) (argA a2) i := by
  unfold t_v27 GatSpec.sumR
  rw [hostReduceAdd_apply, Ideal.hostReduceAdd_single _ reduces_keys, constant_apply, Ideal.ofBits_zero_f32, zero_add]
  exact Finset.sum_congr rfl fun k _ => by rw [lift_keys]; exact t_v26_apply x adj w a1 a2 i _

theorem t_v28_apply (i : Fin 8192) :
    t_v28 x adj w a1 a2 (ix2 i 0) = GatSpec.sumR (argX x) (argM adj) (argW w) (argA a1) (argA a2) i := by
  unfold t_v28
  rw [broadcastInDim_apply _ _ _ (ix2 i 0) (ix1 i) fun a => match a with | ⟨0, _⟩ => rfl, t_v27_apply]

theorem t_v29_apply (i : Fin 8192) (j : Fin 8193) :
    t_v29 x adj w a1 a2 (ix2 i j) = GatSpec.sumR (argX x) (argM adj) (argW w) (argA a1) (argA a2) i := by
  unfold t_v29
  rw [broadcastInDim_apply _ _ _ (ix2 i j) (ix2 i 0) fun a => match a with | ⟨0, _⟩ => rfl | ⟨1, _⟩ => rfl, t_v28_apply]

/-- The softmax weight of key j in row i. -/
theorem t_v30_apply (i : Fin 8192) (j : Fin 8193) :
    t_v30 x adj w a1 a2 (ix2 i j) = GatSpec.attR (argX x) (argM adj) (argW w) (argA a1) (argA a2) i j := by
  unfold t_v30 GatSpec.attR
  rw [hostDivf_apply, t_v26_apply, t_v29_apply]

/-! ## The 8193 value rows, the weighted average, and elu -/

/-- The value rows: h's rows below 8192, the column mean at 8192. -/
theorem t_v31_apply (j : Fin 8193) (c : Fin 256) :
    t_v31 x adj w a1 a2 (ix2 j c) = GatSpec.hAll (argX x) (argW w) j c := by
  unfold t_v31 GatSpec.hAll
  by_cases hj : j.val < 8192
  · rw [dif_pos hj,
      concatenate_pair_apply_left (s₁ := S8192x256) (s₂ := S1x256) _ _ _ _ (ix2 j c) rfl (ix2 (⟨j.val, hj⟩ : Fin 8192) c)
        fun b => match b with | ⟨0, _⟩ => rfl | ⟨1, _⟩ => rfl,
      t_v0_apply]
  · rw [dif_neg hj,
      concatenate_pair_apply_right (s₁ := S8192x256) (s₂ := S1x256) _ _ _ _ (ix2 j c) rfl rfl (ix2 (0 : Fin 1) c)
        (fun b hb => match b, hb with | ⟨0, _⟩, hb => (hb rfl).elim | ⟨1, _⟩, _ => rfl)
        (by have := j.isLt; show 0 + 8192 = j.val; omega),
      t_v14_apply]

/-- The softmax-weighted average of the value rows. -/
theorem t_v32_apply (i : Fin 8192) (c : Fin 256) :
    t_v32 x adj w a1 a2 (ix2 i c) = GatSpec.avgR (argX x) (argM adj) (argW w) (argA a1) (argA a2) i c := by
  unfold t_v32 GatSpec.avgR
  rw [dot3_eq_plain]
  refine (StackMember.dotGeneral_plain_apply none (t_v30 x adj w a1 a2) (t_v31 x adj w a1 a2) i c).trans ?_
  exact Finset.sum_congr rfl fun j _ => by rw [t_v30_apply, t_v31_apply]

theorem t_e0_apply (i : Fin 8192) (c : Fin 256) : t_e0 x adj w a1 a2 (ix2 i c) = 0 := by
  unfold t_e0
  rw [broadcastInDim_scalar_apply, constant_apply, Ideal.ofBits_zero_f32]

/-- The sign test of elu: the average is greater than zero. -/
theorem t_e1_apply (i : Fin 8192) (c : Fin 256) :
    t_e1 x adj w a1 a2 (ix2 i c)
      = Ideal.cmp .ogt (GatSpec.avgR (argX x) (argM adj) (argW w) (argA a1) (argA a2) i c) 0 := by
  unfold t_e1
  rw [cmpf_apply, t_v32_apply, t_e0_apply]
  rfl

theorem t_e2_apply (i : Fin 8192) (c : Fin 256) : t_e2 x adj w a1 a2 (ix2 i c) = 0 := by
  unfold t_e2
  rw [broadcastInDim_scalar_apply, constant_apply, Ideal.ofBits_zero_f32]

theorem t_e3_apply (i : Fin 8192) (c : Fin 256) :
    t_e3 x adj w a1 a2 (ix2 i c)
      = Ideal.cmp .ogt (GatSpec.avgR (argX x) (argM adj) (argW w) (argA a1) (argA a2) i c) 0 := by
  unfold t_e3
  rw [cmpf_apply, t_v32_apply, t_e2_apply]
  rfl

theorem t_f1_apply (i : Fin 8192) (c : Fin 256) : t_f1 x adj w a1 a2 (ix2 i c) = 0 := by
  unfold t_f1
  rw [broadcastInDim_scalar_apply]
  exact Ideal.ofBits_zero_f32

/-- Zero where the average is positive, the average elsewhere: the argument of elu's exponential. -/
theorem t_e4_apply (i : Fin 8192) (c : Fin 256) :
    t_e4 x adj w a1 a2 (ix2 i c)
      = Scalar.select (Ideal.cmp .ogt (GatSpec.avgR (argX x) (argM adj) (argW w) (argA a1) (argA a2) i c) 0) 0
          (GatSpec.avgR (argX x) (argM adj) (argW w) (argA a1) (argA a2) i c) := by
  unfold t_e4
  rw [select_apply, t_e3_apply, t_f1_apply, t_v32_apply]

theorem t_e5_apply (i : Fin 8192) (c : Fin 256) :
    t_e5 x adj w a1 a2 (ix2 i c)
      = Ideal.exp (Scalar.select (Ideal.cmp .ogt (GatSpec.avgR (argX x) (argM adj) (argW w) (argA a1) (argA a2) i c) 0) 0
          (GatSpec.avgR (argX x) (argM adj) (argW w) (argA a1) (argA a2) i c)) - 1 := by
  unfold t_e5
  show FloatOps.hostUnary .expm1 (t_e4 x adj w a1 a2 (ix2 i c)) = _
  rw [Ideal.hostUnary_expm1_def, t_e4_apply]

theorem t_e6_apply (i : Fin 8192) (c : Fin 256) : t_e6 x adj w a1 a2 (ix2 i c) = GatSpec.oneF := by
  unfold t_e6
  rw [broadcastInDim_scalar_apply]
  rfl

theorem t_e7_apply (i : Fin 8192) (c : Fin 256) :
    t_e7 x adj w a1 a2 (ix2 i c)
      = GatSpec.oneF * (Ideal.exp (Scalar.select (Ideal.cmp .ogt (GatSpec.avgR (argX x) (argM adj) (argW w) (argA a1) (argA a2) i c) 0) 0
          (GatSpec.avgR (argX x) (argM adj) (argW w) (argA a1) (argA a2) i c)) - 1) := by
  unfold t_e7
  rw [mulf_apply, t_e6_apply, t_e5_apply]

/-- The reference's result at (i, c) is the one-pass function of the specification. -/
theorem refTerm_apply (i : Fin 8192) (c : Fin 256) :
    refTerm (F := Ideal) x adj w a1 a2 (ValueIdx.ix2 i c)
      = GatSpec.outR (fun i k => x (ValueIdx.ix2 i k)) (fun i j => IntOp.cmpi .sgt (adj (ValueIdx.ix2 i j)) 0#32)
          (fun k c => w (ValueIdx.ix2 k c)) (fun c => a1 (ValueIdx.ix2 c 0)) (fun c => a2 (ValueIdx.ix2 c 0)) i c := by
  unfold refTerm
  rw [select_apply, t_e1_apply, t_v32_apply, t_e7_apply]
  rfl

end

end Cert.ReferenceIdeal.Hand

end
-- ==== Proof.SoftmaxA.lean ====
/-
  The first part of the argument: the literals as extended reals; the closure of "is a real number" under the
  sums and products that build h, the logits, the mean and the scores; the reindexing of a sum over 8192 rows as
  a sum over tiles; and the agreement of the two spellings of the mean and of leaky-relu, hence of the scores.
-/
import proofs.«430248_j1580547967873_3_alg».proof.Proof.Spec
import Mathlib.Data.EReal.Basic
import Mathlib.Data.EReal.Operations
import Mathlib.Data.EReal.Inv
import Mathlib.Algebra.BigOperators.Fin
import Mathlib.Data.Fintype.BigOperators
import Mathlib.Data.Fintype.EquivFin
import Mathlib.Data.Finset.Fold
import Mathlib.Tactic.NormNum
import Mathlib.Tactic.Linarith
import Mathlib.Tactic.Ring

noncomputable section

namespace GatSpec

open Idealize.ShloMosaic

/-! ## The literals -/

/-- The all-ones exponent with the sign bit set and no fraction is minus infinity. -/
theorem negInf_eq : negInf = ⊥ := by
  simp [negInf, Ideal.ofBits, Ideal.ieee]

theorem oneF_eq : oneF = 1 := by
  simp [oneF, Ideal.ofBits, Ideal.ieee, -EReal.coe_mul]; norm_num

theorem oneB_eq : oneB = 1 := by
  simp [oneB, Ideal.ofBits, Ideal.ieee, -EReal.coe_mul]; norm_num

theorem invN_eq : invN = ((1 / 8192 : ℝ) : EReal) := by
  simp [invN, Ideal.ofBits, Ideal.ieee, -EReal.coe_mul]; norm_num

theorem nRows_eq : nRows = ((8192 : ℝ) : EReal) := by
  simp [nRows, Ideal.ofBits, Ideal.ieee, -EReal.coe_mul]; norm_num

/-- The slope is a real number strictly between 0 and 1 (it is 13421773 / 2^26). -/
theorem alpha_eq : ∃ a : ℝ, 0 < a ∧ a < 1 ∧ alpha = (a : EReal) := by
  refine ⟨13421773 * (2 ^ 26)⁻¹, by norm_num, by norm_num, ?_⟩
  simp [alpha, Ideal.ofBits, Ideal.ieee, -EReal.coe_mul]

/-- The fill value is a real number (it is -(16763806 · 2^29)). -/
theorem negBig_eq : ∃ b : ℝ, negBig = (b : EReal) := by
  refine ⟨-(16763806 * 2 ^ 29), ?_⟩
  simp [negBig, Ideal.ofBits, Ideal.ieee, -EReal.coe_mul]

/-! ## Coercion of reals and finite sums -/

/-- The coercion of reals commutes with finite sums (it is additive). -/
theorem coe_sum {ι : Type*} (t : Finset ι) (f : ι → ℝ) :
    ∑ j ∈ t, (f j : EReal) = ((∑ j ∈ t, f j : ℝ) : EReal) := by
  classical
  induction t using Finset.induction_on with
  | empty => simp
  | insert a t ha ih => rw [Finset.sum_insert ha, Finset.sum_insert ha, ih, EReal.coe_add]

/-- The coercion of reals commutes with the maximum (it is monotone). -/
theorem coe_max (a b : ℝ) : max (a : EReal) (b : EReal) = ((max a b : ℝ) : EReal) :=
  (EReal.coe_strictMono.monotone.map_max).symm

/-- An extended real that is a real number. -/
def IsR (z : EReal) : Prop := ∃ r : ℝ, z = (r : EReal)

theorem IsR.of_ne {z : EReal} (h : z ≠ ⊤ ∧ z ≠ ⊥) : IsR z :=
  ⟨z.toReal, (EReal.coe_toReal h.1 h.2).symm⟩

theorem IsR.coe (r : ℝ) : IsR (r : EReal) := ⟨r, rfl⟩

theorem IsR.add {a b : EReal} (ha : IsR a) (hb : IsR b) : IsR (a + b) := by
  obtain ⟨r, rfl⟩ := ha; obtain ⟨t, rfl⟩ := hb; exact ⟨r + t, (EReal.coe_add r t).symm⟩

theorem IsR.mul {a b : EReal} (ha : IsR a) (hb : IsR b) : IsR (a * b) := by
  obtain ⟨r, rfl⟩ := ha; obtain ⟨t, rfl⟩ := hb; exact ⟨r * t, (EReal.coe_mul r t).symm⟩

theorem IsR.sum {ι : Type*} (t : Finset ι) (f : ι → EReal) (h : ∀ j ∈ t, IsR (f j)) :
    IsR (∑ j ∈ t, f j) := by
  choose! g hg using h
  rw [Finset.sum_congr rfl hg, coe_sum]
  exact ⟨_, rfl⟩

/-- A select between two reals is a real. -/
theorem IsR.select (b : BitVec 1) {u v : EReal} (hu : IsR u) (hv : IsR v) : IsR (Scalar.select b u v) := by
  unfold Scalar.select
  split_ifs
  · exact hu
  · exact hv

/-! ## Sums over tiles -/

/-- Row r of tile q runs over every index exactly once: (q, r) ↦ 2048 q + r is a bijection onto the 8192 rows. -/
theorem sum_rows {M : Type*} [AddCommMonoid M] (f : Fin 8192 → M) :
    ∑ q : Fin 4, ∑ r : Fin 2048, f (row q r) = ∑ i, f i := by
  rw [← Fintype.sum_prod_type']
  refine Fintype.sum_bijective (fun p : Fin 4 × Fin 2048 => row p.1 p.2) ?_ _ _ (fun _ => rfl)
  rw [Fintype.bijective_iff_injective_and_card]
  refine ⟨?_, by simp⟩
  rintro ⟨q, r⟩ ⟨q', r'⟩ h
  have h' := congrArg Fin.val h
  simp only [row] at h'
  have hq : q = q' := Fin.ext (by omega)
  have hr : r = r' := Fin.ext (by omega)
  rw [hq, hr]

/-- Key j of tile k runs over every index exactly once: (k, j) ↦ 256 k + j is a bijection onto the 8192 keys. -/
theorem sum_keys {M : Type*} [AddCommMonoid M] (f : Fin 8192 → M) :
    ∑ k : Fin 32, ∑ j : Fin 256, f (key k j) = ∑ i, f i := by
  rw [← Fintype.sum_prod_type']
  refine Fintype.sum_bijective (fun p : Fin 32 × Fin 256 => key p.1 p.2) ?_ _ _ (fun _ => rfl)
  rw [Fintype.bijective_iff_injective_and_card]
  refine ⟨?_, by simp⟩
  rintro ⟨k, j⟩ ⟨k', j'⟩ h
  have h' := congrArg Fin.val h
  simp only [key] at h'
  have hk : k = k' := Fin.ext (by omega)
  have hj : j = j' := Fin.ext (by omega)
  rw [hk, hj]

section
variable (x : Fin 8192 → Fin 512 → EReal) (msk : Fin 8192 → Fin 8192 → BitVec 1)
  (W : Fin 512 → Fin 256 → EReal) (a1 a2 : Fin 256 → EReal)

/-! ## The two means agree -/

/-- The four tile sums add up to the sum over all rows, and a product with 2^-13 is a quotient by 8192. -/
theorem meanK_eq_meanR (c : Fin 256) : meanK x W c = meanR x W c := by
  rw [meanK, meanR, sum_rows (fun i => hh x W i c), nRows_eq, invN_eq,
    Ideal.div_coe (by norm_num : (8192 : ℝ) ≠ 0)]

theorem cK_eq_cR : cK x W a2 = cR x W a2 := by
  simp only [cK, cR, meanK_eq_meanR]

/-! ## The two leaky-relus agree on reals -/

/-- For a real v and a slope 0 < α < 1: if 0 ≤ v then α v ≤ v, so the maximum is v; otherwise v < α v, so the
    maximum is α v. These are the two branches of the select. -/
theorem lreluK_eq_lreluR (r : ℝ) : lreluK (r : EReal) = lreluR (r : EReal) := by
  obtain ⟨a, ha0, ha1, ha⟩ := alpha_eq
  rw [lreluK, lreluR, ha, ← EReal.coe_mul, coe_max]
  by_cases h : 0 ≤ r
  · have h' : (0 : EReal) ≤ (r : EReal) := EReal.coe_nonneg.mpr h
    have hm : max r (a * r) = r := max_eq_left (by nlinarith)
    simp [Ideal.cmp, Scalar.select, h', hm]
  · have h' : ¬ (0 : EReal) ≤ (r : EReal) := fun hh => h (EReal.coe_nonneg.mp hh)
    have hm : max r (a * r) = a * r := max_eq_right (by nlinarith)
    simp [Ideal.cmp, Scalar.select, h', hm]

theorem lreluK_isR (r : ℝ) : IsR (lreluK (r : EReal)) := by
  obtain ⟨a, _, _, ha⟩ := alpha_eq
  rw [lreluK, ha, ← EReal.coe_mul, coe_max]
  exact ⟨_, rfl⟩

section finite
variable (hx : ∀ i k, x i k ≠ ⊤ ∧ x i k ≠ ⊥) (hW : ∀ k c, W k c ≠ ⊤ ∧ W k c ≠ ⊥)
  (ha1 : ∀ c, a1 c ≠ ⊤ ∧ a1 c ≠ ⊥) (ha2 : ∀ c, a2 c ≠ ⊤ ∧ a2 c ≠ ⊥)
include hx hW

theorem hh_isR (i : Fin 8192) (c : Fin 256) : IsR (hh x W i c) :=
  IsR.sum _ _ (fun k _ => (IsR.of_ne (hx i k)).mul (IsR.of_ne (hW k c)))

theorem meanR_isR (c : Fin 256) : IsR (meanR x W c) := by
  rw [meanR, nRows_eq, Ideal.div_coe (by norm_num : (8192 : ℝ) ≠ 0)]
  exact (IsR.sum _ _ (fun i _ => hh_isR x W hx hW i c)).mul (IsR.coe _)

theorem meanK_isR (c : Fin 256) : IsR (meanK x W c) := by
  rw [meanK_eq_meanR]; exact meanR_isR x W hx hW c

include ha2

theorem l2_isR (j : Fin 8192) : IsR (l2 x W a2 j) :=
  IsR.sum _ _ (fun c _ => (hh_isR x W hx hW j c).mul (IsR.of_ne (ha2 c)))

theorem cR_isR : IsR (cR x W a2) :=
  IsR.sum _ _ (fun c _ => (meanR_isR x W hx hW c).mul (IsR.of_ne (ha2 c)))

include ha1

theorem l1_isR (i : Fin 8192) : IsR (l1 x W a1 i) :=
  IsR.sum _ _ (fun c _ => (hh_isR x W hx hW i c).mul (IsR.of_ne (ha1 c)))

/-- The virtual key's score is the same real on both sides. -/
theorem globK_eq_globR (i : Fin 8192) : globK x W a1 a2 i = globR x W a1 a2 i := by
  obtain ⟨r, hr⟩ := (l1_isR x W a1 a2 hx hW ha1 ha2 i).add (cR_isR x W a2 hx hW ha2)
  rw [globK, globR, cK_eq_cR, hr, lreluK_eq_lreluR]

theorem globK_isR (i : Fin 8192) : IsR (globK x W a1 a2 i) := by
  obtain ⟨r, hr⟩ := (l1_isR x W a1 a2 hx hW ha1 ha2 i).add (cR_isR x W a2 hx hW ha2)
  rw [globK, cK_eq_cR, hr]
  exact lreluK_isR r

/-- The masked scores are the same reals on both sides. -/
theorem sK_eq_sR (i j : Fin 8192) : sK x msk W a1 a2 i j = sR x msk W a1 a2 i j := by
  obtain ⟨r, hr⟩ := (l1_isR x W a1 a2 hx hW ha1 ha2 i).add (l2_isR x W a2 hx hW ha2 j)
  rw [sK, sR, hr, lreluK_eq_lreluR]

theorem sK_isR (i j : Fin 8192) : IsR (sK x msk W a1 a2 i j) := by
  obtain ⟨r, hr⟩ := (l1_isR x W a1 a2 hx hW ha1 ha2 i).add (l2_isR x W a2 hx hW ha2 j)
  obtain ⟨b, hb⟩ := negBig_eq
  rw [sK, hr, hb]
  exact IsR.select _ (lreluK_isR r) (IsR.coe b)

end finite

end

end GatSpec

end
-- ==== Proof.SoftmaxB.lean ====
/-
  The second part of the argument: the tiled (online) softmax. After n ≥ 1 key tiles the running state of a row is
  (m, e^{-m} Σ e^{s_j}, e^{-m} Σ e^{s_j} v_j) for some real m, the sums taken over the keys of the tiles seen so
  far. Which real m is does not matter: the factor e^{-m} cancels in the final quotient.
-/
import proofs.«430248_j1580547967873_3_alg».proof.Proof.SoftmaxA
import Mathlib.Analysis.SpecialFunctions.Exp
import Mathlib.Tactic.LinearCombination

noncomputable section

namespace GatSpec

open Idealize.ShloMosaic

/-- A maximum over a nonempty finite family of reals, started at ⊥, is a real. -/
theorem fold_max_isR {ι : Type*} (t : Finset ι) (ht : t.Nonempty) (f : ι → ℝ) :
    ∃ r : ℝ, t.fold max (⊥ : EReal) (fun j => (f j : EReal)) = (r : EReal) := by
  induction ht using Finset.Nonempty.cons_induction with
  | singleton a => exact ⟨f a, by rw [Finset.fold_singleton]; exact max_eq_left bot_le⟩
  | cons a t ha ht ih =>
    obtain ⟨r, hr⟩ := ih
    exact ⟨max (f a) r, by rw [Finset.fold_cons, hr, coe_max]⟩

/-- e^{a - m} = e^{-m} · e^{a}. -/
theorem exp_sub_eq (a m : ℝ) : Real.exp (a - m) = Real.exp (-m) * Real.exp a := by
  rw [← Real.exp_add]; congr 1; ring

section
variable (x : Fin 8192 → Fin 512 → EReal) (msk : Fin 8192 → Fin 8192 → BitVec 1)
  (W : Fin 512 → Fin 256 → EReal) (a1 a2 : Fin 256 → EReal)
  (i : Fin 8192) (s : Fin 8192 → ℝ) (v : Fin 8192 → Fin 256 → ℝ)
  (hs : ∀ j, sK x msk W a1 a2 i j = (s j : EReal)) (hv : ∀ j c, hh x W j c = (v j c : EReal))
include hs hv

theorem stepK_bot (k : Fin 32) : ∃ m' : ℝ, stepK x msk W a1 a2 i k (⊥, 0, fun _ => 0) =
    ((m' : EReal), ((∑ j : Fin 256, Real.exp (s (key k j) - m') : ℝ) : EReal),
      fun c => ((∑ j : Fin 256, Real.exp (s (key k j) - m') * v (key k j) c : ℝ) : EReal)) := by
  obtain ⟨r, hr⟩ := fold_max_isR (Finset.univ : Finset (Fin 256)) Finset.univ_nonempty (fun j => s (key k j))
  refine ⟨r, ?_⟩
  simp only [stepK, hs, hv, negInf_eq, hr, oneB_eq, mul_one, bot_sup_eq, EReal.bot_sub, Ideal.exp_bot,
    zero_mul, zero_add, ← EReal.coe_sub, Ideal.exp_coe, ← EReal.coe_mul, coe_sum]

theorem stepK_coe (k : Fin 32) (m L : ℝ) (A : Fin 256 → ℝ) :
    ∃ m' : ℝ, stepK x msk W a1 a2 i k ((m : EReal), (L : EReal), fun c => (A c : EReal)) =
    ((m' : EReal), ((Real.exp (m - m') * L + ∑ j : Fin 256, Real.exp (s (key k j) - m') : ℝ) : EReal),
      fun c => ((Real.exp (m - m') * A c + ∑ j : Fin 256, Real.exp (s (key k j) - m') * v (key k j) c : ℝ) : EReal)) := by
  obtain ⟨r, hr⟩ := fold_max_isR (Finset.univ : Finset (Fin 256)) Finset.univ_nonempty (fun j => s (key k j))
  refine ⟨max m r, ?_⟩
  simp only [stepK, hs, hv, negInf_eq, hr, oneB_eq, mul_one, coe_max,
    ← EReal.coe_sub, Ideal.exp_coe, ← EReal.coe_mul, coe_sum, ← EReal.coe_add]

end

/-- The sum of f over the keys of the first n tiles. -/
def tiles (f : Fin 8192 → ℝ) (n : ℕ) : ℝ :=
  ∑ k ∈ Finset.range n, if hk : k < 32 then ∑ j : Fin 256, f (key ⟨k, hk⟩ j) else 0

theorem tiles_zero (f : Fin 8192 → ℝ) : tiles f 0 = 0 := by simp [tiles]

theorem tiles_succ (f : Fin 8192 → ℝ) (n : ℕ) (hn : n < 32) :
    tiles f (n + 1) = tiles f n + ∑ j : Fin 256, f (key ⟨n, hn⟩ j) := by
  rw [tiles, Finset.sum_range_succ, dif_pos hn]; rfl

/-- All 32 tiles together are all 8192 keys. -/
theorem tiles_all (f : Fin 8192 → ℝ) : tiles f 32 = ∑ j, f j := by
  rw [← sum_keys f, tiles, ← Fin.sum_univ_eq_sum_range
    (fun k => if hk : k < 32 then ∑ j : Fin 256, f (key ⟨k, hk⟩ j) else 0) 32]
  exact Finset.sum_congr rfl (fun k _ => by rw [dif_pos k.isLt])

/-- Two states with the same maximum are equal once their real denominators and numerators are. -/
theorem triple_ext {m : EReal} {L L' : ℝ} {A A' : Fin 256 → ℝ} (hL : L = L') (hA : ∀ c, A c = A' c) :
    ((m, (L : EReal), fun c => (A c : EReal)) : EReal × EReal × (Fin 256 → EReal))
      = (m, (L' : EReal), fun c => (A' c : EReal)) := by
  rw [hL, funext hA]

section
variable (x : Fin 8192 → Fin 512 → EReal) (msk : Fin 8192 → Fin 8192 → BitVec 1)
  (W : Fin 512 → Fin 256 → EReal) (a1 a2 : Fin 256 → EReal) (i : Fin 8192)

theorem stK_zero : stK x msk W a1 a2 i 0 = (⊥, 0, fun _ => 0) := by rw [stK, negInf_eq]

theorem stK_succ (n : ℕ) (hn : n < 32) :
    stK x msk W a1 a2 i (n + 1) = stepK x msk W a1 a2 i ⟨n, hn⟩ (stK x msk W a1 a2 i n) := by
  rw [stK, dif_pos hn]

variable (s : Fin 8192 → ℝ) (v : Fin 8192 → Fin 256 → ℝ)
  (hs : ∀ j, sK x msk W a1 a2 i j = (s j : EReal)) (hv : ∀ j c, hh x W j c = (v j c : EReal))
include hs hv

/-- After n + 1 tiles the state is (m, e^{-m} Σ e^{s_j}, e^{-m} Σ e^{s_j} v_j) for some real m, the sums over the
    keys seen so far. The first tile starts from (⊥, 0, 0), where the rescaling factor e^{⊥ - m'} is 0; every later
    tile rescales by e^{m - m'}, and e^{m - m'} e^{-m} = e^{-m'}. -/
theorem stK_inv (n : ℕ) (hn : n < 32) : ∃ m : ℝ, stK x msk W a1 a2 i (n + 1) =
    ((m : EReal), ((Real.exp (-m) * tiles (fun j => Real.exp (s j)) (n + 1) : ℝ) : EReal),
      fun c => ((Real.exp (-m) * tiles (fun j => Real.exp (s j) * v j c) (n + 1) : ℝ) : EReal)) := by
  induction n with
  | zero =>
    obtain ⟨m', h⟩ := stepK_bot x msk W a1 a2 i s v hs hv ⟨0, hn⟩
    refine ⟨m', ?_⟩
    rw [stK_succ x msk W a1 a2 i 0 hn, stK_zero, h]
    refine triple_ext ?_ (fun c => ?_)
    · simp only [tiles_succ _ 0 hn, tiles_zero, zero_add, exp_sub_eq _ m', Finset.mul_sum]
    · simp only [tiles_succ _ 0 hn, tiles_zero, zero_add, exp_sub_eq _ m', Finset.mul_sum, mul_assoc]
  | succ n ih =>
    obtain ⟨m, hm⟩ := ih (by omega)
    obtain ⟨m', h⟩ := stepK_coe x msk W a1 a2 i s v hs hv ⟨n + 1, hn⟩ m
      (Real.exp (-m) * tiles (fun j => Real.exp (s j)) (n + 1))
      (fun c => Real.exp (-m) * tiles (fun j => Real.exp (s j) * v j c) (n + 1))
    refine ⟨m', ?_⟩
    rw [stK_succ x msk W a1 a2 i (n + 1) hn, hm, h]
    have e1 : Real.exp m * Real.exp (-m) = 1 := by
      rw [← Real.exp_add, add_neg_cancel, Real.exp_zero]
    refine triple_ext ?_ (fun c => ?_)
    · rw [tiles_succ _ (n + 1) hn]
      simp only [exp_sub_eq _ m', ← Finset.mul_sum]
      linear_combination (Real.exp (-m') * tiles (fun j => Real.exp (s j)) (n + 1)) * e1
    · rw [tiles_succ _ (n + 1) hn]
      simp only [exp_sub_eq _ m', mul_assoc, ← Finset.mul_sum]
      linear_combination (Real.exp (-m') * tiles (fun j => Real.exp (s j) * v j c) (n + 1)) * e1

/-- After all 32 tiles. -/
theorem stK_final : ∃ m : ℝ, stK x msk W a1 a2 i 32 =
    ((m : EReal), ((Real.exp (-m) * ∑ j, Real.exp (s j) : ℝ) : EReal),
      fun c => ((Real.exp (-m) * ∑ j, Real.exp (s j) * v j c : ℝ) : EReal)) := by
  obtain ⟨m, hm⟩ := stK_inv x msk W a1 a2 i s v hs hv 31 (by norm_num)
  refine ⟨m, ?_⟩
  simp only [Nat.reduceAdd] at hm
  rw [hm]
  simp only [tiles_all]

end

end GatSpec

end
-- ==== Proof.Softmax.lean ====
/-
  The tiled softmax equals the one-pass softmax. Both quotients are the same real
  (Σ_j e^{s_j} v_j + e^{g} μ) / (Σ_j e^{s_j} + e^{g}): on the one-pass side because softmax weights do not depend on
  the shift subtracted in the exponent, on the tiled side because the running state carries the unshifted sums times
  e^{-m}, and folding in the virtual key turns that factor into e^{-mf}, which cancels. The two spellings of elu
  agree at a real.
-/
import proofs.«430248_j1580547967873_3_alg».proof.Proof.SoftmaxB

noncomputable section

namespace GatSpec

open Idealize.ShloMosaic

/-! ## Real identities -/

/-- Softmax weights do not depend on the shift:
    Σ_j (e^{e_j - M} / Σ_k e^{e_k - M}) w_j = (Σ_j e^{e_j} w_j) / (Σ_j e^{e_j}), since e^{e_j - M} = e^{-M} e^{e_j}. -/
theorem softmax_shift {ι : Type*} [Fintype ι] (e w : ι → ℝ) (M : ℝ) :
    ∑ j, Real.exp (e j - M) / (∑ k, Real.exp (e k - M)) * w j
      = (∑ j, Real.exp (e j) * w j) / (∑ j, Real.exp (e j)) := by
  simp only [exp_sub_eq _ M, ← Finset.mul_sum, mul_div_mul_left _ _ (Real.exp_pos (-M)).ne',
    div_mul_eq_mul_div, ← Finset.sum_div]

/-- Folding the virtual key into the tiled state: with e^{m - mf} e^{-m} = e^{-mf} and e^{g - mf} = e^{-mf} e^{g},
    numerator and denominator are e^{-mf} times the unshifted sums, and the positive factor cancels. -/
theorem merge_ratio (m g mf SE SEV mu : ℝ) :
    (Real.exp (m - mf) * (Real.exp (-m) * SEV) + Real.exp (g - mf) * mu)
        / (Real.exp (m - mf) * (Real.exp (-m) * SE) + Real.exp (g - mf))
      = (SEV + Real.exp g * mu) / (SE + Real.exp g) := by
  have e1 : Real.exp (m - mf) * Real.exp (-m) = Real.exp (-mf) := by
    rw [← Real.exp_add]; congr 1; ring
  have e2 : Real.exp (g - mf) = Real.exp (-mf) * Real.exp g := exp_sub_eq g mf
  have num : Real.exp (m - mf) * (Real.exp (-m) * SEV) + Real.exp (g - mf) * mu
      = Real.exp (-mf) * (SEV + Real.exp g * mu) := by
    rw [e2, ← mul_assoc, e1]; ring
  have den : Real.exp (m - mf) * (Real.exp (-m) * SE) + Real.exp (g - mf)
      = Real.exp (-mf) * (SE + Real.exp g) := by
    rw [e2, ← mul_assoc, e1]; ring
  rw [num, den, mul_div_mul_left _ _ (Real.exp_pos (-mf)).ne']

/-- A quotient of reals by a nonzero real, taken in the extended reals, is the real quotient. -/
theorem div_coe_coe (a b : ℝ) (hb : b ≠ 0) : Ideal.div (a : EReal) (b : EReal) = ((a / b : ℝ) : EReal) := by
  rw [Ideal.div_coe hb, ← EReal.coe_mul, mul_one_div]

/-- The two spellings of elu agree at a real: above zero both return it; otherwise the inner select returns it
    again and the product with one changes nothing. -/
theorem elu_eq (r : ℝ) :
    Scalar.select (Ideal.cmp .ogt (r : EReal) 0) (r : EReal) (Ideal.exp (r : EReal) - oneF)
      = Scalar.select (Ideal.cmp .ogt (r : EReal) 0) (r : EReal)
          (oneF * (Ideal.exp (Scalar.select (Ideal.cmp .ogt (r : EReal) 0) 0 (r : EReal)) - 1)) := by
  rw [oneF_eq, one_mul]
  by_cases h : 0 < r
  · have h' : (0 : EReal) < (r : EReal) := EReal.coe_pos.mpr h
    simp [Ideal.cmp, Scalar.select, h']
  · have h' : ¬ (0 : EReal) < (r : EReal) := fun hh => h (EReal.coe_pos.mp hh)
    simp [Ideal.cmp, Scalar.select, h']

section
variable (x : Fin 8192 → Fin 512 → EReal) (msk : Fin 8192 → Fin 8192 → BitVec 1)
  (W : Fin 512 → Fin 256 → EReal) (a1 a2 : Fin 256 → EReal) (i : Fin 8192)
  (s : Fin 8192 → ℝ) (g : ℝ) (v : Fin 8192 → Fin 256 → ℝ) (mu : Fin 256 → ℝ)

/-- The one-pass side's average, as a real: the softmax over the 8193 keys splits into the 8192 real keys and
    the virtual one. -/
theorem avgR_coe (hsR : ∀ j, sR x msk W a1 a2 i j = (s j : EReal)) (hgR : globR x W a1 a2 i = (g : EReal))
    (hv : ∀ j c, hh x W j c = (v j c : EReal)) (hmuR : ∀ c, meanR x W c = (mu c : EReal)) (c : Fin 256) :
    avgR x msk W a1 a2 i c
      = (((∑ j, Real.exp (s j) * v j c + Real.exp g * mu c) / (∑ j, Real.exp (s j) + Real.exp g) : ℝ) : EReal) := by
  let e : Fin 8193 → ℝ := fun j => if hj : j.val < 8192 then s ⟨j.val, hj⟩ else g
  let w : Fin 8193 → ℝ := fun j => if hj : j.val < 8192 then v ⟨j.val, hj⟩ c else mu c
  have he : eAll x msk W a1 a2 i = fun j => (e j : EReal) := by
    funext j
    simp only [eAll, e]
    split_ifs
    · exact hsR _
    · exact hgR
  have hw : ∀ j, hAll x W j c = (w j : EReal) := by
    intro j
    simp only [hAll, w]
    split_ifs
    · exact hv _ _
    · exact hmuR _
  obtain ⟨MR, hMR⟩ := fold_max_isR (Finset.univ : Finset (Fin 8193)) Finset.univ_nonempty e
  have hmax : maxR x msk W a1 a2 i = (MR : EReal) := by
    rw [maxR, negInf_eq, he, hMR, bot_sup_eq]
  have hp : ∀ j, pR x msk W a1 a2 i j = ((Real.exp (e j - MR) : ℝ) : EReal) := by
    intro j
    rw [pR, hmax, he, ← EReal.coe_sub, Ideal.exp_coe]
  have hsum : sumR x msk W a1 a2 i = ((∑ j, Real.exp (e j - MR) : ℝ) : EReal) := by
    simp only [sumR, hp, coe_sum]
  have hS : (∑ j, Real.exp (e j - MR)) ≠ 0 :=
    (Finset.sum_pos (fun j _ => Real.exp_pos _) Finset.univ_nonempty).ne'
  have hatt : ∀ j, attR x msk W a1 a2 i j
      = ((Real.exp (e j - MR) / (∑ k, Real.exp (e k - MR)) : ℝ) : EReal) := by
    intro j
    rw [attR, hp, hsum, div_coe_coe _ _ hS]
  have e_cs : ∀ j : Fin 8192, e j.castSucc = s j := by
    intro j; simp [e]
  have e_last : e (Fin.last 8192) = g := by simp [e]
  have w_cs : ∀ j : Fin 8192, w j.castSucc = v j c := by
    intro j; simp [w]
  have w_last : w (Fin.last 8192) = mu c := by simp [w]
  have hnum : ∑ j, Real.exp (e j) * w j = ∑ j : Fin 8192, Real.exp (s j) * v j c + Real.exp g * mu c := by
    rw [Fin.sum_univ_castSucc]; simp only [e_cs, e_last, w_cs, w_last]
  have hden : ∑ j, Real.exp (e j) = ∑ j : Fin 8192, Real.exp (s j) + Real.exp g := by
    rw [Fin.sum_univ_castSucc]; simp only [e_cs, e_last]
  simp only [avgR, hatt, hw, ← EReal.coe_mul, coe_sum]
  rw [softmax_shift e w MR, hnum, hden]

/-- The tiled side's quotient, as the same real. -/
theorem outK_coe (hs : ∀ j, sK x msk W a1 a2 i j = (s j : EReal)) (hg : globK x W a1 a2 i = (g : EReal))
    (hv : ∀ j c, hh x W j c = (v j c : EReal)) (hmu : ∀ c, meanK x W c = (mu c : EReal)) (c : Fin 256) :
    outK x msk W a1 a2 i c
      = Scalar.select (Ideal.cmp .ogt
          (((∑ j, Real.exp (s j) * v j c + Real.exp g * mu c) / (∑ j, Real.exp (s j) + Real.exp g) : ℝ) : EReal) 0)
          (((∑ j, Real.exp (s j) * v j c + Real.exp g * mu c) / (∑ j, Real.exp (s j) + Real.exp g) : ℝ) : EReal)
          (Ideal.exp (((∑ j, Real.exp (s j) * v j c + Real.exp g * mu c)
            / (∑ j, Real.exp (s j) + Real.exp g) : ℝ) : EReal) - oneF) := by
  obtain ⟨m, hm⟩ := stK_final x msk W a1 a2 i s v hs hv
  have hSE : 0 ≤ ∑ j, Real.exp (s j) := Finset.sum_nonneg (fun j _ => (Real.exp_pos _).le)
  have hlf : Real.exp (m - max m g) * (Real.exp (-m) * ∑ j, Real.exp (s j)) + Real.exp (g - max m g) ≠ 0 :=
    (add_pos_of_nonneg_of_pos (mul_nonneg (Real.exp_pos _).le (mul_nonneg (Real.exp_pos _).le hSE))
      (Real.exp_pos _)).ne'
  simp only [outK, hm, hg, hmu, coe_max, ← EReal.coe_sub, Ideal.exp_coe, ← EReal.coe_mul, ← EReal.coe_add]
  rw [div_coe_coe _ _ hlf, merge_ratio]
  simp only [Ideal.exp_coe]

end

/-- The tiled computation and the one-pass computation agree on finite inputs. -/
theorem outK_eq_outR (x : Fin 8192 → Fin 512 → EReal) (msk : Fin 8192 → Fin 8192 → BitVec 1)
    (W : Fin 512 → Fin 256 → EReal) (a1 a2 : Fin 256 → EReal)
    (hx : ∀ i k, x i k ≠ ⊤ ∧ x i k ≠ ⊥) (hW : ∀ k c, W k c ≠ ⊤ ∧ W k c ≠ ⊥)
    (ha1 : ∀ c, a1 c ≠ ⊤ ∧ a1 c ≠ ⊥) (ha2 : ∀ c, a2 c ≠ ⊤ ∧ a2 c ≠ ⊥)
    (i : Fin 8192) (c : Fin 256) : outK x msk W a1 a2 i c = outR x msk W a1 a2 i c := by
  choose v hv using hh_isR x W hx hW
  choose mu hmu using meanK_isR x W hx hW
  choose s hs using sK_isR x msk W a1 a2 hx hW ha1 ha2 i
  obtain ⟨g, hg⟩ := globK_isR x W a1 a2 hx hW ha1 ha2 i
  have hsR : ∀ j, sR x msk W a1 a2 i j = (s j : EReal) := fun j => by
    rw [← sK_eq_sR x msk W a1 a2 hx hW ha1 ha2]; exact hs j
  have hgR : globR x W a1 a2 i = (g : EReal) := by
    rw [← globK_eq_globR x W a1 a2 hx hW ha1 ha2]; exact hg
  have hmuR : ∀ c, meanR x W c = (mu c : EReal) := fun c => by
    rw [← meanK_eq_meanR]; exact hmu c
  rw [outK_coe x msk W a1 a2 i s g v mu hs hg hv hmu c]
  simp only [outR]
  rw [avgR_coe x msk W a1 a2 i s g v mu hsR hgR hv hmuR c]
  exact elu_eq _

end GatSpec

end
-- ==== Proof.Finite.lean ====
/-
  From the precondition to real entries. The precondition is the conjunction of four statements
  "every entry of this float array has absolute value below +∞", each printed as a reduction by
  conjunction, over every axis, of the array of comparison bits. Read at the extended reals, where
  |x| is max x (-x) and the pattern 0x7F800000 denotes ⊤, the comparison bit at an entry is set exactly
  when max x (-x) < ⊤, which excludes x = ⊤ (then max x (-x) = ⊤) and x = ⊥ (then -x = ⊤). So when
  the whole predicate is 1, every entry of each of the four float arrays is a real number.
-/
import proofs.«430248_j1580547967873_3_alg».proof.Defs
import Idealize.ShloMosaic.Lib.ReduceAll
import Idealize.ShloMosaic.Lib.ValueIdx
import Idealize.ShloMosaic.Lib.IdealHost

noncomputable section

namespace Cert.Finite

open Idealize.ShloMosaic

/-- The result shape of a reduction over every axis has exactly one index. -/
instance : Subsingleton Cert.Pre_finite_inputs.S_.Idx := ⟨fun a b => funext fun d => d.elim0⟩

/-- The f32 pattern 0x7F800000 (exponent all ones, fraction zero, sign clear) denotes ⊤. -/
theorem ofBits_inf : Ideal.ofBits .f32 0x7F800000#32 = (⊤ : EReal) := by
  simp [Ideal.ofBits, Ideal.ieee]

/-- An extended real whose absolute value max x (-x) compares below the pattern of +∞ is neither ⊤
    nor ⊥: at ⊤ the maximum is ⊤, and at ⊥ the negation is ⊤, so in both cases the strict comparison
    with ⊤ fails. -/
theorem real_of_abs_lt_inf (x : EReal)
    (h : Ideal.cmp .olt (max x (-x)) (Ideal.ofBits .f32 0x7F800000#32) = 1#1) : x ≠ ⊤ ∧ x ≠ ⊥ := by
  rw [ofBits_inf] at h
  induction x using EReal.rec with
  | bot => exact absurd h (by simp [Ideal.cmp])
  | coe r => exact ⟨EReal.coe_ne_top r, EReal.coe_ne_bot r⟩
  | top => exact absurd h (by simp [Ideal.cmp])

/-- One conjunct of the predicate, at any shape: if the reduction by conjunction over every axis of
    the bits "|x i| < +∞" is 1, then every entry of x is a real. Every bit that reduces into the
    single result index is 1, and each bit is the comparison of the element fact above. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr h0 ValueIdx.ix0 = 1#1) :
    ∀ i, x i ≠ ⊤ ∧ x i ≠ ⊥ := by
  intro i
  have hi := Host.reduce_andi_all _ _ hr h0 ValueIdx.ix0 e i
  exact real_of_abs_lt_inf (x i) hi

/-- The precondition read back: when the printed predicate of the five argument arrays is all ones,
    every entry of each of the four float arrays is a real number (the integer array carries no
    condition). The predicate is a conjunction of four reductions; a conjunction of bits is 1 exactly
    when both bits are, and each reduction is read by `all_real`. -/
theorem finite_of_fn [hPre : Cert.Pre_finite_inputs.Facts]
    (x : FVec Ideal Cert.Pre_finite_inputs.S8192x512 .f32) (adj : IVec Cert.Pre_finite_inputs.S8192x8192 32)
    (W : FVec Ideal Cert.Pre_finite_inputs.S512x256 .f32) (a1 a2 : FVec Ideal Cert.Pre_finite_inputs.S256x1 .f32)
    (h : Cert.Pre_finite_inputs.fn (F := Ideal) x adj W a1 a2 = (fun _ => 1#1)) :
    (∀ i, x i ≠ ⊤ ∧ x i ≠ ⊥) ∧ (∀ i, W i ≠ ⊤ ∧ W i ≠ ⊥) ∧ (∀ i, a1 i ≠ ⊤ ∧ a1 i ≠ ⊥) ∧ (∀ i, a2 i ≠ ⊤ ∧ a2 i ≠ ⊥) := by
  have h1 := congrFun h ValueIdx.ix0
  dsimp only [Cert.Pre_finite_inputs.fn, Cert.Pre_finite_inputs.fn_part1, andi] at h1
  obtain ⟨h123, h4⟩ := IntOp.andi_eq_one.1 h1
  obtain ⟨h12, h3⟩ := IntOp.andi_eq_one.1 h123
  obtain ⟨hx, hW⟩ := IntOp.andi_eq_one.1 h12
  exact ⟨all_real x _ _ _ hx, all_real W _ _ _ hW, all_real a1 _ _ _ h3, all_real a2 _ _ _ h4⟩

end Cert.Finite

end
-- ==== Proof.lean ====
/-
  A graph-attention layer with one virtual global node, computed two ways.

  The kernel program: a first pallas_call forms h = x·W, the two logit columns h·a1 and h·a2, and per row tile the
  column sums of h; host operations turn the tile sums into the mean row (times 2^-13), the virtual key's score, the
  second logit column as a row, and the value matrix widened by a ones column; a second pallas_call walks, for each
  tile of 2048 rows, the 8192 keys in 32 tiles of 256 with an online softmax — a running row maximum, denominator and
  numerator in three scratch buffers, rescaled whenever the maximum grows, the denominator read off the ones column of
  the same matrix product that forms the numerator — and at the last key tile folds in the virtual key, divides, and
  applies elu. The reference: one softmax over the 8193 scores of each row, the weighted average of the 8193 value rows,
  elu.

  On the extended reals, from finite inputs, both are the same function of the inputs: every quantity is a real number;
  leaky-relu as max(v, αv) is the select on the sign because 0 < α < 1; the mean as a product with 2^-13 of regrouped
  sums is the quotient by 8192; the rescaling identity exp(m − m')·exp(s − m) = exp(s − m') makes the running state after
  all key tiles the one-pass softmax's numerator and denominator at the final maximum; the quotient of sums is the
  sum of quotients because the denominator is positive; and exp(o) − 1 is the same either way.

  The three frame claims: each kernel program runs region by region (every grid point's body obligation, the scratch
  buffers' contents carried in the second region's invariant) and writes only its own results; the reference is a
  straight line of host operations. The ideal pass rewrote nothing, so the idealization claim is trivial.
-/
import proofs.«430248_j1580547967873_3_alg».proof.Defs
import proofs.«430248_j1580547967873_3_alg».proof.Proof.Gen.Kernel
import proofs.«430248_j1580547967873_3_alg».proof.Proof.Gen.KernelIdeal
import proofs.«430248_j1580547967873_3_alg».proof.Proof.Gen.ReferenceIdeal
import proofs.«430248_j1580547967873_3_alg».proof.Proof.Gen.Pre_finite_inputs
import proofs.«430248_j1580547967873_3_alg».proof.Proof.KbRun
import proofs.«430248_j1580547967873_3_alg».proof.Proof.KiRun
import proofs.«430248_j1580547967873_3_alg».proof.Proof.KiVal1
import proofs.«430248_j1580547967873_3_alg».proof.Proof.RefRun
import proofs.«430248_j1580547967873_3_alg».proof.Proof.RefVal
import proofs.«430248_j1580547967873_3_alg».proof.Proof.Softmax
import proofs.«430248_j1580547967873_3_alg».proof.Proof.Finite
import Idealize.ShloMosaic.Adequacy
import Idealize.ShloMosaic.Init

noncomputable section

namespace Cert.Proof

open Idealize.ShloMosaic Idealize.ShloMosaic.TcCoe Idealize.SL.Sem ValueIdx

/-- The word-level kernel program runs and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference runs; its frame is its run with the result dropped. -/
theorem frame_ri : Cert.frame_ReferenceIdeal := fun m ρ _ =>
  (θ_run Cert.ReferenceIdeal.defs _ _).mono (fun _ h c => (h c).2) (Cert.ReferenceIdeal.Hand.ref_run (F := Ideal) m ρ)

/-- The ideal pass rewrote nothing. -/
theorem preserves : Cert.preserves_Kernel_KernelIdeal := trivial

/-- From memories agreeing on the five arguments, the kernel program's result array (what the second region's
    write-backs leave) and the reference's result are the same array: entry by entry the tiled online softmax and the
    one-pass softmax agree on finite inputs. -/
theorem algebraic : Cert.algebraic_KernelIdeal_ReferenceIdeal := by
  intro m ρ m' ρ' hpre hagree
  refine ⟨fun c => (Cert.KernelIdeal.Fr.dat1 (Cert.KernelIdeal.Fr.Ve2 m) c).arrAt 6 Cert.KernelIdeal.cfg1.N,
    Cert.KernelIdeal.Fr.run_value m ρ, ?_⟩
  refine (θ_run Cert.ReferenceIdeal.defs _ _).mono (fun _ h c => ⟨(h c).1.trans ?_, (h c).2⟩)
    (Cert.ReferenceIdeal.Hand.ref_run (F := Ideal) m' ρ')
  rw [(hagree c).1, (hagree c).2.1, (hagree c).2.2.1, (hagree c).2.2.2.1, (hagree c).2.2.2.2]
  obtain ⟨hx, hW, ha1, ha2⟩ := Cert.Finite.finite_of_fn _ _ _ _ _ (hpre c)
  funext idx
  obtain ⟨i, c', rfl⟩ : ∃ (i : Fin 8192) (c' : Fin 256), idx = ix2 i c' := ⟨idx 0, idx 1, eq_ix2 idx⟩
  rw [Cert.ReferenceIdeal.Hand.refTerm_apply]
  refine ((GatSpec.outK_eq_outR _ _ _ _ _ (fun i k => hx (ix2 i k)) (fun k c => hW (ix2 k c)) (fun c => ha1 (ix2 c 0))
    (fun c => ha2 (ix2 c 0)) i c').symm.trans ?_)
  exact (Cert.KernelIdeal.Val.final_out m c i c').symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
